-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) (main_arg2 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1024x1024 : Shape := ⟨2, ![1024, 1024]⟩
abbrev S256x256 : Shape := ⟨2, ![256, 256]⟩
abbrev S128x1024 : Shape := ⟨2, ![128, 1024]⟩

abbrev nBuf : Space → Nat
  | .hbm => 11
  | .vmem => 49
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg2_1 : Ref sig .tc := ⟨.vmem, 38, rfl⟩
abbrev cc1_stg3_0 : Ref sig .tc := ⟨.vmem, 39, rfl⟩
abbrev cc1_stg3_1 : Ref sig .tc := ⟨.vmem, 40, rfl⟩
abbrev cc1_stg4_0 : Ref sig .tc := ⟨.vmem, 41, rfl⟩
abbrev cc1_stg4_1 : Ref sig .tc := ⟨.vmem, 42, rfl⟩
abbrev cc1_stg5_0 : Ref sig .tc := ⟨.vmem, 43, rfl⟩
abbrev cc1_stg5_1 : Ref sig .tc := ⟨.vmem, 44, rfl⟩
abbrev cc1_stg6_0 : Ref sig .tc := ⟨.vmem, 45, rfl⟩
abbrev cc1_stg6_1 : Ref sig .tc := ⟨.vmem, 46, rfl⟩
abbrev cc1_stg7_0 : Ref sig .tc := ⟨.vmem, 47, rfl⟩
abbrev cc1_stg7_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v57 : BitVec 1 := Scalar.cmpi .eq arg2 c3_i32
  let v58 : BitVec 32 := Scalar.extui v57
  let c0_i32_46 : BitVec 32 := 0#32
  let v59 : BitVec 1 := Scalar.cmpi .ne v58 c0_i32_46
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x1024.size a
  hwx0_0 : ∀ i : grid0.Coords, EltTy.bits .f32 = 32 ∨ (Rect.block (s := S1024x1024) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x1024.size a
  hwx0_1 : ∀ i : grid0.Coords, EltTy.bits .f32 = 32 ∨ (Rect.block (s := S1024x1024) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x1024.size a
  hwx0_2 : ∀ i : grid0.Coords, EltTy.bits .f32 = 32 ∨ (Rect.block (s := S1024x1024) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x1024.size a
  hwx0_3 : ∀ i : grid0.Coords, EltTy.bits .f32 = 32 ∨ (Rect.block (s := S1024x1024) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S1024x1024.size a
  hwx0_4 : ∀ i : grid0.Coords, EltTy.bits .f32 = 32 ∨ (Rect.block (s := S1024x1024) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S1024x1024.size a
  hwx0_5 : ∀ i : grid0.Coords, EltTy.bits .f32 = 32 ∨ (Rect.block (s := S1024x1024) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S1024x1024.size a
  hwx0_6 : ∀ i : grid0.Coords, EltTy.bits .f32 = 32 ∨ (Rect.block (s := S1024x1024) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S1024x1024.size a
  hwx0_7 : ∀ i : grid0.Coords, EltTy.bits .f32 = 32 ∨ (Rect.block (s := S1024x1024) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S1024x1024.size a
  hwx0_8 : ∀ i : grid0.Coords, EltTy.bits .f32 = 32 ∨ (Rect.block (s := S1024x1024) S256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S1024x1024.size a
  hwx0_9 : ∀ i : grid0.Coords, EltTy.bits .f32 = 32 ∨ (Rect.block (s := S1024x1024) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S1024x1024.size a
  hwx0_10 : ∀ i : grid0.Coords, EltTy.bits .f32 = 32 ∨ (Rect.block (s := S1024x1024) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S1024x1024.size a
  hwx0_11 : ∀ i : grid0.Coords, EltTy.bits .f32 = 32 ∨ (Rect.block (s := S1024x1024) S256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S1024x1024.size a
  hwx0_12 : ∀ i : grid0.Coords, EltTy.bits .f32 = 32 ∨ (Rect.block (s := S1024x1024) S256x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S1024x1024.size a
  hwx1_1 : ∀ i : grid1.Coords, EltTy.bits .f32 = 32 ∨ (Rect.block (s := S1024x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S1024x1024.size a
  hwx1_2 : ∀ i : grid1.Coords, EltTy.bits .f32 = 32 ∨ (Rect.block (s := S1024x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S1024x1024.size a
  hwx1_3 : ∀ i : grid1.Coords, EltTy.bits .f32 = 32 ∨ (Rect.block (s := S1024x1024) S128x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S1024x1024.size a
  hwx1_4 : ∀ i : grid1.Coords, EltTy.bits .f32 = 32 ∨ (Rect.block (s := S1024x1024) S128x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S1024x1024.size a
  hwx1_5 : ∀ i : grid1.Coords, EltTy.bits .f32 = 32 ∨ (Rect.block (s := S1024x1024) S128x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S1024x1024.size a
  hwx1_6 : ∀ i : grid1.Coords, EltTy.bits .f32 = 32 ∨ (Rect.block (s := S1024x1024) S128x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S1024x1024.size a
  hwx1_7 : ∀ i : grid1.Coords, EltTy.bits .f32 = 32 ∨ (Rect.block (s := S1024x1024) S128x1024.size (cc1_transform_7 i) (hinb1_7 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S256x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_4) S256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_5) S256x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_6) S256x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | 12 => fun i => !(k0_cond2 i == 1#1) | ⟨_ + 13, h⟩ => absurd h (Nat.not_lt.2 (Nat.le_add_left _ _))

abbrev win1_0 : Pipeline.Window sig grid1 :=
  Pipeline.Window.ofSpec (Memref.whole main_v0_0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_4) S128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_5) S128x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_6) S128x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1) S128x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S1024x1024, .f32⟩
  | .hbm, ⟨90, _⟩ => ⟨S1024x1024, .f32⟩
  | .hbm, ⟨91, _⟩ => ⟨S1024x1024, .f32⟩
  | .hbm, ⟨92, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.K.R0Base.lean ====
import proofs.«173517_j27041114096025_1_alg».proof.Proof.Gen.Kernel.Launch
import proofs.«173517_j27041114096025_1_alg».proof.Proof.Gen.Kernel.Skeleton
import proofs.«173517_j27041114096025_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place: unfetched, the block index
    has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the block index
    has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the block index
    has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: unfetched, the block index
    has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: unfetched, the block index
    has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the region-entry contents and whose body leaves the block in place: unfetched, the block index
    has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (reset the accumulators) is taken when the reduction coordinate `k` (the grid's last) is 0:
    the scalar chain the body computes from the coordinates, substituted. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4): the last coordinate of point `t` of the 4×4×4 grid is `t % 4`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulators out) is taken when `k` is 3. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Output window 6: where `k = 0` (case A) and where `k = 1, 2` (case B) the body stores nothing into it, the window is
    idle there and its block is not written back; where `k = 3` (case C) it is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Output window 7: where `k = 0` (case A) and where `k = 1, 2` (case B) the body stores nothing into it, the window is
    idle there and its block is not written back; where `k = 3` (case C) it is live. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
/-- Output window 8: where `k = 0` (case A) and where `k = 1, 2` (case B) the body stores nothing into it, the window is
    idle there and its block is not written back; where `k = 3` (case C) it is live. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel
/-- Output window 9: where `k = 0` (case A) and where `k = 1, 2` (case B) the body stores nothing into it, the window is
    idle there and its block is not written back; where `k = 3` (case C) it is live. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel
/-- Output window 10: where `k = 0` (case A) and where `k = 1, 2` (case B) the body stores nothing into it, the window is
    idle there and its block is not written back; where `k = 3` (case C) it is live. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem liveAt0_10_C : ∀ t : Fin cfg0.N, ¬cond0_0 (grid0.coords t) → cond0_1 (grid0.coords t) → cfg0.idle 10 (grid0.coords t) = false := by decide +kernel
/-- Output window 11: where `k = 0` (case A) and where `k = 1, 2` (case B) the body stores nothing into it, the window is
    idle there and its block is not written back; where `k = 3` (case C) it is live. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
theorem idleAt0_11_B : ∀ t : Fin cfg0.N, ¬cond0_0 (grid0.coords t) → ¬cond0_1 (grid0.coords t) → cfg0.idle 11 (grid0.coords t) = true := by decide +kernel
theorem noFlush0_11_B : ∀ t : Fin cfg0.N, ¬cond0_0 (grid0.coords t) → ¬cond0_1 (grid0.coords t) → (cfg0.win 11).flush t = false := by decide +kernel
theorem liveAt0_11_C : ∀ t : Fin cfg0.N, ¬cond0_0 (grid0.coords t) → cond0_1 (grid0.coords t) → cfg0.idle 11 (grid0.coords t) = false := by decide +kernel
/-- Output window 12: where `k = 0` (case A) and where `k = 1, 2` (case B) the body stores nothing into it, the window is
    idle there and its block is not written back; where `k = 3` (case C) it is live. -/
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem idleAt0_12_B : ∀ t : Fin cfg0.N, ¬cond0_0 (grid0.coords t) → ¬cond0_1 (grid0.coords t) → cfg0.idle 12 (grid0.coords t) = true := by decide +kernel
theorem noFlush0_12_B : ∀ t : Fin cfg0.N, ¬cond0_0 (grid0.coords t) → ¬cond0_1 (grid0.coords t) → (cfg0.win 12).flush t = false := by decide +kernel
theorem liveAt0_12_C : ∀ t : Fin cfg0.N, ¬cond0_0 (grid0.coords t) → cond0_1 (grid0.coords t) → cfg0.idle 12 (grid0.coords t) = false := by decide +kernel

/-! ## The memrefs the body runs on -/

/-- One staging buffer of output window 6, through which its contents are stated (the choice does not matter: pieces that
    cover a block read back the same through any whole view). -/
abbrev VO0_6 : View sig .tc .vmem S256x256 .f32 := (Memref.whole cc0_stg6_0 : Memref sig .tc .vmem S256x256 .f32).view
/-- One staging buffer of output window 7, through which its contents are stated (the choice does not matter: pieces that
    cover a block read back the same through any whole view). -/
abbrev VO0_7 : View sig .tc .vmem S256x256 .f32 := (Memref.whole cc0_stg7_0 : Memref sig .tc .vmem S256x256 .f32).view
/-- One staging buffer of output window 8, through which its contents are stated (the choice does not matter: pieces that
    cover a block read back the same through any whole view). -/
abbrev VO0_8 : View sig .tc .vmem S256x256 .f32 := (Memref.whole cc0_stg8_0 : Memref sig .tc .vmem S256x256 .f32).view
/-- One staging buffer of output window 9, through which its contents are stated (the choice does not matter: pieces that
    cover a block read back the same through any whole view). -/
abbrev VO0_9 : View sig .tc .vmem S256x256 .f32 := (Memref.whole cc0_stg9_0 : Memref sig .tc .vmem S256x256 .f32).view
/-- One staging buffer of output window 10, through which its contents are stated (the choice does not matter: pieces that
    cover a block read back the same through any whole view). -/
abbrev VO0_10 : View sig .tc .vmem S256x256 .f32 := (Memref.whole cc0_stg10_0 : Memref sig .tc .vmem S256x256 .f32).view
/-- One staging buffer of output window 11, through which its contents are stated (the choice does not matter: pieces that
    cover a block read back the same through any whole view). -/
abbrev VO0_11 : View sig .tc .vmem S256x256 .f32 := (Memref.whole cc0_stg11_0 : Memref sig .tc .vmem S256x256 .f32).view
/-- One staging buffer of output window 12, through which its contents are stated (the choice does not matter: pieces that
    cover a block read back the same through any whole view). -/
abbrev VO0_12 : View sig .tc .vmem S256x256 .f32 := (Memref.whole cc0_stg12_0 : Memref sig .tc .vmem S256x256 .f32).view
/-- Each window's current staging memref at point `t`, as the pipeline passes it to the body, and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .f32 := win0_12.stage (cfg0.slots t 12)
abbrev hs0_12 (t : Fin cfg0.N) : (ms0_12 t).IsWhole := hstage0_12 ((cfg0.slots t 12).cast nbuf0_12)
/-- The seven accumulators: whole scoped buffers of the kernel's own, passed beside the windows and carried from one
    grid point to the next; and each as a view, through which what it holds is stated. -/
abbrev scM0_0 : Memref sig .tc .vmem S256x256 .f32 := Memref.whole cc0_scratch0
abbrev VS0_0 : View sig .tc .vmem S256x256 .f32 := scM0_0.view
abbrev scM0_1 : Memref sig .tc .vmem S256x256 .f32 := Memref.whole cc0_scratch1
abbrev VS0_1 : View sig .tc .vmem S256x256 .f32 := scM0_1.view
abbrev scM0_2 : Memref sig .tc .vmem S256x256 .f32 := Memref.whole cc0_scratch2
abbrev VS0_2 : View sig .tc .vmem S256x256 .f32 := scM0_2.view
abbrev scM0_3 : Memref sig .tc .vmem S256x256 .f32 := Memref.whole cc0_scratch3
abbrev VS0_3 : View sig .tc .vmem S256x256 .f32 := scM0_3.view
abbrev scM0_4 : Memref sig .tc .vmem S256x256 .f32 := Memref.whole cc0_scratch4
abbrev VS0_4 : View sig .tc .vmem S256x256 .f32 := scM0_4.view
abbrev scM0_5 : Memref sig .tc .vmem S256x256 .f32 := Memref.whole cc0_scratch5
abbrev VS0_5 : View sig .tc .vmem S256x256 .f32 := scM0_5.view
abbrev scM0_6 : Memref sig .tc .vmem S256x256 .f32 := Memref.whole cc0_scratch6
abbrev VS0_6 : View sig .tc .vmem S256x256 .f32 := scM0_6.view

/-! ## The region invariant before the first point -/

/-- The core's scoped buffers that are neither this region's staging buffers nor its accumulators (the second
    region's sixteen staging buffers), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant the launch hands the region: the seven accumulators owned at some contents, the untouched rest, and
    the generator register at some state (a whole buffer owned through its whole memref is its points-to). -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ rest0 (F := F) c) ∗ (∃ r, prngReg c r)) := by
  unfold Pipeline.ΦA rest0; rw [scopedRest0_eq]; simp only [scM0_0, scM0_1, scM0_2, scM0_3, scM0_4, scM0_5, scM0_6, owns_whole]; try rfl

end Cert.Kernel.Hand

end
-- ==== Proof.K.R0RunA.lean ====
import proofs.«173517_j27041114096025_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 0`. The first branch is taken, the second is not: every accumulator is reset to zero and then
    takes its product's first term. On whole memrefs — the six input blocks at `x0 … x5`, the seven outputs at contents
    `xi6 … xi12` that the body hands back untouched, the accumulators at anything — the body runs to any continuation that
    accepts the inputs and outputs as they were and each accumulator with the pieces its stores wrote (`LS0 … LS6`, the
    last store first). The pieces are the witness the run finds. -/
noncomputable def kernelRun0_A (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) :
    Σ' (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (xi6 xi7 xi8 xi9 xi10 xi11 xi12 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun xi6 xi7 xi8 xi9 xi10 xi11 xi12 E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel.Hand

end
-- ==== Proof.K.R0RunB.lean ====
import proofs.«173517_j27041114096025_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 1, 2`. Neither branch is taken: every accumulator, found at what the point before left
    (`xs0 … xs6`), takes its product's next term. The outputs are handed back untouched; the pieces each accumulator's store
    wrote are the witness the run finds. -/
noncomputable def kernelRun0_B (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    Σ' (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (xi6 xi7 xi8 xi9 xi10 xi11 xi12 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
            ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun xi6 xi7 xi8 xi9 xi10 xi11 xi12 E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hfs0
    obtain rfl := harg17.eq_unread hfs1
    obtain rfl := harg18.eq_unread hfs2
    obtain rfl := harg19.eq_unread hfs3
    obtain rfl := harg20.eq_unread hfs4
    obtain rfl := harg21.eq_unread hfs5
    obtain rfl := harg22.eq_unread hfs6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel.Hand

end
-- ==== Proof.K.R0RunC.lean ====
import proofs.«173517_j27041114096025_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 3`. The first branch is not taken, the second is: every accumulator, found at what the point
    before left (`xs0 … xs6`), takes its product's last term and is then copied whole into its output. The outputs are
    taken at anything; the pieces each output's and each accumulator's stores wrote (`L6 … L12`, `LS0 … LS6`) are the witness
    the run finds. -/
noncomputable def kernelRun0_C (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    Σ' (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12)
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, ?_, fun E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg16.eq_unread hfs0
    obtain rfl := harg17.eq_unread hfs1
    obtain rfl := harg18.eq_unread hfs2
    obtain rfl := harg19.eq_unread hfs3
    obtain rfl := harg20.eq_unread hfs4
    obtain rfl := harg21.eq_unread hfs5
    obtain rfl := harg22.eq_unread hfs6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel.Hand

end
-- ==== Proof.K.R0Data.lean ====
import proofs.«173517_j27041114096025_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## What each case leaves in the accumulators and the outputs -/

/-- An output the body does not store into at a point holds nothing the certificate reads there (the window is idle and its
    block is not written back): a placeholder. -/
def out0_idle : Vec F S256x256 .f32 := VO0_6.read (Elt F) (VO0_6.writes (Elt F) VO0_6.junk [])

/-- The stores into accumulator 0 where `k = 0` each write the whole buffer: the pieces tile it, so they cover it. -/
theorem scover0_A_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1 S256x256.size (by sl_kernel_rfl) y
/-- What the body leaves in accumulator 0 where `k = 0`: its pieces read back. -/
def sout0_A_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1)

/-- The stores into accumulator 1 where `k = 0` each write the whole buffer: the pieces tile it, so they cover it. -/
theorem scover0_A_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1 S256x256.size (by sl_kernel_rfl) y
/-- What the body leaves in accumulator 1 where `k = 0`: its pieces read back. -/
def sout0_A_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1)

/-- The stores into accumulator 2 where `k = 0` each write the whole buffer: the pieces tile it, so they cover it. -/
theorem scover0_A_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1 S256x256.size (by sl_kernel_rfl) y
/-- What the body leaves in accumulator 2 where `k = 0`: its pieces read back. -/
def sout0_A_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1)

/-- The stores into accumulator 3 where `k = 0` each write the whole buffer: the pieces tile it, so they cover it. -/
theorem scover0_A_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1 S256x256.size (by sl_kernel_rfl) y
/-- What the body leaves in accumulator 3 where `k = 0`: its pieces read back. -/
def sout0_A_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1)

/-- The stores into accumulator 4 where `k = 0` each write the whole buffer: the pieces tile it, so they cover it. -/
theorem scover0_A_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1 S256x256.size (by sl_kernel_rfl) y
/-- What the body leaves in accumulator 4 where `k = 0`: its pieces read back. -/
def sout0_A_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1)

/-- The stores into accumulator 5 where `k = 0` each write the whole buffer: the pieces tile it, so they cover it. -/
theorem scover0_A_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1 S256x256.size (by sl_kernel_rfl) y
/-- What the body leaves in accumulator 5 where `k = 0`: its pieces read back. -/
def sout0_A_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_5.read (Elt F) (VS0_5.writes (Elt F) VS0_5.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1)

/-- The stores into accumulator 6 where `k = 0` each write the whole buffer: the pieces tile it, so they cover it. -/
theorem scover0_A_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1 S256x256.size (by sl_kernel_rfl) y
/-- What the body leaves in accumulator 6 where `k = 0`: its pieces read back. -/
def sout0_A_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_6.read (Elt F) (VS0_6.writes (Elt F) VS0_6.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1)

/-- The stores into accumulator 0 where `k = 1, 2` each write the whole buffer: the pieces tile it, so they cover it. -/
theorem scover0_B_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1 S256x256.size (by sl_kernel_rfl) y
/-- What the body leaves in accumulator 0 where `k = 1, 2`: its pieces read back. -/
def sout0_B_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1)

/-- The stores into accumulator 1 where `k = 1, 2` each write the whole buffer: the pieces tile it, so they cover it. -/
theorem scover0_B_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1 S256x256.size (by sl_kernel_rfl) y
/-- What the body leaves in accumulator 1 where `k = 1, 2`: its pieces read back. -/
def sout0_B_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1)

/-- The stores into accumulator 2 where `k = 1, 2` each write the whole buffer: the pieces tile it, so they cover it. -/
theorem scover0_B_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1 S256x256.size (by sl_kernel_rfl) y
/-- What the body leaves in accumulator 2 where `k = 1, 2`: its pieces read back. -/
def sout0_B_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1)

/-- The stores into accumulator 3 where `k = 1, 2` each write the whole buffer: the pieces tile it, so they cover it. -/
theorem scover0_B_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1 S256x256.size (by sl_kernel_rfl) y
/-- What the body leaves in accumulator 3 where `k = 1, 2`: its pieces read back. -/
def sout0_B_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1)

/-- The stores into accumulator 4 where `k = 1, 2` each write the whole buffer: the pieces tile it, so they cover it. -/
theorem scover0_B_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1 S256x256.size (by sl_kernel_rfl) y
/-- What the body leaves in accumulator 4 where `k = 1, 2`: its pieces read back. -/
def sout0_B_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1)

/-- The stores into accumulator 5 where `k = 1, 2` each write the whole buffer: the pieces tile it, so they cover it. -/
theorem scover0_B_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1 S256x256.size (by sl_kernel_rfl) y
/-- What the body leaves in accumulator 5 where `k = 1, 2`: its pieces read back. -/
def sout0_B_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_5.read (Elt F) (VS0_5.writes (Elt F) VS0_5.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1)

/-- The stores into accumulator 6 where `k = 1, 2` each write the whole buffer: the pieces tile it, so they cover it. -/
theorem scover0_B_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1 S256x256.size (by sl_kernel_rfl) y
/-- What the body leaves in accumulator 6 where `k = 1, 2`: its pieces read back. -/
def sout0_B_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_6.read (Elt F) (VS0_6.writes (Elt F) VS0_6.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1)

/-- The store into output 6 where `k = 3` writes its whole block: the pieces tile it, so they cover it. -/
theorem cover0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1 S256x256.size (by sl_kernel_rfl) y
/-- What the body leaves in output 6's staging buffer where `k = 3`: its pieces read back (over anything: they cover). -/
def out0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1)

/-- The store into output 7 where `k = 3` writes its whole block: the pieces tile it, so they cover it. -/
theorem cover0_C_7 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1 S256x256.size (by sl_kernel_rfl) y
/-- What the body leaves in output 7's staging buffer where `k = 3`: its pieces read back (over anything: they cover). -/
def out0_C_7 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1)

/-- The store into output 8 where `k = 3` writes its whole block: the pieces tile it, so they cover it. -/
theorem cover0_C_8 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1 S256x256.size (by sl_kernel_rfl) y
/-- What the body leaves in output 8's staging buffer where `k = 3`: its pieces read back (over anything: they cover). -/
def out0_C_8 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1)

/-- The store into output 9 where `k = 3` writes its whole block: the pieces tile it, so they cover it. -/
theorem cover0_C_9 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1 S256x256.size (by sl_kernel_rfl) y
/-- What the body leaves in output 9's staging buffer where `k = 3`: its pieces read back (over anything: they cover). -/
def out0_C_9 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1)

/-- The store into output 10 where `k = 3` writes its whole block: the pieces tile it, so they cover it. -/
theorem cover0_C_10 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1 S256x256.size (by sl_kernel_rfl) y
/-- What the body leaves in output 10's staging buffer where `k = 3`: its pieces read back (over anything: they cover). -/
def out0_C_10 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1)

/-- The store into output 11 where `k = 3` writes its whole block: the pieces tile it, so they cover it. -/
theorem cover0_C_11 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1 S256x256.size (by sl_kernel_rfl) y
/-- What the body leaves in output 11's staging buffer where `k = 3`: its pieces read back (over anything: they cover). -/
def out0_C_11 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1)

/-- The store into output 12 where `k = 3` writes its whole block: the pieces tile it, so they cover it. -/
theorem cover0_C_12 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1 S256x256.size (by sl_kernel_rfl) y
/-- What the body leaves in output 12's staging buffer where `k = 3`: its pieces read back (over anything: they cover). -/
def out0_C_12 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1)

/-- The stores into accumulator 0 where `k = 3` each write the whole buffer: the pieces tile it, so they cover it. -/
theorem scover0_C_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1 S256x256.size (by sl_kernel_rfl) y
/-- What the body leaves in accumulator 0 where `k = 3`: its pieces read back. -/
def sout0_C_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1)

/-- The stores into accumulator 1 where `k = 3` each write the whole buffer: the pieces tile it, so they cover it. -/
theorem scover0_C_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1 S256x256.size (by sl_kernel_rfl) y
/-- What the body leaves in accumulator 1 where `k = 3`: its pieces read back. -/
def sout0_C_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1)

/-- The stores into accumulator 2 where `k = 3` each write the whole buffer: the pieces tile it, so they cover it. -/
theorem scover0_C_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1 S256x256.size (by sl_kernel_rfl) y
/-- What the body leaves in accumulator 2 where `k = 3`: its pieces read back. -/
def sout0_C_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1)

/-- The stores into accumulator 3 where `k = 3` each write the whole buffer: the pieces tile it, so they cover it. -/
theorem scover0_C_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1 S256x256.size (by sl_kernel_rfl) y
/-- What the body leaves in accumulator 3 where `k = 3`: its pieces read back. -/
def sout0_C_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1)

/-- The stores into accumulator 4 where `k = 3` each write the whole buffer: the pieces tile it, so they cover it. -/
theorem scover0_C_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1 S256x256.size (by sl_kernel_rfl) y
/-- What the body leaves in accumulator 4 where `k = 3`: its pieces read back. -/
def sout0_C_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1)

/-- The stores into accumulator 5 where `k = 3` each write the whole buffer: the pieces tile it, so they cover it. -/
theorem scover0_C_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1 S256x256.size (by sl_kernel_rfl) y
/-- What the body leaves in accumulator 5 where `k = 3`: its pieces read back. -/
def sout0_C_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_5.read (Elt F) (VS0_5.writes (Elt F) VS0_5.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1)

/-- The stores into accumulator 6 where `k = 3` each write the whole buffer: the pieces tile it, so they cover it. -/
theorem scover0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1 S256x256.size (by sl_kernel_rfl) y
/-- What the body leaves in accumulator 6 where `k = 3`: its pieces read back. -/
def sout0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_6.read (Elt F) (VS0_6.writes (Elt F) VS0_6.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1)

/-! ## What the outputs and the accumulators hold after each point -/

/-- The fourteen blocks the certificate follows from point to point: the seven outputs' staging buffers (windows 6 … 12)
    and the seven accumulators. -/
structure Outs0 (F : FTy → Type) where
  o6 : Vec F S256x256 .f32
  o7 : Vec F S256x256 .f32
  o8 : Vec F S256x256 .f32
  o9 : Vec F S256x256 .f32
  o10 : Vec F S256x256 .f32
  o11 : Vec F S256x256 .f32
  o12 : Vec F S256x256 .f32
  s0 : Vec F S256x256 .f32
  s1 : Vec F S256x256 .f32
  s2 : Vec F S256x256 .f32
  s3 : Vec F S256x256 .f32
  s4 : Vec F S256x256 .f32
  s5 : Vec F S256x256 .f32
  s6 : Vec F S256x256 .f32

/-- After a point with `k = 0`: each accumulator at zero plus its product's first term, from the point's input blocks. -/
def outs0_A (c : Dev nD) (t : Fin cfg0.N) (h0 : t.val % 4 = 0) (h1 : ¬t.val % 4 = 3) : Outs0 F where
  o6 := out0_idle
  o7 := out0_idle
  o8 := out0_idle
  o9 := out0_idle
  o10 := out0_idle
  o11 := out0_idle
  o12 := out0_idle
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

/-- After a point with `k = 1, 2`: each accumulator at what the point before left (`p`) plus its product's next term. -/
def outs0_B (c : Dev nD) (t : Fin cfg0.N) (h0 : ¬t.val % 4 = 0) (h1 : ¬t.val % 4 = 3) (p : Outs0 F) : Outs0 F where
  o6 := out0_idle
  o7 := out0_idle
  o8 := out0_idle
  o9 := out0_idle
  o10 := out0_idle
  o11 := out0_idle
  o12 := out0_idle
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

/-- After a point with `k = 3`: each accumulator at what the point before left (`p`) plus its product's last term, and each
    output at its accumulator. -/
def outs0_C (c : Dev nD) (t : Fin cfg0.N) (h0 : ¬t.val % 4 = 0) (h1 : t.val % 4 = 3) (p : Outs0 F) : Outs0 F where
  o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o12 := out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- THE ACCUMULATION: what the fourteen blocks hold after the body at point `n`, by recursion on the point — the case
    `n % 4` selects, run on the point's input blocks over what the point before left. No point is in two cases. -/
def outsAt0 (c : Dev nD) : (n : ℕ) → n < cfg0.N → Outs0 F
  | 0, hn => outs0_A V c ⟨0, hn⟩ (Nat.zero_mod _) (by show ¬(0 % 4 = 3); decide)
  | n + 1, hn =>
    if h0 : (n + 1) % 4 = 0 then
      if h1 : (n + 1) % 4 = 3 then False.elim (by omega)
      else outs0_A V c ⟨n + 1, hn⟩ h0 h1
    else
      if h1 : (n + 1) % 4 = 3 then outs0_C V c ⟨n + 1, hn⟩ h0 h1 (outsAt0 c n (Nat.lt_of_succ_lt hn))
      else outs0_B V c ⟨n + 1, hn⟩ h0 h1 (outsAt0 c n (Nat.lt_of_succ_lt hn))

/-- At a point with `k = 0`. -/
theorem outsAt0_A (c : Dev nD) (t : Fin cfg0.N) (h0 : t.val % 4 = 0) (h1 : ¬t.val % 4 = 3) :
    outsAt0 V c t.val t.isLt = outs0_A V c t h0 h1 := by
  obtain ⟨n, hn⟩ := t
  cases n with
  | zero => exact rfl
  | succ n => exact (dif_pos h0).trans ((dif_neg h1).trans rfl)

/-- At a point with `k = 1, 2`: over what the point before left. -/
theorem outsAt0_B (c : Dev nD) (t : Fin cfg0.N) (h0 : ¬t.val % 4 = 0) (h1 : ¬t.val % 4 = 3) :
    outsAt0 V c t.val t.isLt = outs0_B V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- At a point with `k = 3`: over what the point before left. -/
theorem outsAt0_C (c : Dev nD) (t : Fin cfg0.N) (h0 : ¬t.val % 4 = 0) (h1 : t.val % 4 = 3) :
    outsAt0 V c t.val t.isLt = outs0_C V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant, point by point -/

/-- Before the first point what the launch hands over (every accumulator at anything); before any later point the seven
    accumulators at what the point before left, the untouched rest, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ owns (c : Thread nD τ) scM0_4 fullShare (outsAt0 V c (n - 1) (by omega)).s4 ∗ owns (c : Thread nD τ) scM0_5 fullShare (outsAt0 V c (n - 1) (by omega)).s5 ∗ owns (c : Thread nD τ) scM0_6 fullShare (outsAt0 V c (n - 1) (by omega)).s6 ∗ rest0 (F := F) c) ∗ (∃ r, prngReg c r)) := by
  cases n with
  | zero => exact absurd rfl hz
  | succ n => rfl

/-! ## The proof data -/

/-- The share of its array each window holds: the two windows on one argument array take the two halves of the full share. -/
def q0 : Fin 13 → PosShare TreeShare := fun | 0 => fullShare.left | 1 => fullShare.right | 2 => fullShare.left | 3 => fullShare.right | 4 => fullShare.left | 5 => fullShare.right | _ => fullShare

/-- The proof data of the region on core `c`: the arrays as the region finds them; after the body at point `t` each input's
    buffer at its block and each output's at its component of the accumulation; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).o6
    | ⟨7, _⟩ => (outsAt0 V c t.val t.isLt).o7
    | ⟨8, _⟩ => (outsAt0 V c t.val t.isLt).o8
    | ⟨9, _⟩ => (outsAt0 V c t.val t.isLt).o9
    | ⟨10, _⟩ => (outsAt0 V c t.val t.isLt).o10
    | ⟨11, _⟩ => (outsAt0 V c t.val t.isLt).o11
    | ⟨12, _⟩ => (outsAt0 V c t.val t.isLt).o12
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem q_eq0 (c : Dev nD) : (dat0 V c).q = q0 := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]
theorem after0_10 (c : Dev nD) (t : Fin cfg0.N) : (dat0 V c).after 10 t = (outsAt0 V c t.val t.isLt).o10 := by dsimp only [dat0]
theorem after0_11 (c : Dev nD) (t : Fin cfg0.N) : (dat0 V c).after 11 t = (outsAt0 V c t.val t.isLt).o11 := by dsimp only [dat0]
theorem after0_12 (c : Dev nD) (t : Fin cfg0.N) : (dat0 V c).after 12 t = (outsAt0 V c t.val t.isLt).o12 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HS4, HS5, HS6, Hr⟩, Hg⟩
  isplitl [HS0 HS1 HS2 HS3 HS4 HS5 HS6 Hr]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.R0BodyDefs.lean ====
import proofs.«173517_j27041114096025_1_alg».proof.Proof.K.R0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

/-! ## The three cases' runs with what they leave named -/

set_option maxHeartbeats 2000000 in
/-- The body where `k = 0`, with what it leaves NAMED: on whole memrefs it runs to any continuation that accepts the inputs as they were, the outputs as they were,
    each accumulator at what the case leaves in it — the run's pieces cover each buffer they are written to, so reading them back does
    not depend on the buffer or on what it held. -/
theorem bodyRun0_A (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) :
    ∀ (xi6 xi7 xi8 xi9 xi10 xi11 xi12 : Vec F S256x256 .f32) (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
          ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
              ∗ owns (c : Thread nD τ) arg16 fullShare (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg17 fullShare (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg18 fullShare (sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg19 fullShare (sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg20 fullShare (sout0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg21 fullShare (sout0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg22 fullShare (sout0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro xi6 xi7 xi8 xi9 xi10 xi11 xi12 E K
  iintro ⟨H0, H1, H2, H3, H4, H5, H6, H7, H8, H9, H10, H11, H12, HS0, HS1, HS2, HS3, HS4, HS5, HS6, Hk⟩
  iapply ((kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.2 xi6 xi7 xi8 xi9 xi10 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns sout0_A_0; iexists _; isplitr
    swap; · iexact HS0
    ipureintro; exact View.read_writes_of_cover _ _ _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS1]
  · unfold owns sout0_A_1; iexists _; isplitr
    swap; · iexact HS1
    ipureintro; exact View.read_writes_of_cover _ _ _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS2]
  · unfold owns sout0_A_2; iexists _; isplitr
    swap; · iexact HS2
    ipureintro; exact View.read_writes_of_cover _ _ _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS3]
  · unfold owns sout0_A_3; iexists _; isplitr
    swap; · iexact HS3
    ipureintro; exact View.read_writes_of_cover _ _ _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS4]
  · unfold owns sout0_A_4; iexists _; isplitr
    swap; · iexact HS4
    ipureintro; exact View.read_writes_of_cover _ _ _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS5]
  · unfold owns sout0_A_5; iexists _; isplitr
    swap; · iexact HS5
    ipureintro; exact View.read_writes_of_cover _ _ _ _ _ (scover0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  unfold owns sout0_A_6; iexists _; isplitr
  swap; · iexact HS6
  ipureintro; exact View.read_writes_of_cover _ _ _ _ _ (scover0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)

set_option maxHeartbeats 2000000 in
/-- The body where `k = 1, 2`, with what it leaves NAMED: on whole memrefs it runs to any continuation that accepts the inputs as they were, the outputs as they were,
    each accumulator at what the case leaves in it — the run's pieces cover each buffer they are written to, so reading them back does
    not depend on the buffer or on what it held. -/
theorem bodyRun0_B (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    ∀ (xi6 xi7 xi8 xi9 xi10 xi11 xi12 : Vec F S256x256 .f32) (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
          ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
              ∗ owns (c : Thread nD τ) arg16 fullShare (sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg17 fullShare (sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg18 fullShare (sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg19 fullShare (sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg20 fullShare (sout0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg21 fullShare (sout0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg22 fullShare (sout0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro xi6 xi7 xi8 xi9 xi10 xi11 xi12 E K
  iintro ⟨H0, H1, H2, H3, H4, H5, H6, H7, H8, H9, H10, H11, H12, HS0, HS1, HS2, HS3, HS4, HS5, HS6, Hk⟩
  iapply ((kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2 xi6 xi7 xi8 xi9 xi10 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns sout0_B_0; iexists _; isplitr
    swap; · iexact HS0
    ipureintro; exact View.read_writes_of_cover _ _ _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS1]
  · unfold owns sout0_B_1; iexists _; isplitr
    swap; · iexact HS1
    ipureintro; exact View.read_writes_of_cover _ _ _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS2]
  · unfold owns sout0_B_2; iexists _; isplitr
    swap; · iexact HS2
    ipureintro; exact View.read_writes_of_cover _ _ _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS3]
  · unfold owns sout0_B_3; iexists _; isplitr
    swap; · iexact HS3
    ipureintro; exact View.read_writes_of_cover _ _ _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS4]
  · unfold owns sout0_B_4; iexists _; isplitr
    swap; · iexact HS4
    ipureintro; exact View.read_writes_of_cover _ _ _ _ _ (scover0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS5]
  · unfold owns sout0_B_5; iexists _; isplitr
    swap; · iexact HS5
    ipureintro; exact View.read_writes_of_cover _ _ _ _ _ (scover0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  unfold owns sout0_B_6; iexists _; isplitr
  swap; · iexact HS6
  ipureintro; exact View.read_writes_of_cover _ _ _ _ _ (scover0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)

set_option maxHeartbeats 2000000 in
/-- The body where `k = 3`, with what it leaves NAMED: on whole memrefs it runs to any continuation that accepts the inputs as they were,
    each accumulator at what the case leaves in it and each output at what the case leaves in it — the run's pieces cover each buffer they are written to, so reading them back does
    not depend on the buffer or on what it held. -/
theorem bodyRun0_C (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare (out0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg10 fullShare (out0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg11 fullShare (out0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg12 fullShare (out0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg13 fullShare (out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg14 fullShare (out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg15 fullShare (out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
              ∗ owns (c : Thread nD τ) arg16 fullShare (sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg17 fullShare (sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg18 fullShare (sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg19 fullShare (sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg20 fullShare (sout0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg21 fullShare (sout0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg22 fullShare (sout0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  iintro ⟨H0, H1, H2, H3, H4, H5, H6, H7, H8, H9, H10, H11, H12, HS0, HS1, HS2, HS3, HS4, HS5, HS6, Hk⟩
  iapply ((kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns out0_C_6; iexists _; isplitr
    swap; · iexact H6
    ipureintro; exact View.read_writes_of_cover _ _ _ _ _ (cover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H7]
  · unfold owns out0_C_7; iexists _; isplitr
    swap; · iexact H7
    ipureintro; exact View.read_writes_of_cover _ _ _ _ _ (cover0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H8]
  · unfold owns out0_C_8; iexists _; isplitr
    swap; · iexact H8
    ipureintro; exact View.read_writes_of_cover _ _ _ _ _ (cover0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H9]
  · unfold owns out0_C_9; iexists _; isplitr
    swap; · iexact H9
    ipureintro; exact View.read_writes_of_cover _ _ _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H10]
  · unfold owns out0_C_10; iexists _; isplitr
    swap; · iexact H10
    ipureintro; exact View.read_writes_of_cover _ _ _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H11]
  · unfold owns out0_C_11; iexists _; isplitr
    swap; · iexact H11
    ipureintro; exact View.read_writes_of_cover _ _ _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H12]
  · unfold owns out0_C_12; iexists _; isplitr
    swap; · iexact H12
    ipureintro; exact View.read_writes_of_cover _ _ _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS0]
  · unfold owns sout0_C_0; iexists _; isplitr
    swap; · iexact HS0
    ipureintro; exact View.read_writes_of_cover _ _ _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS1]
  · unfold owns sout0_C_1; iexists _; isplitr
    swap; · iexact HS1
    ipureintro; exact View.read_writes_of_cover _ _ _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS2]
  · unfold owns sout0_C_2; iexists _; isplitr
    swap; · iexact HS2
    ipureintro; exact View.read_writes_of_cover _ _ _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS3]
  · unfold owns sout0_C_3; iexists _; isplitr
    swap; · iexact HS3
    ipureintro; exact View.read_writes_of_cover _ _ _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS4]
  · unfold owns sout0_C_4; iexists _; isplitr
    swap; · iexact HS4
    ipureintro; exact View.read_writes_of_cover _ _ _ _ _ (scover0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS5]
  · unfold owns sout0_C_5; iexists _; isplitr
    swap; · iexact HS5
    ipureintro; exact View.read_writes_of_cover _ _ _ _ _ (scover0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  unfold owns sout0_C_6; iexists _; isplitr
  swap; · iexact HS6
  ipureintro; exact View.read_writes_of_cover _ _ _ _ _ (scover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)

end Cert.Kernel.Hand

end
-- ==== Proof.K.R0BodyA.lean ====
import proofs.«173517_j27041114096025_1_alg».proof.Proof.K.R0BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 0`: the inputs' memrefs hold their blocks, the outputs are idle and handed back as found, the
    invariant hands over the accumulators (at anything at the first point, at what the point before left later — the
    case overwrites them either way) and takes them back at this point's contents. -/
theorem sound_body0_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
  rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
  rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
  rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
  rw [Dat.leavesExact_idle (dat0 V c) 12 t (idleAt0_12_A t ((hcond0_0 t).mpr h0) (fun h => h1 ((hcond0_1 t).mp h))) (noFlush0_12_A t ((hcond0_0 t).mpr h0) (fun h => h1 ((hcond0_1 t).mp h)))]
  rw [outsAt0_A V c t h0 h1]
  dsimp only [outs0_A]
  by_cases hz : t.val = 0
  · rw [PhiS0_castSucc V c t, PhiS0_zero V c _ _ hz, PhiA0_eq]
    iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, HS0, HS1, HS2, HS3, HS4, HS5, HS6⟩
    isplitl [HS0 HS1 HS2 HS3 HS4 HS5 HS6 Hr Hg]
    · isplitl [HS0 HS1 HS2 HS3 HS4 HS5 HS6 Hr]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

  · rw [PhiS0_castSucc V c t, PhiS0_pos V c _ _ hz]
    iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iintro ⟨H0, H1, H2, H3, H4, H5, H6, H7, H8, H9, H10, H11, H12, HS0, HS1, HS2, HS3, HS4, HS5, HS6⟩
    isplitl [HS0 HS1 HS2 HS3 HS4 HS5 HS6 Hr Hg]
    · isplitl [HS0 HS1 HS2 HS3 HS4 HS5 HS6 Hr]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Hand

end
-- ==== Proof.K.R0BodyB.lean ====
import proofs.«173517_j27041114096025_1_alg».proof.Proof.K.R0BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 1, 2`: the outputs are idle and handed back as found; the invariant hands over the
    accumulators at what the point before left and takes them back at this point's contents. -/
theorem sound_body0_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
  rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
  rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
  rw [Dat.leavesExact_idle (dat0 V c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
  rw [outsAt0_B V c t h0 h1]
  dsimp only [outs0_B]
  have hz : t.val ≠ 0 := by omega
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) _).s0 (outsAt0 V c (t.val - 1) _).s1 (outsAt0 V c (t.val - 1) _).s2 (outsAt0 V c (t.val - 1) _).s3 (outsAt0 V c (t.val - 1) _).s4 (outsAt0 V c (t.val - 1) _).s5 (outsAt0 V c (t.val - 1) _).s6 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hr Hg]
  · isplitl [HS0 HS1 HS2 HS3 HS4 HS5 HS6 Hr]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.Kernel.Hand

end
-- ==== Proof.K.R0BodyC.lean ====
import proofs.«173517_j27041114096025_1_alg».proof.Proof.K.R0BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 3`: the outputs are taken at anything and left at their stores; the invariant hands over
    the accumulators at what the point before left and takes them back at this point's contents. -/
theorem sound_body0_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6_C t (fun h => h0 ((hcond0_0 t).mp h)) ((hcond0_1 t).mpr h1)], after0_6]
  rw [show (dat0 V c).leavesExact 7 t = owns (c : Thread nD τ) (ms0_7 t) fullShare ((dat0 V c).after 7 t) from by
    unfold Dat.leavesExact; rw [liveAt0_7_C t (fun h => h0 ((hcond0_0 t).mp h)) ((hcond0_1 t).mpr h1)], after0_7]
  rw [show (dat0 V c).leavesExact 8 t = owns (c : Thread nD τ) (ms0_8 t) fullShare ((dat0 V c).after 8 t) from by
    unfold Dat.leavesExact; rw [liveAt0_8_C t (fun h => h0 ((hcond0_0 t).mp h)) ((hcond0_1 t).mpr h1)], after0_8]
  rw [show (dat0 V c).leavesExact 9 t = owns (c : Thread nD τ) (ms0_9 t) fullShare ((dat0 V c).after 9 t) from by
    unfold Dat.leavesExact; rw [liveAt0_9_C t (fun h => h0 ((hcond0_0 t).mp h)) ((hcond0_1 t).mpr h1)], after0_9]
  rw [show (dat0 V c).leavesExact 10 t = owns (c : Thread nD τ) (ms0_10 t) fullShare ((dat0 V c).after 10 t) from by
    unfold Dat.leavesExact; rw [liveAt0_10_C t (fun h => h0 ((hcond0_0 t).mp h)) ((hcond0_1 t).mpr h1)], after0_10]
  rw [show (dat0 V c).leavesExact 11 t = owns (c : Thread nD τ) (ms0_11 t) fullShare ((dat0 V c).after 11 t) from by
    unfold Dat.leavesExact; rw [liveAt0_11_C t (fun h => h0 ((hcond0_0 t).mp h)) ((hcond0_1 t).mpr h1)], after0_11]
  rw [show (dat0 V c).leavesExact 12 t = owns (c : Thread nD τ) (ms0_12 t) fullShare ((dat0 V c).after 12 t) from by
    unfold Dat.leavesExact; rw [liveAt0_12_C t (fun h => h0 ((hcond0_0 t).mp h)) ((hcond0_1 t).mpr h1)], after0_12]
  rw [outsAt0_C V c t h0 h1]
  dsimp only [outs0_C]
  have hz : t.val ≠ 0 := by omega
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) _).s0 (outsAt0 V c (t.val - 1) _).s1 (outsAt0 V c (t.val - 1) _).s2 (outsAt0 V c (t.val - 1) _).s3 (outsAt0 V c (t.val - 1) _).s4 (outsAt0 V c (t.val - 1) _).s5 (outsAt0 V c (t.val - 1) _).s6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hr Hg]
  · isplitl [HS0 HS1 HS2 HS3 HS4 HS5 HS6 Hr]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Hand

end
-- ==== Proof.K.R0Body.lean ====
import proofs.«173517_j27041114096025_1_alg».proof.Proof.K.R0BodyA
import proofs.«173517_j27041114096025_1_alg».proof.Proof.K.R0BodyB
import proofs.«173517_j27041114096025_1_alg».proof.Proof.K.R0BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- The body at any point: `t % 4` says which of the three cases the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h1 : t.val % 4 = 3
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Run.lean ====
/-
  Region 1, the pointwise chain: one grid point reads a block of 128 rows of each of the seven product arrays and
  writes the same rows of the result. This module says what one run of the body does to whole staging buffers:
  every access is the whole 128 x 1024 buffer, the seven loads return the input buffers' contents, and the one
  store leaves in the output buffer the chain's last value, computed entry by entry from the seven loaded blocks.
-/
import proofs.«173517_j27041114096025_1_alg».proof.Proof.Gen.Kernel.Launch
import proofs.«173517_j27041114096025_1_alg».proof.Proof.Gen.Kernel.Skeleton
import proofs.«173517_j27041114096025_1_alg».proof.Proof.Gen.Kernel.Points
import Idealize.ShloMosaic.Lib.Pipeline.FrameBody
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The one rectangle the body reads and writes: the whole 128 x 1024 staging buffer. -/
abbrev r1_0 : Rect S128x1024 := Rect.unit (s := S128x1024) ![0, 0] S128x1024.size inb_S128x1024_S128x1024_0_0

/-! ## What the body leaves in the output window's buffer -/

/-- The chain's last value from the seven input buffers: the values the first half of the body hands on are
    functions of the seven loaded blocks, and the stored value is a function of those. -/
def chain1 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) : FVec F S128x1024 .f32 :=
  k1_pay1 (k1_pay2 (View.ld x0 r1_0)) (k1_pay3 (View.ld x1 r1_0)) (k1_pay5 (View.ld x4 r1_0)) (k1_pay6 (View.ld x5 r1_0))
    (k1_pay10 (View.ld x0 r1_0) (View.ld x1 r1_0) (View.ld x2 r1_0) (View.ld x3 r1_0) (View.ld x6 r1_0))
    (k1_pay11 (View.ld x0 r1_0) (View.ld x1 r1_0) (View.ld x2 r1_0) (View.ld x4 r1_0) (View.ld x5 r1_0))
    (k1_pay12 (View.ld x0 r1_0) (View.ld x1 r1_0) (View.ld x2 r1_0) (View.ld x3 r1_0) (View.ld x4 r1_0) (View.ld x5 r1_0) (View.ld x6 r1_0))
    (k1_pay13 (View.ld x4 r1_0) (View.ld x5 r1_0))
    (k1_pay14 (View.ld x0 r1_0) (View.ld x2 r1_0) (View.ld x4 r1_0) (View.ld x5 r1_0))
    (k1_pay15 (View.ld x0 r1_0) (View.ld x1 r1_0) (View.ld x2 r1_0) (View.ld x3 r1_0) (View.ld x4 r1_0) (View.ld x5 r1_0) (View.ld x6 r1_0))
    (k1_pay16 (View.ld x0 r1_0) (View.ld x1 r1_0) (View.ld x2 r1_0) (View.ld x3 r1_0) (View.ld x4 r1_0) (View.ld x5 r1_0) (View.ld x6 r1_0))
    (k1_pay17 (View.ld x0 r1_0) (View.ld x1 r1_0) (View.ld x2 r1_0) (View.ld x3 r1_0) (View.ld x4 r1_0) (View.ld x5 r1_0) (View.ld x6 r1_0))
    (k1_pay18 (View.ld x0 r1_0) (View.ld x1 r1_0) (View.ld x2 r1_0) (View.ld x3 r1_0) (View.ld x4 r1_0) (View.ld x5 r1_0) (View.ld x6 r1_0))

/-- Window 7's staging buffer after the body, from the seven input buffers: its one store as a piece. -/
def out1_7 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) : Vec F S128x1024 .f32 :=
  View.canon [⟨r1_0, chain1 x0 x1 x2 x3 x4 x5 x6⟩]

/-- The store's rectangle is the whole buffer, so it covers it. -/
theorem cover1_7 (p0 : Vec F S128x1024 .f32) (y : S128x1024.Idx) :
    ∃ pc ∈ ([⟨r1_0, p0⟩] : List (View.Piece (Elt F) S128x1024 .f32)), y ∈ pc.1.set :=
  View.cover_of_tiled [⟨r1_0, p0⟩] S128x1024.size (by rfl) y

/-! ## The body's triple -/

set_option maxHeartbeats 1000000 in
/-- The kernel body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__chain_kernel i arg1 harg1 arg2 harg2 arg3 harg3 arg4 harg4 arg5 harg5 arg6 harg6 arg7 harg7 arg8 harg8) K := by
  simp only [cc1__chain_kernel_eq_skeleton]; unfold cc1__chain_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.Kernel.Hand

end
-- ==== Proof.K.R1Data.lean ====
/-
  Region 1, the pointwise chain: the proof data of its pipeline and the body obligation. Every window is fetched or
  written back at every point and nothing is carried from one point to the next: after the body at point t each
  input's buffer still holds its block of 128 rows, and the output's buffer holds the chain's value of the seven
  input blocks.
-/
import proofs.«173517_j27041114096025_1_alg».proof.Proof.K.R1Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The input windows' buffers before the body -/

/-- An input window's current staging buffer holds its block at every point, fetched there or not, for any proof
    data whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the chain's pipeline on core `c`: the arrays as the region finds them; after the body at
    point `t` each input's buffer still at its block and the output's at the chain's value of the seven input
    blocks; the invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Main.lean ====
/-
  The run of the whole program: two kernel regions, one after the other, with nothing between them.

  Between the items a core holds each of its eleven unscoped arrays whole: the three arguments, the seven products the
  first region writes, and the result the second region writes. The first region reads each argument through TWO
  windows (a row block and a column block of the same matrix), so on entry the argument's array is dealt to the two
  windows in halves of its full share, and on exit the two halves, both still at the contents the region found,
  are joined again. Each region leaves its output arrays at what its write-backs folded, and every other array as
  it found it; the second region is entered from exactly what the first left.
-/
import proofs.«173517_j27041114096025_1_alg».proof.Proof.K.R0Body
import proofs.«173517_j27041114096025_1_alg».proof.Proof.K.R1Data
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- Core `c`'s unscoped arrays at launch, -/
abbrev W0 (c : Dev nD) : Valuation τ sig (Elt F) := fun b => m (c, b)
/-- read at the TensorCore's references: what the first region is entered from. -/
abbrev U0 : (c : Dev nD) → (b : Ref sig .tc) → Buf (Elt F) ((c : Thread nD τ).loc b) := fun c b => W0 m c b

/-- After the first region: its seven output arrays at what its write-backs left, everything else as launched. -/
def W1 (c : Dev nD) : Valuation τ sig (Elt F) :=
  Function.update (Function.update (Function.update (Function.update (Function.update (Function.update (Function.update (W0 m c)
    main_v0_0 ((dat0 (U0 m) c).arrAt 6 cfg0.N : Buf (Elt F) ((c : Thread nD τ).loc main_v0_0)))
    main_v0_1 ((dat0 (U0 m) c).arrAt 7 cfg0.N : Buf (Elt F) ((c : Thread nD τ).loc main_v0_1)))
    main_v0_2 ((dat0 (U0 m) c).arrAt 8 cfg0.N : Buf (Elt F) ((c : Thread nD τ).loc main_v0_2)))
    main_v0_3 ((dat0 (U0 m) c).arrAt 9 cfg0.N : Buf (Elt F) ((c : Thread nD τ).loc main_v0_3)))
    main_v0_4 ((dat0 (U0 m) c).arrAt 10 cfg0.N : Buf (Elt F) ((c : Thread nD τ).loc main_v0_4)))
    main_v0_5 ((dat0 (U0 m) c).arrAt 11 cfg0.N : Buf (Elt F) ((c : Thread nD τ).loc main_v0_5)))
    main_v0_6 ((dat0 (U0 m) c).arrAt 12 cfg0.N : Buf (Elt F) ((c : Thread nD τ).loc main_v0_6))
/-- The same read at the TensorCore's references: what the second region is entered from. -/
abbrev U1 : (c : Dev nD) → (b : Ref sig .tc) → Buf (Elt F) ((c : Thread nD τ).loc b) := fun c b => W1 m c b

/-- After the second region: the result array at what its write-backs left. -/
def W2 (c : Dev nD) : Valuation τ sig (Elt F) :=
  Function.update (W1 m c) main_v1 ((dat1 (U1 m) c).arrAt 7 cfg1.N : Buf (Elt F) ((c : Thread nD τ).loc main_v1))

/-- A reference other than the seven products' is untouched by the first region. -/
theorem W1_of (c : Dev nD) (r : Ref sig .tc) (h : r ∉ ([main_v0_0, main_v0_1, main_v0_2, main_v0_3, main_v0_4, main_v0_5, main_v0_6] : List (Ref sig .tc))) :
    W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1), Function.update_of_ne (StableHlo.devRef_ne_of_ne (List.ne_of_not_mem_cons (List.not_mem_of_not_mem_cons (List.not_mem_of_not_mem_cons h))) : (Proc.devRef .tc r : DevRef τ sig) ≠ Proc.devRef .tc main_v0_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v0_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v0_4), Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons h)))))) : (Proc.devRef .tc r : DevRef τ sig) ≠ Proc.devRef .tc main_v0_5), Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons h))))))) : (Proc.devRef .tc r : DevRef τ sig) ≠ Proc.devRef .tc main_v0_6)]

/-- A reference other than the result's is untouched by the second region. -/
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]

/-- The result array after the run. -/
theorem W2_main_v1 (c : Dev nD) : W2 m c main_v1 = (dat1 (U1 m) c).arrAt 7 cfg1.N := by
  simp only [W2, Function.update_self]

/-- Each product's array after the first region. -/
theorem W1_main_v0_6 (c : Dev nD) : W1 m c main_v0_6 = (dat0 (U0 m) c).arrAt 12 cfg0.N := by
  simp only [W1, Function.update_self]
theorem W1_main_v0_5 (c : Dev nD) : W1 m c main_v0_5 = (dat0 (U0 m) c).arrAt 11 cfg0.N := by
  simp only [W1, Function.update_self, Function.update_of_ne (StableHlo.devRef_ne_of_ne (by decide) : (Proc.devRef .tc main_v0_5 : DevRef τ sig) ≠ Proc.devRef .tc main_v0_6)]
theorem W1_main_v0_4 (c : Dev nD) : W1 m c main_v0_4 = (dat0 (U0 m) c).arrAt 10 cfg0.N := by
  simp only [W1, Function.update_self, Function.update_of_ne (StableHlo.devRef_ne_of_ne (by decide) : (Proc.devRef .tc main_v0_4 : DevRef τ sig) ≠ Proc.devRef .tc main_v0_6), Function.update_of_ne (StableHlo.devRef_ne_of_ne (by decide) : (Proc.devRef .tc main_v0_4 : DevRef τ sig) ≠ Proc.devRef .tc main_v0_5)]
theorem W1_main_v0_3 (c : Dev nD) : W1 m c main_v0_3 = (dat0 (U0 m) c).arrAt 9 cfg0.N := by
  simp only [W1, Function.update_self, Function.update_of_ne (StableHlo.devRef_ne_of_ne (by decide) : (Proc.devRef .tc main_v0_3 : DevRef τ sig) ≠ Proc.devRef .tc main_v0_6), Function.update_of_ne (StableHlo.devRef_ne_of_ne (by decide) : (Proc.devRef .tc main_v0_3 : DevRef τ sig) ≠ Proc.devRef .tc main_v0_5), Function.update_of_ne (StableHlo.devRef_ne_of_ne (by decide) : (Proc.devRef .tc main_v0_3 : DevRef τ sig) ≠ Proc.devRef .tc main_v0_4)]
theorem W1_main_v0_2 (c : Dev nD) : W1 m c main_v0_2 = (dat0 (U0 m) c).arrAt 8 cfg0.N := by
  simp only [W1, Function.update_self, Function.update_of_ne (StableHlo.devRef_ne_of_ne (by decide) : (Proc.devRef .tc main_v0_2 : DevRef τ sig) ≠ Proc.devRef .tc main_v0_6), Function.update_of_ne (StableHlo.devRef_ne_of_ne (by decide) : (Proc.devRef .tc main_v0_2 : DevRef τ sig) ≠ Proc.devRef .tc main_v0_5), Function.update_of_ne (StableHlo.devRef_ne_of_ne (by decide) : (Proc.devRef .tc main_v0_2 : DevRef τ sig) ≠ Proc.devRef .tc main_v0_4), Function.update_of_ne (StableHlo.devRef_ne_of_ne (by decide) : (Proc.devRef .tc main_v0_2 : DevRef τ sig) ≠ Proc.devRef .tc main_v0_3)]
theorem W1_main_v0_1 (c : Dev nD) : W1 m c main_v0_1 = (dat0 (U0 m) c).arrAt 7 cfg0.N := by
  simp only [W1, Function.update_self, Function.update_of_ne (StableHlo.devRef_ne_of_ne (by decide) : (Proc.devRef .tc main_v0_1 : DevRef τ sig) ≠ Proc.devRef .tc main_v0_6), Function.update_of_ne (StableHlo.devRef_ne_of_ne (by decide) : (Proc.devRef .tc main_v0_1 : DevRef τ sig) ≠ Proc.devRef .tc main_v0_5), Function.update_of_ne (StableHlo.devRef_ne_of_ne (by decide) : (Proc.devRef .tc main_v0_1 : DevRef τ sig) ≠ Proc.devRef .tc main_v0_4), Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2)]
theorem W1_main_v0_0 (c : Dev nD) : W1 m c main_v0_0 = (dat0 (U0 m) c).arrAt 6 cfg0.N := by
  simp only [W1, Function.update_self, Function.update_of_ne (StableHlo.devRef_ne_of_ne (by decide) : (Proc.devRef .tc main_v0_0 : DevRef τ sig) ≠ Proc.devRef .tc main_v0_6), Function.update_of_ne (StableHlo.devRef_ne_of_ne (by decide) : (Proc.devRef .tc main_v0_0 : DevRef τ sig) ≠ Proc.devRef .tc main_v0_5), Function.update_of_ne (StableHlo.devRef_ne_of_ne (by decide) : (Proc.devRef .tc main_v0_0 : DevRef τ sig) ≠ Proc.devRef .tc main_v0_4), Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2), Function.update_of_ne (StableHlo.devRef_ne_of_ne (by decide) : (Proc.devRef .tc main_v0_0 : DevRef τ sig) ≠ Proc.devRef .tc main_v0_1)]

/-! ## The eleven unscoped arrays, and the first region's thirteen windows, one by one -/

section Chains

variable (c : Dev nD) (Vv : (b : Ref sig .tc) → Buf (Elt F) ((c : Thread nD τ).loc b))

/-- A core's unscoped arrays at contents `Vv`, one by one. -/
theorem unscopedBufs_list :
    (unscopedBufs (Ix := Unit) (Name := ℕ) (U := UR sig nD τ) (Lvl := ℕ) c Vv : sProp 𝕄)
      = iprop((((c : Thread nD τ).loc main_arg0) ↦{fullShare} Vv main_arg0) ∗ (((c : Thread nD τ).loc main_arg1) ↦{fullShare} Vv main_arg1)
          ∗ (((c : Thread nD τ).loc main_arg2) ↦{fullShare} Vv main_arg2)
          ∗ (((c : Thread nD τ).loc main_v0_0) ↦{fullShare} Vv main_v0_0) ∗ (((c : Thread nD τ).loc main_v0_1) ↦{fullShare} Vv main_v0_1)
          ∗ (((c : Thread nD τ).loc main_v0_2) ↦{fullShare} Vv main_v0_2) ∗ (((c : Thread nD τ).loc main_v0_3) ↦{fullShare} Vv main_v0_3)
          ∗ (((c : Thread nD τ).loc main_v0_4) ↦{fullShare} Vv main_v0_4) ∗ (((c : Thread nD τ).loc main_v0_5) ↦{fullShare} Vv main_v0_5)
          ∗ (((c : Thread nD τ).loc main_v0_6) ↦{fullShare} Vv main_v0_6) ∗ (((c : Thread nD τ).loc main_v1) ↦{fullShare} Vv main_v1)) := by
  unfold unscopedBufs
  exact bigSep_eq_bigSepL_of_eq [main_arg0, main_arg1, main_arg2, main_v0_0, main_v0_1, main_v0_2, main_v0_3, main_v0_4, main_v0_5, main_v0_6, main_v1]
    (by decide) (by decide) _

end Chains

/-! ## Dealing the arrays to the first region's windows, and joining them again -/

section Deal

variable (V : (c : Dev nD) → (b : Ref sig .tc) → Buf (Elt F) ((c : Thread nD τ).loc b)) (c : Dev nD)

/-- The share the first region's proof data hold of each window's array: the two halves for the two windows on
    one argument, the full share of every output. -/
theorem share0 (w : Fin cfg0.W) : (dat0 V c).share w = q0 w := by
  unfold Dat.share; rw [q_eq0]
  fin_cases w <;> rfl

/-- The first region's thirteen arrays at contents `Fv`, one by one, each at its share. -/
theorem arrays_chain0 (Fv : (w : Fin cfg0.W) → Buf (Elt F) ((cfg0.win w).arr.view.loc (c : Thread nD τ))) :
    ((dat0 V c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare.left} Fv 2) ∗ (((c : Thread nD τ).loc main_arg1) ↦{fullShare.right} Fv 3)
          ∗ (((c : Thread nD τ).loc main_arg2) ↦{fullShare.left} Fv 4) ∗ (((c : Thread nD τ).loc main_arg2) ↦{fullShare.right} Fv 5)
          ∗ (((c : Thread nD τ).loc main_v0_0) ↦{fullShare} Fv 6) ∗ (((c : Thread nD τ).loc main_v0_1) ↦{fullShare} Fv 7)
          ∗ (((c : Thread nD τ).loc main_v0_2) ↦{fullShare} Fv 8) ∗ (((c : Thread nD τ).loc main_v0_3) ↦{fullShare} Fv 9)
          ∗ (((c : Thread nD τ).loc main_v0_4) ↦{fullShare} Fv 10) ∗ (((c : Thread nD τ).loc main_v0_5) ↦{fullShare} Fv 11)
          ∗ (((c : Thread nD τ).loc main_v0_6) ↦{fullShare} Fv 12)) := by
  have h : ((dat0 V c).arrays Fv : sProp 𝕄)
      = bigSep Finset.univ fun w : Fin 13 => (((c : Thread nD τ).loc (Pipeline.arrRef spec0 w)) ↦{q0 w} Fv w : sProp 𝕄) := by
    unfold Dat.arrays
    exact bigSep_congr fun w _ => by rw [(arr_whole0 w).set_eq_univ, share0 V c w]
  rw [h, bigSep_W0]
  rfl

end Deal

section DealJoin

variable (V : (c : Dev nD) → (b : Ref sig .tc) → Buf (Elt F) ((c : Thread nD τ).loc b)) (c : Dev nD)

/-- Before any write-back an array holds its entry contents, which are `V`'s. -/
theorem arrAt0_zero (w : Fin cfg0.W) : (dat0 V c).arrAt w 0 = V c (Pipeline.arrRef spec0 w) := A_eq0 V c w

/-- ENTRY. A core's eleven arrays whole at `V c` are the first region's arrays at its entry contents, each
    argument dealt in halves to the two windows that read it, beside the result array, which that region leaves alone. -/
theorem deal0 :
    (unscopedBufs (Ix := Unit) (Name := ℕ) (U := UR sig nD τ) (Lvl := ℕ) c (V c) : sProp 𝕄)
      ⊢ iprop((dat0 V c).arrays ((dat0 V c).arrAt · 0) ∗ (((c : Thread nD τ).loc main_v1) ↦{fullShare} V c main_v1)) := by
  rw [unscopedBufs_list, arrays_chain0]
  simp only [arrAt0_zero]
  iintro ⟨Ha0, Ha1, Ha2, Hv0, Hv1, Hv2, Hv3, Hv4, Hv5, Hv6, Hr⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  ihave Ha2' := (pointsTo_share (PosShare.mem_left_op_right fullShare)).1 $$ Ha2
  icases Ha2' with ⟨Ha2l, Ha2r⟩
  isplitr [Hr]
  · isplitl [Ha0l]; · iexact Ha0l
    isplitl [Ha0r]; · iexact Ha0r
    isplitl [Ha1l]; · iexact Ha1l
    isplitl [Ha1r]; · iexact Ha1r
    isplitl [Ha2l]; · iexact Ha2l
    isplitl [Ha2r]; · iexact Ha2r
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  · iexact Hr

/-- Joining, over any contents: the thirteen windows' arrays at contents `Fv` — the two halves of each argument
    at one and the same contents — and the result array at `Zv` are the core's eleven arrays whole at `V'`,
    when `V'` reads those contents at each array. -/
theorem join0_of (Fv : (w : Fin cfg0.W) → Buf (Elt F) ((cfg0.win w).arr.view.loc (c : Thread nD τ)))
    (Zv : Buf (Elt F) ((c : Thread nD τ).loc main_v1))
    (V' : (b : Ref sig .tc) → Buf (Elt F) ((c : Thread nD τ).loc b))
    (e0 : Fv 0 = V' main_arg0) (e1 : Fv 1 = V' main_arg0) (e2 : Fv 2 = V' main_arg1) (e3 : Fv 3 = V' main_arg1)
    (e4 : Fv 4 = V' main_arg2) (e5 : Fv 5 = V' main_arg2)
    (e6 : Fv 6 = V' main_v0_0) (e7 : Fv 7 = V' main_v0_1) (e8 : Fv 8 = V' main_v0_2) (e9 : Fv 9 = V' main_v0_3)
    (e10 : Fv 10 = V' main_v0_4) (e11 : Fv 11 = V' main_v0_5) (e12 : Fv 12 = V' main_v0_6) (er : Zv = V' main_v1) :
    iprop((dat0 V c).arrays Fv ∗ (((c : Thread nD τ).loc main_v1) ↦{fullShare} Zv))
      ⊢ (unscopedBufs (Ix := Unit) (Name := ℕ) (U := UR sig nD τ) (Lvl := ℕ) c V' : sProp 𝕄) := by
  rw [unscopedBufs_list, arrays_chain0, e0, e1, e2, e3, e4, e5, e6, e7, e8, e9, e10, e11, e12, er]
  iintro ⟨⟨Ha0l, Ha0r, Ha1l, Ha1r, Ha2l, Ha2r, Hv0, Hv1, Hv2, Hv3, Hv4, Hv5, Hv6⟩, Hr⟩
  isplitl [Ha0l Ha0r]
  · iapply (pointsTo_share (PosShare.mem_left_op_right fullShare)).2
    isplitl [Ha0l]; · iexact Ha0l
    iexact Ha0r
  isplitl [Ha1l Ha1r]
  · iapply (pointsTo_share (PosShare.mem_left_op_right fullShare)).2
    isplitl [Ha1l]; · iexact Ha1l
    iexact Ha1r
  isplitl [Ha2l Ha2r]
  · iapply (pointsTo_share (PosShare.mem_left_op_right fullShare)).2
    isplitl [Ha2l]; · iexact Ha2l
    iexact Ha2r
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact Hr

/-- EXIT. The first region's arrays after its last write-back — each argument's two halves still at the entry
    contents (an input window's array is never written back), each product at what the write-backs folded — and the
    result array it left alone are the core's eleven arrays whole at any contents `V'` that have the products so and
    agree with `V c` elsewhere. -/
theorem join0 (V' : (b : Ref sig .tc) → Buf (Elt F) ((c : Thread nD τ).loc b))
    (h0 : V' main_arg0 = V c main_arg0) (h1 : V' main_arg1 = V c main_arg1) (h2 : V' main_arg2 = V c main_arg2)
    (hr : V' main_v1 = V c main_v1)
    (o0 : V' main_v0_0 = (dat0 V c).arrAt 6 cfg0.N) (o1 : V' main_v0_1 = (dat0 V c).arrAt 7 cfg0.N)
    (o2 : V' main_v0_2 = (dat0 V c).arrAt 8 cfg0.N) (o3 : V' main_v0_3 = (dat0 V c).arrAt 9 cfg0.N)
    (o4 : V' main_v0_4 = (dat0 V c).arrAt 10 cfg0.N) (o5 : V' main_v0_5 = (dat0 V c).arrAt 11 cfg0.N)
    (o6 : V' main_v0_6 = (dat0 V c).arrAt 12 cfg0.N) :
    iprop((dat0 V c).arrays ((dat0 V c).arrAt · cfg0.N) ∗ (((c : Thread nD τ).loc main_v1) ↦{fullShare} V c main_v1))
      ⊢ (unscopedBufs (Ix := Unit) (Name := ℕ) (U := UR sig nD τ) (Lvl := ℕ) c V' : sProp 𝕄) :=
  join0_of V c ((dat0 V c).arrAt · cfg0.N) (V c main_v1) V'
    (((dat0 V c).arrAt_in 0 rfl _).trans ((A_eq0 V c 0).trans h0.symm))
    (((dat0 V c).arrAt_in 1 rfl _).trans ((A_eq0 V c 1).trans h0.symm))
    (((dat0 V c).arrAt_in 2 rfl _).trans ((A_eq0 V c 2).trans h1.symm))
    (((dat0 V c).arrAt_in 3 rfl _).trans ((A_eq0 V c 3).trans h1.symm))
    (((dat0 V c).arrAt_in 4 rfl _).trans ((A_eq0 V c 4).trans h2.symm))
    (((dat0 V c).arrAt_in 5 rfl _).trans ((A_eq0 V c 5).trans h2.symm))
    o0.symm o1.symm o2.symm o3.symm o4.symm o5.symm o6.symm hr.symm

end DealJoin

/-! ## The arguments end as launched, and what the second region finds -/

theorem W2_main_arg0 (c : Dev nD) : W2 m c main_arg0 = m ((c : Thread nD τ).loc main_arg0) :=
  (W2_of m c main_arg0 (by decide)).trans ((W1_of m c main_arg0 (by decide)).trans rfl)
theorem W2_main_arg1 (c : Dev nD) : W2 m c main_arg1 = m ((c : Thread nD τ).loc main_arg1) :=
  (W2_of m c main_arg1 (by decide)).trans ((W1_of m c main_arg1 (by decide)).trans rfl)
theorem W2_main_arg2 (c : Dev nD) : W2 m c main_arg2 = m ((c : Thread nD τ).loc main_arg2) :=
  (W2_of m c main_arg2 (by decide)).trans ((W1_of m c main_arg2 (by decide)).trans rfl)

/-- After the second region each of its arrays holds what its write-backs folded: the seven products, which it only
    reads, as it found them, and the result. -/
theorem hF1 (c : Dev nD) (w : Fin cfg1.W) : (dat1 (U1 m) c).arrAt w cfg1.N = (fun b : Ref sig .tc => W2 m c b) (Pipeline.arrRef spec1 w) := by
  fin_cases w
  · exact ((dat1 (U1 m) c).arrAt_in 0 rfl _).trans ((A_eq1 (U1 m) c 0).trans (W2_of m c main_v0_0 (by decide)).symm)
  · exact ((dat1 (U1 m) c).arrAt_in 1 rfl _).trans ((A_eq1 (U1 m) c 1).trans (W2_of m c main_v0_1 (by decide)).symm)
  · exact ((dat1 (U1 m) c).arrAt_in 2 rfl _).trans ((A_eq1 (U1 m) c 2).trans (W2_of m c main_v0_2 (by decide)).symm)
  · exact ((dat1 (U1 m) c).arrAt_in 3 rfl _).trans ((A_eq1 (U1 m) c 3).trans (W2_of m c main_v0_3 (by decide)).symm)
  · exact ((dat1 (U1 m) c).arrAt_in 4 rfl _).trans ((A_eq1 (U1 m) c 4).trans (W2_of m c main_v0_4 (by decide)).symm)
  · exact ((dat1 (U1 m) c).arrAt_in 5 rfl _).trans ((A_eq1 (U1 m) c 5).trans (W2_of m c main_v0_5 (by decide)).symm)
  · exact ((dat1 (U1 m) c).arrAt_in 6 rfl _).trans ((A_eq1 (U1 m) c 6).trans (W2_of m c main_v0_6 (by decide)).symm)
  · exact (W2_main_v1 m c).symm

/-- Off the second region's arrays nothing changes. -/
theorem hrest1 (c : Dev nD) : ∀ b, b ∉ Finset.univ.image (Pipeline.arrRef spec1) → (fun b : Ref sig .tc => W2 m c b) b = (fun b : Ref sig .tc => W1 m c b) b :=
  fun b hb => W2_of m c b fun e => hb (Finset.mem_image.mpr ⟨7, Finset.mem_univ _, e.symm⟩)

/-! ## The proof data family and the thread state -/

/-- No pallas_call has a prefetched table. -/
abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the arrays through both regions: the generator register at some state, and that the core owes nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped array at the last boundary's contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- THE FIRST REGION: entered from every unscoped array at the launch contents, left with the seven products at what
    its write-backs folded. Its arrays are dealt out of the eleven (`deal0`: the arguments in halves) and joined back
    (`join0`); the generator register goes into the region's invariant and comes out; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := ((c : Thread nD τ).loc main_v1) ↦{fullShare} U0 m c main_v1
  hentry c := by
    rw [Pipeline.ownSems0_none]
    have hsplit : (unscopedBufs (Ix := Unit) (Name := ℕ) (U := UR sig nD τ) (Lvl := ℕ) c (U0 m c) : sProp 𝕄)
        ⊢ iprop((pdats m 0 c).arrays ((pdats m 0 c).arrAt · 0) ∗ (((c : Thread nD τ).loc main_v1) ↦{fullShare} U0 m c main_v1)) := deal0 (U0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have h' := hin0 (U0 m) c
      unfold Pipeline.ΦA at h'
      exact h'
    iintro ⟨Hp, -, Hr⟩
    iapply h
    isplitl [Hr]; · iexact Hr
    iexact Hp
  hout c := by
    rw [Pipeline.ownSems0_none]
    have h : (pdats m 0 c).Φ (Fin.last cfg0.N) ⊢ (iprop(Pipeline.scopedRest spec0 c ∗ ∃ r, prngReg c r) : sProp 𝕄) := by
      have h' := hout0 (U0 m) c
      unfold Pipeline.ΦA at h'
      exact h'
    iintro Hinv
    ihave H := h $$ Hinv
    icases H with ⟨Hr, Hp⟩
    isplitl [Hp]; · iexact Hp
    isplitr; · iempintro
    iexact Hr
  hexit c := by
    have hjoin : iprop((pdats m 0 c).arrays ((pdats m 0 c).arrAt · cfg0.N) ∗ (((c : Thread nD τ).loc main_v1) ↦{fullShare} U0 m c main_v1))
        ⊢ (unscopedBufs (Ix := Unit) (Name := ℕ) (U := UR sig nD τ) (Lvl := ℕ) c (U1 m c) : sProp 𝕄) :=
      join0 (U0 m) c (U1 m c) (W1_of m c main_arg0 (by decide)) (W1_of m c main_arg1 (by decide)) (W1_of m c main_arg2 (by decide))
        (W1_of m c main_v1 (by decide)) (W1_main_v0_0 m c) (W1_main_v0_1 m c) (W1_main_v0_2 m c) (W1_main_v0_3 m c)
        (W1_main_v0_4 m c) (W1_main_v0_5 m c) (W1_main_v0_6 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND REGION: entered from what the first left, left with the result array at what its write-backs folded.
    Its eight arrays are distinct, so they are split out of the eleven and put back whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun w => A_eq1 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (fun b : Ref sig .tc => W2 m c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and its run -/

abbrev segs : List (Pipeline.Seg (pcfgs (F := F)) adm (pdats m) () defs₀ 𝒱₀ L lv) := [.region (reg0 m), .region (reg1 m)]

/-- The program IS the run of the two segments. -/
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final memory holds every unscoped array at the last boundary's contents:
    the arguments as launched, the seven products and the result at what the regions' write-backs folded. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- THE RESULT: beside the frame, the result array ends at what the second region's write-backs folded, that region
    having been entered from what the first left. -/
theorem run_result : θ_run defs (onTc (τ := τ) (main (F := F))) ⟨m, fun _ => 0, ρ⟩ (fun r => ∀ c : Dev nD,
      r.2.mem ((c.tc : Thread nD τ).loc main_v1) = (dat1 (U1 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.Kernel.Hand

end
-- ==== Proof.KI.R0Base.lean ====
import proofs.«173517_j27041114096025_1_alg».proof.Proof.Gen.KernelIdeal.Launch
import proofs.«173517_j27041114096025_1_alg».proof.Proof.Gen.KernelIdeal.Skeleton
import proofs.«173517_j27041114096025_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place: unfetched, the block index
    has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the block index
    has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the block index
    has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: unfetched, the block index
    has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: unfetched, the block index
    has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the region-entry contents and whose body leaves the block in place: unfetched, the block index
    has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (reset the accumulators) is taken when the reduction coordinate `k` (the grid's last) is 0:
    the scalar chain the body computes from the coordinates, substituted. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4): the last coordinate of point `t` of the 4×4×4 grid is `t % 4`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulators out) is taken when `k` is 3. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Output window 6: where `k = 0` (case A) and where `k = 1, 2` (case B) the body stores nothing into it, the window is
    idle there and its block is not written back; where `k = 3` (case C) it is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Output window 7: where `k = 0` (case A) and where `k = 1, 2` (case B) the body stores nothing into it, the window is
    idle there and its block is not written back; where `k = 3` (case C) it is live. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
/-- Output window 8: where `k = 0` (case A) and where `k = 1, 2` (case B) the body stores nothing into it, the window is
    idle there and its block is not written back; where `k = 3` (case C) it is live. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel
/-- Output window 9: where `k = 0` (case A) and where `k = 1, 2` (case B) the body stores nothing into it, the window is
    idle there and its block is not written back; where `k = 3` (case C) it is live. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel
/-- Output window 10: where `k = 0` (case A) and where `k = 1, 2` (case B) the body stores nothing into it, the window is
    idle there and its block is not written back; where `k = 3` (case C) it is live. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem liveAt0_10_C : ∀ t : Fin cfg0.N, ¬cond0_0 (grid0.coords t) → cond0_1 (grid0.coords t) → cfg0.idle 10 (grid0.coords t) = false := by decide +kernel
/-- Output window 11: where `k = 0` (case A) and where `k = 1, 2` (case B) the body stores nothing into it, the window is
    idle there and its block is not written back; where `k = 3` (case C) it is live. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
theorem idleAt0_11_B : ∀ t : Fin cfg0.N, ¬cond0_0 (grid0.coords t) → ¬cond0_1 (grid0.coords t) → cfg0.idle 11 (grid0.coords t) = true := by decide +kernel
theorem noFlush0_11_B : ∀ t : Fin cfg0.N, ¬cond0_0 (grid0.coords t) → ¬cond0_1 (grid0.coords t) → (cfg0.win 11).flush t = false := by decide +kernel
theorem liveAt0_11_C : ∀ t : Fin cfg0.N, ¬cond0_0 (grid0.coords t) → cond0_1 (grid0.coords t) → cfg0.idle 11 (grid0.coords t) = false := by decide +kernel
/-- Output window 12: where `k = 0` (case A) and where `k = 1, 2` (case B) the body stores nothing into it, the window is
    idle there and its block is not written back; where `k = 3` (case C) it is live. -/
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem idleAt0_12_B : ∀ t : Fin cfg0.N, ¬cond0_0 (grid0.coords t) → ¬cond0_1 (grid0.coords t) → cfg0.idle 12 (grid0.coords t) = true := by decide +kernel
theorem noFlush0_12_B : ∀ t : Fin cfg0.N, ¬cond0_0 (grid0.coords t) → ¬cond0_1 (grid0.coords t) → (cfg0.win 12).flush t = false := by decide +kernel
theorem liveAt0_12_C : ∀ t : Fin cfg0.N, ¬cond0_0 (grid0.coords t) → cond0_1 (grid0.coords t) → cfg0.idle 12 (grid0.coords t) = false := by decide +kernel

/-! ## The memrefs the body runs on -/

/-- One staging buffer of output window 6, through which its contents are stated (the choice does not matter: pieces that
    cover a block read back the same through any whole view). -/
abbrev VO0_6 : View sig .tc .vmem S256x256 .f32 := (Memref.whole cc0_stg6_0 : Memref sig .tc .vmem S256x256 .f32).view
/-- One staging buffer of output window 7, through which its contents are stated (the choice does not matter: pieces that
    cover a block read back the same through any whole view). -/
abbrev VO0_7 : View sig .tc .vmem S256x256 .f32 := (Memref.whole cc0_stg7_0 : Memref sig .tc .vmem S256x256 .f32).view
/-- One staging buffer of output window 8, through which its contents are stated (the choice does not matter: pieces that
    cover a block read back the same through any whole view). -/
abbrev VO0_8 : View sig .tc .vmem S256x256 .f32 := (Memref.whole cc0_stg8_0 : Memref sig .tc .vmem S256x256 .f32).view
/-- One staging buffer of output window 9, through which its contents are stated (the choice does not matter: pieces that
    cover a block read back the same through any whole view). -/
abbrev VO0_9 : View sig .tc .vmem S256x256 .f32 := (Memref.whole cc0_stg9_0 : Memref sig .tc .vmem S256x256 .f32).view
/-- One staging buffer of output window 10, through which its contents are stated (the choice does not matter: pieces that
    cover a block read back the same through any whole view). -/
abbrev VO0_10 : View sig .tc .vmem S256x256 .f32 := (Memref.whole cc0_stg10_0 : Memref sig .tc .vmem S256x256 .f32).view
/-- One staging buffer of output window 11, through which its contents are stated (the choice does not matter: pieces that
    cover a block read back the same through any whole view). -/
abbrev VO0_11 : View sig .tc .vmem S256x256 .f32 := (Memref.whole cc0_stg11_0 : Memref sig .tc .vmem S256x256 .f32).view
/-- One staging buffer of output window 12, through which its contents are stated (the choice does not matter: pieces that
    cover a block read back the same through any whole view). -/
abbrev VO0_12 : View sig .tc .vmem S256x256 .f32 := (Memref.whole cc0_stg12_0 : Memref sig .tc .vmem S256x256 .f32).view
/-- Each window's current staging memref at point `t`, as the pipeline passes it to the body, and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .f32 := win0_12.stage (cfg0.slots t 12)
abbrev hs0_12 (t : Fin cfg0.N) : (ms0_12 t).IsWhole := hstage0_12 ((cfg0.slots t 12).cast nbuf0_12)
/-- The seven accumulators: whole scoped buffers of the kernel's own, passed beside the windows and carried from one
    grid point to the next; and each as a view, through which what it holds is stated. -/
abbrev scM0_0 : Memref sig .tc .vmem S256x256 .f32 := Memref.whole cc0_scratch0
abbrev VS0_0 : View sig .tc .vmem S256x256 .f32 := scM0_0.view
abbrev scM0_1 : Memref sig .tc .vmem S256x256 .f32 := Memref.whole cc0_scratch1
abbrev VS0_1 : View sig .tc .vmem S256x256 .f32 := scM0_1.view
abbrev scM0_2 : Memref sig .tc .vmem S256x256 .f32 := Memref.whole cc0_scratch2
abbrev VS0_2 : View sig .tc .vmem S256x256 .f32 := scM0_2.view
abbrev scM0_3 : Memref sig .tc .vmem S256x256 .f32 := Memref.whole cc0_scratch3
abbrev VS0_3 : View sig .tc .vmem S256x256 .f32 := scM0_3.view
abbrev scM0_4 : Memref sig .tc .vmem S256x256 .f32 := Memref.whole cc0_scratch4
abbrev VS0_4 : View sig .tc .vmem S256x256 .f32 := scM0_4.view
abbrev scM0_5 : Memref sig .tc .vmem S256x256 .f32 := Memref.whole cc0_scratch5
abbrev VS0_5 : View sig .tc .vmem S256x256 .f32 := scM0_5.view
abbrev scM0_6 : Memref sig .tc .vmem S256x256 .f32 := Memref.whole cc0_scratch6
abbrev VS0_6 : View sig .tc .vmem S256x256 .f32 := scM0_6.view

/-! ## The region invariant before the first point -/

/-- The core's scoped buffers that are neither this region's staging buffers nor its accumulators (the second
    region's sixteen staging buffers), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant the launch hands the region: the seven accumulators owned at some contents, the untouched rest, and
    the generator register at some state (a whole buffer owned through its whole memref is its points-to). -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ rest0 (F := F) c) ∗ (∃ r, prngReg c r)) := by
  unfold Pipeline.ΦA rest0; rw [scopedRest0_eq]; simp only [scM0_0, scM0_1, scM0_2, scM0_3, scM0_4, scM0_5, scM0_6, owns_whole]; try rfl

end Cert.KernelIdeal.Hand

end
-- ==== Proof.KI.R0RunA.lean ====
import proofs.«173517_j27041114096025_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 0`. The first branch is taken, the second is not: every accumulator is reset to zero and then
    takes its product's first term. On whole memrefs — the six input blocks at `x0 … x5`, the seven outputs at contents
    `xi6 … xi12` that the body hands back untouched, the accumulators at anything — the body runs to any continuation that
    accepts the inputs and outputs as they were and each accumulator with the pieces its stores wrote (`LS0 … LS6`, the
    last store first). The pieces are the witness the run finds. -/
noncomputable def kernelRun0_A (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) :
    Σ' (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (xi6 xi7 xi8 xi9 xi10 xi11 xi12 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun xi6 xi7 xi8 xi9 xi10 xi11 xi12 E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Hand

end
-- ==== Proof.KI.R0RunB.lean ====
import proofs.«173517_j27041114096025_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 1, 2`. Neither branch is taken: every accumulator, found at what the point before left
    (`xs0 … xs6`), takes its product's next term. The outputs are handed back untouched; the pieces each accumulator's store
    wrote are the witness the run finds. -/
noncomputable def kernelRun0_B (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    Σ' (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (xi6 xi7 xi8 xi9 xi10 xi11 xi12 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
            ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun xi6 xi7 xi8 xi9 xi10 xi11 xi12 E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hfs0
    obtain rfl := harg17.eq_unread hfs1
    obtain rfl := harg18.eq_unread hfs2
    obtain rfl := harg19.eq_unread hfs3
    obtain rfl := harg20.eq_unread hfs4
    obtain rfl := harg21.eq_unread hfs5
    obtain rfl := harg22.eq_unread hfs6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Hand

end
-- ==== Proof.KI.R0RunC.lean ====
import proofs.«173517_j27041114096025_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 1000000 in
/-- THE BODY WHERE `k = 3`. The first branch is not taken, the second is: every accumulator, found at what the point
    before left (`xs0 … xs6`), takes its product's last term and is then copied whole into its output. The outputs are
    taken at anything; the pieces each output's and each accumulator's stores wrote (`L6 … L12`, `LS0 … LS6`) are the witness
    the run finds. -/
noncomputable def kernelRun0_C (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    Σ' (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (LS0 : List (View.Piece (Elt F) S256x256 .f32)) (LS1 : List (View.Piece (Elt F) S256x256 .f32)) (LS2 : List (View.Piece (Elt F) S256x256 .f32)) (LS3 : List (View.Piece (Elt F) S256x256 .f32)) (LS4 : List (View.Piece (Elt F) S256x256 .f32)) (LS5 : List (View.Piece (Elt F) S256x256 .f32)), { LS6 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12)
                ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6)) -∗ K ⟨⟩))
          ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, ?_, fun E K => ?run⟩
  case run =>
    simp only [cc0__matmul7_kernel_eq_skeleton]; unfold cc0__matmul7_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg16.eq_unread hfs0
    obtain rfl := harg17.eq_unread hfs1
    obtain rfl := harg18.eq_unread hfs2
    obtain rfl := harg19.eq_unread hfs3
    obtain rfl := harg20.eq_unread hfs4
    obtain rfl := harg21.eq_unread hfs5
    obtain rfl := harg22.eq_unread hfs6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Hand

end
-- ==== Proof.KI.R0Data.lean ====
import proofs.«173517_j27041114096025_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## What each case leaves in the accumulators and the outputs -/

/-- An output the body does not store into at a point holds nothing the certificate reads there (the window is idle and its
    block is not written back): a placeholder. -/
def out0_idle : Vec F S256x256 .f32 := VO0_6.read (Elt F) (VO0_6.writes (Elt F) VO0_6.junk [])

/-- The stores into accumulator 0 where `k = 0` each write the whole buffer: the pieces tile it, so they cover it. -/
theorem scover0_A_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1 S256x256.size (by sl_kernel_rfl) y
/-- What the body leaves in accumulator 0 where `k = 0`: its pieces read back. -/
def sout0_A_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1)

/-- The stores into accumulator 1 where `k = 0` each write the whole buffer: the pieces tile it, so they cover it. -/
theorem scover0_A_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1 S256x256.size (by sl_kernel_rfl) y
/-- What the body leaves in accumulator 1 where `k = 0`: its pieces read back. -/
def sout0_A_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1)

/-- The stores into accumulator 2 where `k = 0` each write the whole buffer: the pieces tile it, so they cover it. -/
theorem scover0_A_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1 S256x256.size (by sl_kernel_rfl) y
/-- What the body leaves in accumulator 2 where `k = 0`: its pieces read back. -/
def sout0_A_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1)

/-- The stores into accumulator 3 where `k = 0` each write the whole buffer: the pieces tile it, so they cover it. -/
theorem scover0_A_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1 S256x256.size (by sl_kernel_rfl) y
/-- What the body leaves in accumulator 3 where `k = 0`: its pieces read back. -/
def sout0_A_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.1)

/-- The stores into accumulator 4 where `k = 0` each write the whole buffer: the pieces tile it, so they cover it. -/
theorem scover0_A_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1 S256x256.size (by sl_kernel_rfl) y
/-- What the body leaves in accumulator 4 where `k = 0`: its pieces read back. -/
def sout0_A_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.1)

/-- The stores into accumulator 5 where `k = 0` each write the whole buffer: the pieces tile it, so they cover it. -/
theorem scover0_A_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1 S256x256.size (by sl_kernel_rfl) y
/-- What the body leaves in accumulator 5 where `k = 0`: its pieces read back. -/
def sout0_A_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_5.read (Elt F) (VS0_5.writes (Elt F) VS0_5.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.1)

/-- The stores into accumulator 6 where `k = 0` each write the whole buffer: the pieces tile it, so they cover it. -/
theorem scover0_A_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1 S256x256.size (by sl_kernel_rfl) y
/-- What the body leaves in accumulator 6 where `k = 0`: its pieces read back. -/
def sout0_A_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) : Vec F S256x256 .f32 :=
  VS0_6.read (Elt F) (VS0_6.writes (Elt F) VS0_6.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.1)

/-- The stores into accumulator 0 where `k = 1, 2` each write the whole buffer: the pieces tile it, so they cover it. -/
theorem scover0_B_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1 S256x256.size (by sl_kernel_rfl) y
/-- What the body leaves in accumulator 0 where `k = 1, 2`: its pieces read back. -/
def sout0_B_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1)

/-- The stores into accumulator 1 where `k = 1, 2` each write the whole buffer: the pieces tile it, so they cover it. -/
theorem scover0_B_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1 S256x256.size (by sl_kernel_rfl) y
/-- What the body leaves in accumulator 1 where `k = 1, 2`: its pieces read back. -/
def sout0_B_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1)

/-- The stores into accumulator 2 where `k = 1, 2` each write the whole buffer: the pieces tile it, so they cover it. -/
theorem scover0_B_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1 S256x256.size (by sl_kernel_rfl) y
/-- What the body leaves in accumulator 2 where `k = 1, 2`: its pieces read back. -/
def sout0_B_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1)

/-- The stores into accumulator 3 where `k = 1, 2` each write the whole buffer: the pieces tile it, so they cover it. -/
theorem scover0_B_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1 S256x256.size (by sl_kernel_rfl) y
/-- What the body leaves in accumulator 3 where `k = 1, 2`: its pieces read back. -/
def sout0_B_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1)

/-- The stores into accumulator 4 where `k = 1, 2` each write the whole buffer: the pieces tile it, so they cover it. -/
theorem scover0_B_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1 S256x256.size (by sl_kernel_rfl) y
/-- What the body leaves in accumulator 4 where `k = 1, 2`: its pieces read back. -/
def sout0_B_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1)

/-- The stores into accumulator 5 where `k = 1, 2` each write the whole buffer: the pieces tile it, so they cover it. -/
theorem scover0_B_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1 S256x256.size (by sl_kernel_rfl) y
/-- What the body leaves in accumulator 5 where `k = 1, 2`: its pieces read back. -/
def sout0_B_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_5.read (Elt F) (VS0_5.writes (Elt F) VS0_5.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1)

/-- The stores into accumulator 6 where `k = 1, 2` each write the whole buffer: the pieces tile it, so they cover it. -/
theorem scover0_B_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1 S256x256.size (by sl_kernel_rfl) y
/-- What the body leaves in accumulator 6 where `k = 1, 2`: its pieces read back. -/
def sout0_B_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_6.read (Elt F) (VS0_6.writes (Elt F) VS0_6.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1)

/-- The store into output 6 where `k = 3` writes its whole block: the pieces tile it, so they cover it. -/
theorem cover0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1 S256x256.size (by sl_kernel_rfl) y
/-- What the body leaves in output 6's staging buffer where `k = 3`: its pieces read back (over anything: they cover). -/
def out0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).1)

/-- The store into output 7 where `k = 3` writes its whole block: the pieces tile it, so they cover it. -/
theorem cover0_C_7 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1 S256x256.size (by sl_kernel_rfl) y
/-- What the body leaves in output 7's staging buffer where `k = 3`: its pieces read back (over anything: they cover). -/
def out0_C_7 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.1)

/-- The store into output 8 where `k = 3` writes its whole block: the pieces tile it, so they cover it. -/
theorem cover0_C_8 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1 S256x256.size (by sl_kernel_rfl) y
/-- What the body leaves in output 8's staging buffer where `k = 3`: its pieces read back (over anything: they cover). -/
def out0_C_8 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.1)

/-- The store into output 9 where `k = 3` writes its whole block: the pieces tile it, so they cover it. -/
theorem cover0_C_9 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1 S256x256.size (by sl_kernel_rfl) y
/-- What the body leaves in output 9's staging buffer where `k = 3`: its pieces read back (over anything: they cover). -/
def out0_C_9 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.1)

/-- The store into output 10 where `k = 3` writes its whole block: the pieces tile it, so they cover it. -/
theorem cover0_C_10 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1 S256x256.size (by sl_kernel_rfl) y
/-- What the body leaves in output 10's staging buffer where `k = 3`: its pieces read back (over anything: they cover). -/
def out0_C_10 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.1)

/-- The store into output 11 where `k = 3` writes its whole block: the pieces tile it, so they cover it. -/
theorem cover0_C_11 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1 S256x256.size (by sl_kernel_rfl) y
/-- What the body leaves in output 11's staging buffer where `k = 3`: its pieces read back (over anything: they cover). -/
def out0_C_11 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.1)

/-- The store into output 12 where `k = 3` writes its whole block: the pieces tile it, so they cover it. -/
theorem cover0_C_12 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1 S256x256.size (by sl_kernel_rfl) y
/-- What the body leaves in output 12's staging buffer where `k = 3`: its pieces read back (over anything: they cover). -/
def out0_C_12 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.1)

/-- The stores into accumulator 0 where `k = 3` each write the whole buffer: the pieces tile it, so they cover it. -/
theorem scover0_C_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1 S256x256.size (by sl_kernel_rfl) y
/-- What the body leaves in accumulator 0 where `k = 3`: its pieces read back. -/
def sout0_C_0 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.1)

/-- The stores into accumulator 1 where `k = 3` each write the whole buffer: the pieces tile it, so they cover it. -/
theorem scover0_C_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1 S256x256.size (by sl_kernel_rfl) y
/-- What the body leaves in accumulator 1 where `k = 3`: its pieces read back. -/
def sout0_C_1 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.1)

/-- The stores into accumulator 2 where `k = 3` each write the whole buffer: the pieces tile it, so they cover it. -/
theorem scover0_C_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1 S256x256.size (by sl_kernel_rfl) y
/-- What the body leaves in accumulator 2 where `k = 3`: its pieces read back. -/
def sout0_C_2 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.1)

/-- The stores into accumulator 3 where `k = 3` each write the whole buffer: the pieces tile it, so they cover it. -/
theorem scover0_C_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1 S256x256.size (by sl_kernel_rfl) y
/-- What the body leaves in accumulator 3 where `k = 3`: its pieces read back. -/
def sout0_C_3 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.1)

/-- The stores into accumulator 4 where `k = 3` each write the whole buffer: the pieces tile it, so they cover it. -/
theorem scover0_C_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1 S256x256.size (by sl_kernel_rfl) y
/-- What the body leaves in accumulator 4 where `k = 3`: its pieces read back. -/
def sout0_C_4 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.1)

/-- The stores into accumulator 5 where `k = 3` each write the whole buffer: the pieces tile it, so they cover it. -/
theorem scover0_C_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1 S256x256.size (by sl_kernel_rfl) y
/-- What the body leaves in accumulator 5 where `k = 3`: its pieces read back. -/
def sout0_C_5 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_5.read (Elt F) (VS0_5.writes (Elt F) VS0_5.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.1)

/-- The stores into accumulator 6 where `k = 3` each write the whole buffer: the pieces tile it, so they cover it. -/
theorem scover0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) (y : S256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1 S256x256.size (by sl_kernel_rfl) y
/-- What the body leaves in accumulator 6 where `k = 3`: its pieces read back. -/
def sout0_C_6 (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) : Vec F S256x256 .f32 :=
  VS0_6.read (Elt F) (VS0_6.writes (Elt F) VS0_6.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.1)

/-! ## What the outputs and the accumulators hold after each point -/

/-- The fourteen blocks the certificate follows from point to point: the seven outputs' staging buffers (windows 6 … 12)
    and the seven accumulators. -/
structure Outs0 (F : FTy → Type) where
  o6 : Vec F S256x256 .f32
  o7 : Vec F S256x256 .f32
  o8 : Vec F S256x256 .f32
  o9 : Vec F S256x256 .f32
  o10 : Vec F S256x256 .f32
  o11 : Vec F S256x256 .f32
  o12 : Vec F S256x256 .f32
  s0 : Vec F S256x256 .f32
  s1 : Vec F S256x256 .f32
  s2 : Vec F S256x256 .f32
  s3 : Vec F S256x256 .f32
  s4 : Vec F S256x256 .f32
  s5 : Vec F S256x256 .f32
  s6 : Vec F S256x256 .f32

/-- After a point with `k = 0`: each accumulator at zero plus its product's first term, from the point's input blocks. -/
def outs0_A (c : Dev nD) (t : Fin cfg0.N) (h0 : t.val % 4 = 0) (h1 : ¬t.val % 4 = 3) : Outs0 F where
  o6 := out0_idle
  o7 := out0_idle
  o8 := out0_idle
  o9 := out0_idle
  o10 := out0_idle
  o11 := out0_idle
  o12 := out0_idle
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

/-- After a point with `k = 1, 2`: each accumulator at what the point before left (`p`) plus its product's next term. -/
def outs0_B (c : Dev nD) (t : Fin cfg0.N) (h0 : ¬t.val % 4 = 0) (h1 : ¬t.val % 4 = 3) (p : Outs0 F) : Outs0 F where
  o6 := out0_idle
  o7 := out0_idle
  o8 := out0_idle
  o9 := out0_idle
  o10 := out0_idle
  o11 := out0_idle
  o12 := out0_idle
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6
  s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

/-- After a point with `k = 3`: each accumulator at what the point before left (`p`) plus its product's last term, and each
    output at its accumulator. -/
def outs0_C (c : Dev nD) (t : Fin cfg0.N) (h0 : ¬t.val % 4 = 0) (h1 : t.val % 4 = 3) (p : Outs0 F) : Outs0 F where
  o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  o12 := out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6
  s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- THE ACCUMULATION: what the fourteen blocks hold after the body at point `n`, by recursion on the point — the case
    `n % 4` selects, run on the point's input blocks over what the point before left. No point is in two cases. -/
def outsAt0 (c : Dev nD) : (n : ℕ) → n < cfg0.N → Outs0 F
  | 0, hn => outs0_A V c ⟨0, hn⟩ (Nat.zero_mod _) (by show ¬(0 % 4 = 3); decide)
  | n + 1, hn =>
    if h0 : (n + 1) % 4 = 0 then
      if h1 : (n + 1) % 4 = 3 then False.elim (by omega)
      else outs0_A V c ⟨n + 1, hn⟩ h0 h1
    else
      if h1 : (n + 1) % 4 = 3 then outs0_C V c ⟨n + 1, hn⟩ h0 h1 (outsAt0 c n (Nat.lt_of_succ_lt hn))
      else outs0_B V c ⟨n + 1, hn⟩ h0 h1 (outsAt0 c n (Nat.lt_of_succ_lt hn))

/-- At a point with `k = 0`. -/
theorem outsAt0_A (c : Dev nD) (t : Fin cfg0.N) (h0 : t.val % 4 = 0) (h1 : ¬t.val % 4 = 3) :
    outsAt0 V c t.val t.isLt = outs0_A V c t h0 h1 := by
  obtain ⟨n, hn⟩ := t
  cases n with
  | zero => exact rfl
  | succ n => exact (dif_pos h0).trans ((dif_neg h1).trans rfl)

/-- At a point with `k = 1, 2`: over what the point before left. -/
theorem outsAt0_B (c : Dev nD) (t : Fin cfg0.N) (h0 : ¬t.val % 4 = 0) (h1 : ¬t.val % 4 = 3) :
    outsAt0 V c t.val t.isLt = outs0_B V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- At a point with `k = 3`: over what the point before left. -/
theorem outsAt0_C (c : Dev nD) (t : Fin cfg0.N) (h0 : ¬t.val % 4 = 0) (h1 : t.val % 4 = 3) :
    outsAt0 V c t.val t.isLt = outs0_C V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant, point by point -/

/-- Before the first point what the launch hands over (every accumulator at anything); before any later point the seven
    accumulators at what the point before left, the untouched rest, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ owns (c : Thread nD τ) scM0_4 fullShare (outsAt0 V c n hn).s4 ∗ owns (c : Thread nD τ) scM0_5 fullShare (outsAt0 V c n hn).s5 ∗ owns (c : Thread nD τ) scM0_6 fullShare (outsAt0 V c n hn).s6 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ owns (c : Thread nD τ) scM0_4 fullShare (outsAt0 V c (n - 1) (by omega)).s4 ∗ owns (c : Thread nD τ) scM0_5 fullShare (outsAt0 V c (n - 1) (by omega)).s5 ∗ owns (c : Thread nD τ) scM0_6 fullShare (outsAt0 V c (n - 1) (by omega)).s6 ∗ rest0 (F := F) c) ∗ (∃ r, prngReg c r)) := by
  cases n with
  | zero => exact absurd rfl hz
  | succ n => rfl

/-! ## The proof data -/

/-- The share of its array each window holds: the two windows on one argument array take the two halves of the full share. -/
def q0 : Fin 13 → PosShare TreeShare := fun | 0 => fullShare.left | 1 => fullShare.right | 2 => fullShare.left | 3 => fullShare.right | 4 => fullShare.left | 5 => fullShare.right | _ => fullShare

/-- The proof data of the region on core `c`: the arrays as the region finds them; after the body at point `t` each input's
    buffer at its block and each output's at its component of the accumulation; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).o6
    | ⟨7, _⟩ => (outsAt0 V c t.val t.isLt).o7
    | ⟨8, _⟩ => (outsAt0 V c t.val t.isLt).o8
    | ⟨9, _⟩ => (outsAt0 V c t.val t.isLt).o9
    | ⟨10, _⟩ => (outsAt0 V c t.val t.isLt).o10
    | ⟨11, _⟩ => (outsAt0 V c t.val t.isLt).o11
    | ⟨12, _⟩ => (outsAt0 V c t.val t.isLt).o12
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem q_eq0 (c : Dev nD) : (dat0 V c).q = q0 := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]
theorem after0_10 (c : Dev nD) (t : Fin cfg0.N) : (dat0 V c).after 10 t = (outsAt0 V c t.val t.isLt).o10 := by dsimp only [dat0]
theorem after0_11 (c : Dev nD) (t : Fin cfg0.N) : (dat0 V c).after 11 t = (outsAt0 V c t.val t.isLt).o11 := by dsimp only [dat0]
theorem after0_12 (c : Dev nD) (t : Fin cfg0.N) : (dat0 V c).after 12 t = (outsAt0 V c t.val t.isLt).o12 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HS4, HS5, HS6, Hr⟩, Hg⟩
  isplitl [HS0 HS1 HS2 HS3 HS4 HS5 HS6 Hr]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R0BodyDefs.lean ====
import proofs.«173517_j27041114096025_1_alg».proof.Proof.KI.R0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

/-! ## The three cases' runs with what they leave named -/

set_option maxHeartbeats 2000000 in
/-- The body where `k = 0`, with what it leaves NAMED: on whole memrefs it runs to any continuation that accepts the inputs as they were, the outputs as they were,
    each accumulator at what the case leaves in it — the run's pieces cover each buffer they are written to, so reading them back does
    not depend on the buffer or on what it held. -/
theorem bodyRun0_A (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) :
    ∀ (xi6 xi7 xi8 xi9 xi10 xi11 xi12 : Vec F S256x256 .f32) (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
          ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
              ∗ owns (c : Thread nD τ) arg16 fullShare (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg17 fullShare (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg18 fullShare (sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg19 fullShare (sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg20 fullShare (sout0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg21 fullShare (sout0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5) ∗ owns (c : Thread nD τ) arg22 fullShare (sout0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro xi6 xi7 xi8 xi9 xi10 xi11 xi12 E K
  iintro ⟨H0, H1, H2, H3, H4, H5, H6, H7, H8, H9, H10, H11, H12, HS0, HS1, HS2, HS3, HS4, HS5, HS6, Hk⟩
  iapply ((kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.2.2.2.2.2 xi6 xi7 xi8 xi9 xi10 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns sout0_A_0; iexists _; isplitr
    swap; · iexact HS0
    ipureintro; exact View.read_writes_of_cover _ _ _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS1]
  · unfold owns sout0_A_1; iexists _; isplitr
    swap; · iexact HS1
    ipureintro; exact View.read_writes_of_cover _ _ _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS2]
  · unfold owns sout0_A_2; iexists _; isplitr
    swap; · iexact HS2
    ipureintro; exact View.read_writes_of_cover _ _ _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS3]
  · unfold owns sout0_A_3; iexists _; isplitr
    swap; · iexact HS3
    ipureintro; exact View.read_writes_of_cover _ _ _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS4]
  · unfold owns sout0_A_4; iexists _; isplitr
    swap; · iexact HS4
    ipureintro; exact View.read_writes_of_cover _ _ _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  isplitl [HS5]
  · unfold owns sout0_A_5; iexists _; isplitr
    swap; · iexact HS5
    ipureintro; exact View.read_writes_of_cover _ _ _ _ _ (scover0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)
  unfold owns sout0_A_6; iexists _; isplitr
  swap; · iexact HS6
  ipureintro; exact View.read_writes_of_cover _ _ _ _ _ (scover0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)

set_option maxHeartbeats 2000000 in
/-- The body where `k = 1, 2`, with what it leaves NAMED: on whole memrefs it runs to any continuation that accepts the inputs as they were, the outputs as they were,
    each accumulator at what the case leaves in it — the run's pieces cover each buffer they are written to, so reading them back does
    not depend on the buffer or on what it held. -/
theorem bodyRun0_B (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    ∀ (xi6 xi7 xi8 xi9 xi10 xi11 xi12 : Vec F S256x256 .f32) (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
          ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare xi6 ∗ owns (c : Thread nD τ) arg10 fullShare xi7 ∗ owns (c : Thread nD τ) arg11 fullShare xi8 ∗ owns (c : Thread nD τ) arg12 fullShare xi9 ∗ owns (c : Thread nD τ) arg13 fullShare xi10 ∗ owns (c : Thread nD τ) arg14 fullShare xi11 ∗ owns (c : Thread nD τ) arg15 fullShare xi12
              ∗ owns (c : Thread nD τ) arg16 fullShare (sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg17 fullShare (sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg18 fullShare (sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg19 fullShare (sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg20 fullShare (sout0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg21 fullShare (sout0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg22 fullShare (sout0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro xi6 xi7 xi8 xi9 xi10 xi11 xi12 E K
  iintro ⟨H0, H1, H2, H3, H4, H5, H6, H7, H8, H9, H10, H11, H12, HS0, HS1, HS2, HS3, HS4, HS5, HS6, Hk⟩
  iapply ((kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2 xi6 xi7 xi8 xi9 xi10 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns sout0_B_0; iexists _; isplitr
    swap; · iexact HS0
    ipureintro; exact View.read_writes_of_cover _ _ _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS1]
  · unfold owns sout0_B_1; iexists _; isplitr
    swap; · iexact HS1
    ipureintro; exact View.read_writes_of_cover _ _ _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS2]
  · unfold owns sout0_B_2; iexists _; isplitr
    swap; · iexact HS2
    ipureintro; exact View.read_writes_of_cover _ _ _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS3]
  · unfold owns sout0_B_3; iexists _; isplitr
    swap; · iexact HS3
    ipureintro; exact View.read_writes_of_cover _ _ _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS4]
  · unfold owns sout0_B_4; iexists _; isplitr
    swap; · iexact HS4
    ipureintro; exact View.read_writes_of_cover _ _ _ _ _ (scover0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS5]
  · unfold owns sout0_B_5; iexists _; isplitr
    swap; · iexact HS5
    ipureintro; exact View.read_writes_of_cover _ _ _ _ _ (scover0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  unfold owns sout0_B_6; iexists _; isplitr
  swap; · iexact HS6
  ipureintro; exact View.read_writes_of_cover _ _ _ _ _ (scover0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)

set_option maxHeartbeats 2000000 in
/-- The body where `k = 3`, with what it leaves NAMED: on whole memrefs it runs to any continuation that accepts the inputs as they were,
    each accumulator at what the case leaves in it and each output at what the case leaves in it — the run's pieces cover each buffer they are written to, so reading them back does
    not depend on the buffer or on what it held. -/
theorem bodyRun0_C (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (xs0 : Vec F S256x256 .f32) (xs1 : Vec F S256x256 .f32) (xs2 : Vec F S256x256 .f32) (xs3 : Vec F S256x256 .f32) (xs4 : Vec F S256x256 .f32) (xs5 : Vec F S256x256 .f32) (xs6 : Vec F S256x256 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
              ∗ owns (c : Thread nD τ) arg9 fullShare (out0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg10 fullShare (out0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg11 fullShare (out0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg12 fullShare (out0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg13 fullShare (out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg14 fullShare (out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg15 fullShare (out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
              ∗ owns (c : Thread nD τ) arg16 fullShare (sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg17 fullShare (sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg18 fullShare (sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg19 fullShare (sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg20 fullShare (sout0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg21 fullShare (sout0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6) ∗ owns (c : Thread nD τ) arg22 fullShare (sout0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)) -∗ K ⟨⟩))
        ⊢ wp frame (wpE (defs₀ (F := F)) Variants.none c none) E (cc0__matmul7_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  iintro ⟨H0, H1, H2, H3, H4, H5, H6, H7, H8, H9, H10, H11, H12, HS0, HS1, HS2, HS3, HS4, HS5, HS6, Hk⟩
  iapply ((kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6).2.2.2.2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns out0_C_6; iexists _; isplitr
    swap; · iexact H6
    ipureintro; exact View.read_writes_of_cover _ _ _ _ _ (cover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H7]
  · unfold owns out0_C_7; iexists _; isplitr
    swap; · iexact H7
    ipureintro; exact View.read_writes_of_cover _ _ _ _ _ (cover0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H8]
  · unfold owns out0_C_8; iexists _; isplitr
    swap; · iexact H8
    ipureintro; exact View.read_writes_of_cover _ _ _ _ _ (cover0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H9]
  · unfold owns out0_C_9; iexists _; isplitr
    swap; · iexact H9
    ipureintro; exact View.read_writes_of_cover _ _ _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H10]
  · unfold owns out0_C_10; iexists _; isplitr
    swap; · iexact H10
    ipureintro; exact View.read_writes_of_cover _ _ _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H11]
  · unfold owns out0_C_11; iexists _; isplitr
    swap; · iexact H11
    ipureintro; exact View.read_writes_of_cover _ _ _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [H12]
  · unfold owns out0_C_12; iexists _; isplitr
    swap; · iexact H12
    ipureintro; exact View.read_writes_of_cover _ _ _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS0]
  · unfold owns sout0_C_0; iexists _; isplitr
    swap; · iexact HS0
    ipureintro; exact View.read_writes_of_cover _ _ _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS1]
  · unfold owns sout0_C_1; iexists _; isplitr
    swap; · iexact HS1
    ipureintro; exact View.read_writes_of_cover _ _ _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS2]
  · unfold owns sout0_C_2; iexists _; isplitr
    swap; · iexact HS2
    ipureintro; exact View.read_writes_of_cover _ _ _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS3]
  · unfold owns sout0_C_3; iexists _; isplitr
    swap; · iexact HS3
    ipureintro; exact View.read_writes_of_cover _ _ _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS4]
  · unfold owns sout0_C_4; iexists _; isplitr
    swap; · iexact HS4
    ipureintro; exact View.read_writes_of_cover _ _ _ _ _ (scover0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  isplitl [HS5]
  · unfold owns sout0_C_5; iexists _; isplitr
    swap; · iexact HS5
    ipureintro; exact View.read_writes_of_cover _ _ _ _ _ (scover0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)
  unfold owns sout0_C_6; iexists _; isplitr
  swap; · iexact HS6
  ipureintro; exact View.read_writes_of_cover _ _ _ _ _ (scover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)

end Cert.KernelIdeal.Hand

end
-- ==== Proof.KI.R0BodyA.lean ====
import proofs.«173517_j27041114096025_1_alg».proof.Proof.KI.R0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 0`: the inputs' memrefs hold their blocks, the outputs are idle and handed back as found, the
    invariant hands over the accumulators (at anything at the first point, at what the point before left later — the
    case overwrites them either way) and takes them back at this point's contents. -/
theorem sound_body0_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
  rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
  rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
  rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
  rw [Dat.leavesExact_idle (dat0 V c) 12 t (idleAt0_12_A t ((hcond0_0 t).mpr h0) (fun h => h1 ((hcond0_1 t).mp h))) (noFlush0_12_A t ((hcond0_0 t).mpr h0) (fun h => h1 ((hcond0_1 t).mp h)))]
  rw [outsAt0_A V c t h0 h1]
  dsimp only [outs0_A]
  by_cases hz : t.val = 0
  · rw [PhiS0_castSucc V c t, PhiS0_zero V c _ _ hz, PhiA0_eq]
    iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, HS0, HS1, HS2, HS3, HS4, HS5, HS6⟩
    isplitl [HS0 HS1 HS2 HS3 HS4 HS5 HS6 Hr Hg]
    · isplitl [HS0 HS1 HS2 HS3 HS4 HS5 HS6 Hr]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

  · rw [PhiS0_castSucc V c t, PhiS0_pos V c _ _ hz]
    iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iintro ⟨H0, H1, H2, H3, H4, H5, H6, H7, H8, H9, H10, H11, H12, HS0, HS1, HS2, HS3, HS4, HS5, HS6⟩
    isplitl [HS0 HS1 HS2 HS3 HS4 HS5 HS6 Hr Hg]
    · isplitl [HS0 HS1 HS2 HS3 HS4 HS5 HS6 Hr]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Hand

end
-- ==== Proof.KI.R0BodyB.lean ====
import proofs.«173517_j27041114096025_1_alg».proof.Proof.KI.R0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 1, 2`: the outputs are idle and handed back as found; the invariant hands over the
    accumulators at what the point before left and takes them back at this point's contents. -/
theorem sound_body0_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
  rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
  rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
  rw [Dat.leavesExact_idle (dat0 V c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
  rw [outsAt0_B V c t h0 h1]
  dsimp only [outs0_B]
  have hz : t.val ≠ 0 := by omega
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) _).s0 (outsAt0 V c (t.val - 1) _).s1 (outsAt0 V c (t.val - 1) _).s2 (outsAt0 V c (t.val - 1) _).s3 (outsAt0 V c (t.val - 1) _).s4 (outsAt0 V c (t.val - 1) _).s5 (outsAt0 V c (t.val - 1) _).s6 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hr Hg]
  · isplitl [HS0 HS1 HS2 HS3 HS4 HS5 HS6 Hr]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.KernelIdeal.Hand

end
-- ==== Proof.KI.R0BodyC.lean ====
import proofs.«173517_j27041114096025_1_alg».proof.Proof.KI.R0BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

set_option maxHeartbeats 8000000 in
/-- The body at a point with `k = 3`: the outputs are taken at anything and left at their stores; the invariant hands over
    the accumulators at what the point before left and takes them back at this point's contents. -/
theorem sound_body0_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6_C t (fun h => h0 ((hcond0_0 t).mp h)) ((hcond0_1 t).mpr h1)], after0_6]
  rw [show (dat0 V c).leavesExact 7 t = owns (c : Thread nD τ) (ms0_7 t) fullShare ((dat0 V c).after 7 t) from by
    unfold Dat.leavesExact; rw [liveAt0_7_C t (fun h => h0 ((hcond0_0 t).mp h)) ((hcond0_1 t).mpr h1)], after0_7]
  rw [show (dat0 V c).leavesExact 8 t = owns (c : Thread nD τ) (ms0_8 t) fullShare ((dat0 V c).after 8 t) from by
    unfold Dat.leavesExact; rw [liveAt0_8_C t (fun h => h0 ((hcond0_0 t).mp h)) ((hcond0_1 t).mpr h1)], after0_8]
  rw [show (dat0 V c).leavesExact 9 t = owns (c : Thread nD τ) (ms0_9 t) fullShare ((dat0 V c).after 9 t) from by
    unfold Dat.leavesExact; rw [liveAt0_9_C t (fun h => h0 ((hcond0_0 t).mp h)) ((hcond0_1 t).mpr h1)], after0_9]
  rw [show (dat0 V c).leavesExact 10 t = owns (c : Thread nD τ) (ms0_10 t) fullShare ((dat0 V c).after 10 t) from by
    unfold Dat.leavesExact; rw [liveAt0_10_C t (fun h => h0 ((hcond0_0 t).mp h)) ((hcond0_1 t).mpr h1)], after0_10]
  rw [show (dat0 V c).leavesExact 11 t = owns (c : Thread nD τ) (ms0_11 t) fullShare ((dat0 V c).after 11 t) from by
    unfold Dat.leavesExact; rw [liveAt0_11_C t (fun h => h0 ((hcond0_0 t).mp h)) ((hcond0_1 t).mpr h1)], after0_11]
  rw [show (dat0 V c).leavesExact 12 t = owns (c : Thread nD τ) (ms0_12 t) fullShare ((dat0 V c).after 12 t) from by
    unfold Dat.leavesExact; rw [liveAt0_12_C t (fun h => h0 ((hcond0_0 t).mp h)) ((hcond0_1 t).mpr h1)], after0_12]
  rw [outsAt0_C V c t h0 h1]
  dsimp only [outs0_C]
  have hz : t.val ≠ 0 := by omega
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) _).s0 (outsAt0 V c (t.val - 1) _).s1 (outsAt0 V c (t.val - 1) _).s2 (outsAt0 V c (t.val - 1) _).s3 (outsAt0 V c (t.val - 1) _).s4 (outsAt0 V c (t.val - 1) _).s5 (outsAt0 V c (t.val - 1) _).s6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hr Hg]
  · isplitl [HS0 HS1 HS2 HS3 HS4 HS5 HS6 Hr]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Hand

end
-- ==== Proof.KI.R0Body.lean ====
import proofs.«173517_j27041114096025_1_alg».proof.Proof.KI.R0BodyA
import proofs.«173517_j27041114096025_1_alg».proof.Proof.KI.R0BodyB
import proofs.«173517_j27041114096025_1_alg».proof.Proof.KI.R0BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-- The body at any point: `t % 4` says which of the three cases the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h1 : t.val % 4 = 3
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Run.lean ====
/-
  Region 1, the pointwise chain: one grid point reads a block of 128 rows of each of the seven product arrays and
  writes the same rows of the result. This module says what one run of the body does to whole staging buffers:
  every access is the whole 128 x 1024 buffer, the seven loads return the input buffers' contents, and the one
  store leaves in the output buffer the chain's last value, computed entry by entry from the seven loaded blocks.
-/
import proofs.«173517_j27041114096025_1_alg».proof.Proof.Gen.KernelIdeal.Launch
import proofs.«173517_j27041114096025_1_alg».proof.Proof.Gen.KernelIdeal.Skeleton
import proofs.«173517_j27041114096025_1_alg».proof.Proof.Gen.KernelIdeal.Points
import Idealize.ShloMosaic.Lib.Pipeline.FrameBody
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The one rectangle the body reads and writes: the whole 128 x 1024 staging buffer. -/
abbrev r1_0 : Rect S128x1024 := Rect.unit (s := S128x1024) ![0, 0] S128x1024.size inb_S128x1024_S128x1024_0_0

/-! ## What the body leaves in the output window's buffer -/

/-- The chain's last value from the seven input buffers: the values the first half of the body hands on are
    functions of the seven loaded blocks, and the stored value is a function of those. -/
def chain1 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) : FVec F S128x1024 .f32 :=
  k1_pay1 (k1_pay2 (View.ld x0 r1_0)) (k1_pay3 (View.ld x1 r1_0)) (k1_pay5 (View.ld x4 r1_0)) (k1_pay6 (View.ld x5 r1_0))
    (k1_pay10 (View.ld x0 r1_0) (View.ld x1 r1_0) (View.ld x2 r1_0) (View.ld x3 r1_0) (View.ld x6 r1_0))
    (k1_pay11 (View.ld x0 r1_0) (View.ld x1 r1_0) (View.ld x2 r1_0) (View.ld x4 r1_0) (View.ld x5 r1_0))
    (k1_pay12 (View.ld x0 r1_0) (View.ld x1 r1_0) (View.ld x2 r1_0) (View.ld x3 r1_0) (View.ld x4 r1_0) (View.ld x5 r1_0) (View.ld x6 r1_0))
    (k1_pay13 (View.ld x4 r1_0) (View.ld x5 r1_0))
    (k1_pay14 (View.ld x0 r1_0) (View.ld x2 r1_0) (View.ld x4 r1_0) (View.ld x5 r1_0))
    (k1_pay15 (View.ld x0 r1_0) (View.ld x1 r1_0) (View.ld x2 r1_0) (View.ld x3 r1_0) (View.ld x4 r1_0) (View.ld x5 r1_0) (View.ld x6 r1_0))
    (k1_pay16 (View.ld x0 r1_0) (View.ld x1 r1_0) (View.ld x2 r1_0) (View.ld x3 r1_0) (View.ld x4 r1_0) (View.ld x5 r1_0) (View.ld x6 r1_0))
    (k1_pay17 (View.ld x0 r1_0) (View.ld x1 r1_0) (View.ld x2 r1_0) (View.ld x3 r1_0) (View.ld x4 r1_0) (View.ld x5 r1_0) (View.ld x6 r1_0))
    (k1_pay18 (View.ld x0 r1_0) (View.ld x1 r1_0) (View.ld x2 r1_0) (View.ld x3 r1_0) (View.ld x4 r1_0) (View.ld x5 r1_0) (View.ld x6 r1_0))

/-- Window 7's staging buffer after the body, from the seven input buffers: its one store as a piece. -/
def out1_7 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) : Vec F S128x1024 .f32 :=
  View.canon [⟨r1_0, chain1 x0 x1 x2 x3 x4 x5 x6⟩]

/-- The store's rectangle is the whole buffer, so it covers it. -/
theorem cover1_7 (p0 : Vec F S128x1024 .f32) (y : S128x1024.Idx) :
    ∃ pc ∈ ([⟨r1_0, p0⟩] : List (View.Piece (Elt F) S128x1024 .f32)), y ∈ pc.1.set :=
  View.cover_of_tiled [⟨r1_0, p0⟩] S128x1024.size (by rfl) y

/-! ## The body's triple -/

set_option maxHeartbeats 1000000 in
/-- The kernel body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__chain_kernel i arg1 harg1 arg2 harg2 arg3 harg3 arg4 harg4 arg5 harg5 arg6 harg6 arg7 harg7 arg8 harg8) K := by
  simp only [cc1__chain_kernel_eq_skeleton]; unfold cc1__chain_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.KernelIdeal.Hand

end
-- ==== Proof.KI.R1Data.lean ====
/-
  Region 1, the pointwise chain: the proof data of its pipeline and the body obligation. Every window is fetched or
  written back at every point and nothing is carried from one point to the next: after the body at point t each
  input's buffer still holds its block of 128 rows, and the output's buffer holds the chain's value of the seven
  input blocks.
-/
import proofs.«173517_j27041114096025_1_alg».proof.Proof.KI.R1Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! ## The input windows' buffers before the body -/

/-- An input window's current staging buffer holds its block at every point, fetched there or not, for any proof
    data whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the chain's pipeline on core `c`: the arrays as the region finds them; after the body at
    point `t` each input's buffer still at its block and the output's at the chain's value of the seven input
    blocks; the invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Main.lean ====
/-
  The run of the whole program: two kernel regions, one after the other, with nothing between them.

  Between the items a core holds each of its eleven unscoped arrays whole: the three arguments, the seven products the
  first region writes, and the result the second region writes. The first region reads each argument through TWO
  windows (a row block and a column block of the same matrix), so on entry the argument's array is dealt to the two
  windows in halves of its full share, and on exit the two halves, both still at the contents the region found,
  are joined again. Each region leaves its output arrays at what its write-backs folded, and every other array as
  it found it; the second region is entered from exactly what the first left.
-/
import proofs.«173517_j27041114096025_1_alg».proof.Proof.KI.R0Body
import proofs.«173517_j27041114096025_1_alg».proof.Proof.KI.R1Data
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- Core `c`'s unscoped arrays at launch, -/
abbrev W0 (c : Dev nD) : Valuation τ sig (Elt F) := fun b => m (c, b)
/-- read at the TensorCore's references: what the first region is entered from. -/
abbrev U0 : (c : Dev nD) → (b : Ref sig .tc) → Buf (Elt F) ((c : Thread nD τ).loc b) := fun c b => W0 m c b

/-- After the first region: its seven output arrays at what its write-backs left, everything else as launched. -/
def W1 (c : Dev nD) : Valuation τ sig (Elt F) :=
  Function.update (Function.update (Function.update (Function.update (Function.update (Function.update (Function.update (W0 m c)
    main_v0_0 ((dat0 (U0 m) c).arrAt 6 cfg0.N : Buf (Elt F) ((c : Thread nD τ).loc main_v0_0)))
    main_v0_1 ((dat0 (U0 m) c).arrAt 7 cfg0.N : Buf (Elt F) ((c : Thread nD τ).loc main_v0_1)))
    main_v0_2 ((dat0 (U0 m) c).arrAt 8 cfg0.N : Buf (Elt F) ((c : Thread nD τ).loc main_v0_2)))
    main_v0_3 ((dat0 (U0 m) c).arrAt 9 cfg0.N : Buf (Elt F) ((c : Thread nD τ).loc main_v0_3)))
    main_v0_4 ((dat0 (U0 m) c).arrAt 10 cfg0.N : Buf (Elt F) ((c : Thread nD τ).loc main_v0_4)))
    main_v0_5 ((dat0 (U0 m) c).arrAt 11 cfg0.N : Buf (Elt F) ((c : Thread nD τ).loc main_v0_5)))
    main_v0_6 ((dat0 (U0 m) c).arrAt 12 cfg0.N : Buf (Elt F) ((c : Thread nD τ).loc main_v0_6))
/-- The same read at the TensorCore's references: what the second region is entered from. -/
abbrev U1 : (c : Dev nD) → (b : Ref sig .tc) → Buf (Elt F) ((c : Thread nD τ).loc b) := fun c b => W1 m c b

/-- After the second region: the result array at what its write-backs left. -/
def W2 (c : Dev nD) : Valuation τ sig (Elt F) :=
  Function.update (W1 m c) main_v1 ((dat1 (U1 m) c).arrAt 7 cfg1.N : Buf (Elt F) ((c : Thread nD τ).loc main_v1))

/-- A reference other than the seven products' is untouched by the first region. -/
theorem W1_of (c : Dev nD) (r : Ref sig .tc) (h : r ∉ ([main_v0_0, main_v0_1, main_v0_2, main_v0_3, main_v0_4, main_v0_5, main_v0_6] : List (Ref sig .tc))) :
    W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1), Function.update_of_ne (StableHlo.devRef_ne_of_ne (List.ne_of_not_mem_cons (List.not_mem_of_not_mem_cons (List.not_mem_of_not_mem_cons h))) : (Proc.devRef .tc r : DevRef τ sig) ≠ Proc.devRef .tc main_v0_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v0_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v0_4), Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons h)))))) : (Proc.devRef .tc r : DevRef τ sig) ≠ Proc.devRef .tc main_v0_5), Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons h))))))) : (Proc.devRef .tc r : DevRef τ sig) ≠ Proc.devRef .tc main_v0_6)]

/-- A reference other than the result's is untouched by the second region. -/
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]

/-- The result array after the run. -/
theorem W2_main_v1 (c : Dev nD) : W2 m c main_v1 = (dat1 (U1 m) c).arrAt 7 cfg1.N := by
  simp only [W2, Function.update_self]

/-- Each product's array after the first region. -/
theorem W1_main_v0_6 (c : Dev nD) : W1 m c main_v0_6 = (dat0 (U0 m) c).arrAt 12 cfg0.N := by
  simp only [W1, Function.update_self]
theorem W1_main_v0_5 (c : Dev nD) : W1 m c main_v0_5 = (dat0 (U0 m) c).arrAt 11 cfg0.N := by
  simp only [W1, Function.update_self, Function.update_of_ne (StableHlo.devRef_ne_of_ne (by decide) : (Proc.devRef .tc main_v0_5 : DevRef τ sig) ≠ Proc.devRef .tc main_v0_6)]
theorem W1_main_v0_4 (c : Dev nD) : W1 m c main_v0_4 = (dat0 (U0 m) c).arrAt 10 cfg0.N := by
  simp only [W1, Function.update_self, Function.update_of_ne (StableHlo.devRef_ne_of_ne (by decide) : (Proc.devRef .tc main_v0_4 : DevRef τ sig) ≠ Proc.devRef .tc main_v0_6), Function.update_of_ne (StableHlo.devRef_ne_of_ne (by decide) : (Proc.devRef .tc main_v0_4 : DevRef τ sig) ≠ Proc.devRef .tc main_v0_5)]
theorem W1_main_v0_3 (c : Dev nD) : W1 m c main_v0_3 = (dat0 (U0 m) c).arrAt 9 cfg0.N := by
  simp only [W1, Function.update_self, Function.update_of_ne (StableHlo.devRef_ne_of_ne (by decide) : (Proc.devRef .tc main_v0_3 : DevRef τ sig) ≠ Proc.devRef .tc main_v0_6), Function.update_of_ne (StableHlo.devRef_ne_of_ne (by decide) : (Proc.devRef .tc main_v0_3 : DevRef τ sig) ≠ Proc.devRef .tc main_v0_5), Function.update_of_ne (StableHlo.devRef_ne_of_ne (by decide) : (Proc.devRef .tc main_v0_3 : DevRef τ sig) ≠ Proc.devRef .tc main_v0_4)]
theorem W1_main_v0_2 (c : Dev nD) : W1 m c main_v0_2 = (dat0 (U0 m) c).arrAt 8 cfg0.N := by
  simp only [W1, Function.update_self, Function.update_of_ne (StableHlo.devRef_ne_of_ne (by decide) : (Proc.devRef .tc main_v0_2 : DevRef τ sig) ≠ Proc.devRef .tc main_v0_6), Function.update_of_ne (StableHlo.devRef_ne_of_ne (by decide) : (Proc.devRef .tc main_v0_2 : DevRef τ sig) ≠ Proc.devRef .tc main_v0_5), Function.update_of_ne (StableHlo.devRef_ne_of_ne (by decide) : (Proc.devRef .tc main_v0_2 : DevRef τ sig) ≠ Proc.devRef .tc main_v0_4), Function.update_of_ne (StableHlo.devRef_ne_of_ne (by decide) : (Proc.devRef .tc main_v0_2 : DevRef τ sig) ≠ Proc.devRef .tc main_v0_3)]
theorem W1_main_v0_1 (c : Dev nD) : W1 m c main_v0_1 = (dat0 (U0 m) c).arrAt 7 cfg0.N := by
  simp only [W1, Function.update_self, Function.update_of_ne (StableHlo.devRef_ne_of_ne (by decide) : (Proc.devRef .tc main_v0_1 : DevRef τ sig) ≠ Proc.devRef .tc main_v0_6), Function.update_of_ne (StableHlo.devRef_ne_of_ne (by decide) : (Proc.devRef .tc main_v0_1 : DevRef τ sig) ≠ Proc.devRef .tc main_v0_5), Function.update_of_ne (StableHlo.devRef_ne_of_ne (by decide) : (Proc.devRef .tc main_v0_1 : DevRef τ sig) ≠ Proc.devRef .tc main_v0_4), Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2)]
theorem W1_main_v0_0 (c : Dev nD) : W1 m c main_v0_0 = (dat0 (U0 m) c).arrAt 6 cfg0.N := by
  simp only [W1, Function.update_self, Function.update_of_ne (StableHlo.devRef_ne_of_ne (by decide) : (Proc.devRef .tc main_v0_0 : DevRef τ sig) ≠ Proc.devRef .tc main_v0_6), Function.update_of_ne (StableHlo.devRef_ne_of_ne (by decide) : (Proc.devRef .tc main_v0_0 : DevRef τ sig) ≠ Proc.devRef .tc main_v0_5), Function.update_of_ne (StableHlo.devRef_ne_of_ne (by decide) : (Proc.devRef .tc main_v0_0 : DevRef τ sig) ≠ Proc.devRef .tc main_v0_4), Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2), Function.update_of_ne (StableHlo.devRef_ne_of_ne (by decide) : (Proc.devRef .tc main_v0_0 : DevRef τ sig) ≠ Proc.devRef .tc main_v0_1)]

/-! ## The eleven unscoped arrays, and the first region's thirteen windows, one by one -/

section Chains

variable (c : Dev nD) (Vv : (b : Ref sig .tc) → Buf (Elt F) ((c : Thread nD τ).loc b))

/-- A core's unscoped arrays at contents `Vv`, one by one. -/
theorem unscopedBufs_list :
    (unscopedBufs (Ix := Unit) (Name := ℕ) (U := UR sig nD τ) (Lvl := ℕ) c Vv : sProp 𝕄)
      = iprop((((c : Thread nD τ).loc main_arg0) ↦{fullShare} Vv main_arg0) ∗ (((c : Thread nD τ).loc main_arg1) ↦{fullShare} Vv main_arg1)
          ∗ (((c : Thread nD τ).loc main_arg2) ↦{fullShare} Vv main_arg2)
          ∗ (((c : Thread nD τ).loc main_v0_0) ↦{fullShare} Vv main_v0_0) ∗ (((c : Thread nD τ).loc main_v0_1) ↦{fullShare} Vv main_v0_1)
          ∗ (((c : Thread nD τ).loc main_v0_2) ↦{fullShare} Vv main_v0_2) ∗ (((c : Thread nD τ).loc main_v0_3) ↦{fullShare} Vv main_v0_3)
          ∗ (((c : Thread nD τ).loc main_v0_4) ↦{fullShare} Vv main_v0_4) ∗ (((c : Thread nD τ).loc main_v0_5) ↦{fullShare} Vv main_v0_5)
          ∗ (((c : Thread nD τ).loc main_v0_6) ↦{fullShare} Vv main_v0_6) ∗ (((c : Thread nD τ).loc main_v1) ↦{fullShare} Vv main_v1)) := by
  unfold unscopedBufs
  exact bigSep_eq_bigSepL_of_eq [main_arg0, main_arg1, main_arg2, main_v0_0, main_v0_1, main_v0_2, main_v0_3, main_v0_4, main_v0_5, main_v0_6, main_v1]
    (by decide) (by decide) _

end Chains

/-! ## Dealing the arrays to the first region's windows, and joining them again -/

section Deal

variable (V : (c : Dev nD) → (b : Ref sig .tc) → Buf (Elt F) ((c : Thread nD τ).loc b)) (c : Dev nD)

/-- The share the first region's proof data hold of each window's array: the two halves for the two windows on
    one argument, the full share of every output. -/
theorem share0 (w : Fin cfg0.W) : (dat0 V c).share w = q0 w := by
  unfold Dat.share; rw [q_eq0]
  fin_cases w <;> rfl

/-- The first region's thirteen arrays at contents `Fv`, one by one, each at its share. -/
theorem arrays_chain0 (Fv : (w : Fin cfg0.W) → Buf (Elt F) ((cfg0.win w).arr.view.loc (c : Thread nD τ))) :
    ((dat0 V c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare.left} Fv 2) ∗ (((c : Thread nD τ).loc main_arg1) ↦{fullShare.right} Fv 3)
          ∗ (((c : Thread nD τ).loc main_arg2) ↦{fullShare.left} Fv 4) ∗ (((c : Thread nD τ).loc main_arg2) ↦{fullShare.right} Fv 5)
          ∗ (((c : Thread nD τ).loc main_v0_0) ↦{fullShare} Fv 6) ∗ (((c : Thread nD τ).loc main_v0_1) ↦{fullShare} Fv 7)
          ∗ (((c : Thread nD τ).loc main_v0_2) ↦{fullShare} Fv 8) ∗ (((c : Thread nD τ).loc main_v0_3) ↦{fullShare} Fv 9)
          ∗ (((c : Thread nD τ).loc main_v0_4) ↦{fullShare} Fv 10) ∗ (((c : Thread nD τ).loc main_v0_5) ↦{fullShare} Fv 11)
          ∗ (((c : Thread nD τ).loc main_v0_6) ↦{fullShare} Fv 12)) := by
  have h : ((dat0 V c).arrays Fv : sProp 𝕄)
      = bigSep Finset.univ fun w : Fin 13 => (((c : Thread nD τ).loc (Pipeline.arrRef spec0 w)) ↦{q0 w} Fv w : sProp 𝕄) := by
    unfold Dat.arrays
    exact bigSep_congr fun w _ => by rw [(arr_whole0 w).set_eq_univ, share0 V c w]
  rw [h, bigSep_W0]
  rfl

end Deal

section DealJoin

variable (V : (c : Dev nD) → (b : Ref sig .tc) → Buf (Elt F) ((c : Thread nD τ).loc b)) (c : Dev nD)

/-- Before any write-back an array holds its entry contents, which are `V`'s. -/
theorem arrAt0_zero (w : Fin cfg0.W) : (dat0 V c).arrAt w 0 = V c (Pipeline.arrRef spec0 w) := A_eq0 V c w

/-- ENTRY. A core's eleven arrays whole at `V c` are the first region's arrays at its entry contents, each
    argument dealt in halves to the two windows that read it, beside the result array, which that region leaves alone. -/
theorem deal0 :
    (unscopedBufs (Ix := Unit) (Name := ℕ) (U := UR sig nD τ) (Lvl := ℕ) c (V c) : sProp 𝕄)
      ⊢ iprop((dat0 V c).arrays ((dat0 V c).arrAt · 0) ∗ (((c : Thread nD τ).loc main_v1) ↦{fullShare} V c main_v1)) := by
  rw [unscopedBufs_list, arrays_chain0]
  simp only [arrAt0_zero]
  iintro ⟨Ha0, Ha1, Ha2, Hv0, Hv1, Hv2, Hv3, Hv4, Hv5, Hv6, Hr⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  ihave Ha2' := (pointsTo_share (PosShare.mem_left_op_right fullShare)).1 $$ Ha2
  icases Ha2' with ⟨Ha2l, Ha2r⟩
  isplitr [Hr]
  · isplitl [Ha0l]; · iexact Ha0l
    isplitl [Ha0r]; · iexact Ha0r
    isplitl [Ha1l]; · iexact Ha1l
    isplitl [Ha1r]; · iexact Ha1r
    isplitl [Ha2l]; · iexact Ha2l
    isplitl [Ha2r]; · iexact Ha2r
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  · iexact Hr

/-- Joining, over any contents: the thirteen windows' arrays at contents `Fv` — the two halves of each argument
    at one and the same contents — and the result array at `Zv` are the core's eleven arrays whole at `V'`,
    when `V'` reads those contents at each array. -/
theorem join0_of (Fv : (w : Fin cfg0.W) → Buf (Elt F) ((cfg0.win w).arr.view.loc (c : Thread nD τ)))
    (Zv : Buf (Elt F) ((c : Thread nD τ).loc main_v1))
    (V' : (b : Ref sig .tc) → Buf (Elt F) ((c : Thread nD τ).loc b))
    (e0 : Fv 0 = V' main_arg0) (e1 : Fv 1 = V' main_arg0) (e2 : Fv 2 = V' main_arg1) (e3 : Fv 3 = V' main_arg1)
    (e4 : Fv 4 = V' main_arg2) (e5 : Fv 5 = V' main_arg2)
    (e6 : Fv 6 = V' main_v0_0) (e7 : Fv 7 = V' main_v0_1) (e8 : Fv 8 = V' main_v0_2) (e9 : Fv 9 = V' main_v0_3)
    (e10 : Fv 10 = V' main_v0_4) (e11 : Fv 11 = V' main_v0_5) (e12 : Fv 12 = V' main_v0_6) (er : Zv = V' main_v1) :
    iprop((dat0 V c).arrays Fv ∗ (((c : Thread nD τ).loc main_v1) ↦{fullShare} Zv))
      ⊢ (unscopedBufs (Ix := Unit) (Name := ℕ) (U := UR sig nD τ) (Lvl := ℕ) c V' : sProp 𝕄) := by
  rw [unscopedBufs_list, arrays_chain0, e0, e1, e2, e3, e4, e5, e6, e7, e8, e9, e10, e11, e12, er]
  iintro ⟨⟨Ha0l, Ha0r, Ha1l, Ha1r, Ha2l, Ha2r, Hv0, Hv1, Hv2, Hv3, Hv4, Hv5, Hv6⟩, Hr⟩
  isplitl [Ha0l Ha0r]
  · iapply (pointsTo_share (PosShare.mem_left_op_right fullShare)).2
    isplitl [Ha0l]; · iexact Ha0l
    iexact Ha0r
  isplitl [Ha1l Ha1r]
  · iapply (pointsTo_share (PosShare.mem_left_op_right fullShare)).2
    isplitl [Ha1l]; · iexact Ha1l
    iexact Ha1r
  isplitl [Ha2l Ha2r]
  · iapply (pointsTo_share (PosShare.mem_left_op_right fullShare)).2
    isplitl [Ha2l]; · iexact Ha2l
    iexact Ha2r
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact Hr

/-- EXIT. The first region's arrays after its last write-back — each argument's two halves still at the entry
    contents (an input window's array is never written back), each product at what the write-backs folded — and the
    result array it left alone are the core's eleven arrays whole at any contents `V'` that have the products so and
    agree with `V c` elsewhere. -/
theorem join0 (V' : (b : Ref sig .tc) → Buf (Elt F) ((c : Thread nD τ).loc b))
    (h0 : V' main_arg0 = V c main_arg0) (h1 : V' main_arg1 = V c main_arg1) (h2 : V' main_arg2 = V c main_arg2)
    (hr : V' main_v1 = V c main_v1)
    (o0 : V' main_v0_0 = (dat0 V c).arrAt 6 cfg0.N) (o1 : V' main_v0_1 = (dat0 V c).arrAt 7 cfg0.N)
    (o2 : V' main_v0_2 = (dat0 V c).arrAt 8 cfg0.N) (o3 : V' main_v0_3 = (dat0 V c).arrAt 9 cfg0.N)
    (o4 : V' main_v0_4 = (dat0 V c).arrAt 10 cfg0.N) (o5 : V' main_v0_5 = (dat0 V c).arrAt 11 cfg0.N)
    (o6 : V' main_v0_6 = (dat0 V c).arrAt 12 cfg0.N) :
    iprop((dat0 V c).arrays ((dat0 V c).arrAt · cfg0.N) ∗ (((c : Thread nD τ).loc main_v1) ↦{fullShare} V c main_v1))
      ⊢ (unscopedBufs (Ix := Unit) (Name := ℕ) (U := UR sig nD τ) (Lvl := ℕ) c V' : sProp 𝕄) :=
  join0_of V c ((dat0 V c).arrAt · cfg0.N) (V c main_v1) V'
    (((dat0 V c).arrAt_in 0 rfl _).trans ((A_eq0 V c 0).trans h0.symm))
    (((dat0 V c).arrAt_in 1 rfl _).trans ((A_eq0 V c 1).trans h0.symm))
    (((dat0 V c).arrAt_in 2 rfl _).trans ((A_eq0 V c 2).trans h1.symm))
    (((dat0 V c).arrAt_in 3 rfl _).trans ((A_eq0 V c 3).trans h1.symm))
    (((dat0 V c).arrAt_in 4 rfl _).trans ((A_eq0 V c 4).trans h2.symm))
    (((dat0 V c).arrAt_in 5 rfl _).trans ((A_eq0 V c 5).trans h2.symm))
    o0.symm o1.symm o2.symm o3.symm o4.symm o5.symm o6.symm hr.symm

end DealJoin

/-! ## The arguments end as launched, and what the second region finds -/

theorem W2_main_arg0 (c : Dev nD) : W2 m c main_arg0 = m ((c : Thread nD τ).loc main_arg0) :=
  (W2_of m c main_arg0 (by decide)).trans ((W1_of m c main_arg0 (by decide)).trans rfl)
theorem W2_main_arg1 (c : Dev nD) : W2 m c main_arg1 = m ((c : Thread nD τ).loc main_arg1) :=
  (W2_of m c main_arg1 (by decide)).trans ((W1_of m c main_arg1 (by decide)).trans rfl)
theorem W2_main_arg2 (c : Dev nD) : W2 m c main_arg2 = m ((c : Thread nD τ).loc main_arg2) :=
  (W2_of m c main_arg2 (by decide)).trans ((W1_of m c main_arg2 (by decide)).trans rfl)

/-- After the second region each of its arrays holds what its write-backs folded: the seven products, which it only
    reads, as it found them, and the result. -/
theorem hF1 (c : Dev nD) (w : Fin cfg1.W) : (dat1 (U1 m) c).arrAt w cfg1.N = (fun b : Ref sig .tc => W2 m c b) (Pipeline.arrRef spec1 w) := by
  fin_cases w
  · exact ((dat1 (U1 m) c).arrAt_in 0 rfl _).trans ((A_eq1 (U1 m) c 0).trans (W2_of m c main_v0_0 (by decide)).symm)
  · exact ((dat1 (U1 m) c).arrAt_in 1 rfl _).trans ((A_eq1 (U1 m) c 1).trans (W2_of m c main_v0_1 (by decide)).symm)
  · exact ((dat1 (U1 m) c).arrAt_in 2 rfl _).trans ((A_eq1 (U1 m) c 2).trans (W2_of m c main_v0_2 (by decide)).symm)
  · exact ((dat1 (U1 m) c).arrAt_in 3 rfl _).trans ((A_eq1 (U1 m) c 3).trans (W2_of m c main_v0_3 (by decide)).symm)
  · exact ((dat1 (U1 m) c).arrAt_in 4 rfl _).trans ((A_eq1 (U1 m) c 4).trans (W2_of m c main_v0_4 (by decide)).symm)
  · exact ((dat1 (U1 m) c).arrAt_in 5 rfl _).trans ((A_eq1 (U1 m) c 5).trans (W2_of m c main_v0_5 (by decide)).symm)
  · exact ((dat1 (U1 m) c).arrAt_in 6 rfl _).trans ((A_eq1 (U1 m) c 6).trans (W2_of m c main_v0_6 (by decide)).symm)
  · exact (W2_main_v1 m c).symm

/-- Off the second region's arrays nothing changes. -/
theorem hrest1 (c : Dev nD) : ∀ b, b ∉ Finset.univ.image (Pipeline.arrRef spec1) → (fun b : Ref sig .tc => W2 m c b) b = (fun b : Ref sig .tc => W1 m c b) b :=
  fun b hb => W2_of m c b fun e => hb (Finset.mem_image.mpr ⟨7, Finset.mem_univ _, e.symm⟩)

/-! ## The proof data family and the thread state -/

/-- No pallas_call has a prefetched table. -/
abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the arrays through both regions: the generator register at some state, and that the core owes nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped array at the last boundary's contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- THE FIRST REGION: entered from every unscoped array at the launch contents, left with the seven products at what
    its write-backs folded. Its arrays are dealt out of the eleven (`deal0`: the arguments in halves) and joined back
    (`join0`); the generator register goes into the region's invariant and comes out; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := ((c : Thread nD τ).loc main_v1) ↦{fullShare} U0 m c main_v1
  hentry c := by
    rw [Pipeline.ownSems0_none]
    have hsplit : (unscopedBufs (Ix := Unit) (Name := ℕ) (U := UR sig nD τ) (Lvl := ℕ) c (U0 m c) : sProp 𝕄)
        ⊢ iprop((pdats m 0 c).arrays ((pdats m 0 c).arrAt · 0) ∗ (((c : Thread nD τ).loc main_v1) ↦{fullShare} U0 m c main_v1)) := deal0 (U0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have h' := hin0 (U0 m) c
      unfold Pipeline.ΦA at h'
      exact h'
    iintro ⟨Hp, -, Hr⟩
    iapply h
    isplitl [Hr]; · iexact Hr
    iexact Hp
  hout c := by
    rw [Pipeline.ownSems0_none]
    have h : (pdats m 0 c).Φ (Fin.last cfg0.N) ⊢ (iprop(Pipeline.scopedRest spec0 c ∗ ∃ r, prngReg c r) : sProp 𝕄) := by
      have h' := hout0 (U0 m) c
      unfold Pipeline.ΦA at h'
      exact h'
    iintro Hinv
    ihave H := h $$ Hinv
    icases H with ⟨Hr, Hp⟩
    isplitl [Hp]; · iexact Hp
    isplitr; · iempintro
    iexact Hr
  hexit c := by
    have hjoin : iprop((pdats m 0 c).arrays ((pdats m 0 c).arrAt · cfg0.N) ∗ (((c : Thread nD τ).loc main_v1) ↦{fullShare} U0 m c main_v1))
        ⊢ (unscopedBufs (Ix := Unit) (Name := ℕ) (U := UR sig nD τ) (Lvl := ℕ) c (U1 m c) : sProp 𝕄) :=
      join0 (U0 m) c (U1 m c) (W1_of m c main_arg0 (by decide)) (W1_of m c main_arg1 (by decide)) (W1_of m c main_arg2 (by decide))
        (W1_of m c main_v1 (by decide)) (W1_main_v0_0 m c) (W1_main_v0_1 m c) (W1_main_v0_2 m c) (W1_main_v0_3 m c)
        (W1_main_v0_4 m c) (W1_main_v0_5 m c) (W1_main_v0_6 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND REGION: entered from what the first left, left with the result array at what its write-backs folded.
    Its eight arrays are distinct, so they are split out of the eleven and put back whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun w => A_eq1 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (fun b : Ref sig .tc => W2 m c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and its run -/

abbrev segs : List (Pipeline.Seg (pcfgs (F := F)) adm (pdats m) () defs₀ 𝒱₀ L lv) := [.region (reg0 m), .region (reg1 m)]

/-- The program IS the run of the two segments. -/
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final memory holds every unscoped array at the last boundary's contents:
    the arguments as launched, the seven products and the result at what the regions' write-backs folded. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- THE RESULT: beside the frame, the result array ends at what the second region's write-backs folded, that region
    having been entered from what the first left. -/
theorem run_result : θ_run defs (onTc (τ := τ) (main (F := F))) ⟨m, fun _ => 0, ρ⟩ (fun r => ∀ c : Dev nD,
      r.2.mem ((c.tc : Thread nD τ).loc main_v1) = (dat1 (U1 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.KernelIdeal.Hand

end
-- ==== Proof.KI.R0Pieces.lean ====
/-
  Region 0: what each control case leaves in each accumulator and, where the last coordinate is 3, in each output's
  staging buffer, read off the pieces the case's run found. Where k = 0 an accumulator holds its update payload over
  the reset payload (two pieces: the reset, then the update of the value read back); where k = 1, 2, 3 it holds the
  update payload over what the point before left (one piece); where k = 3 an output holds its accumulator's new contents
  (one piece: the accumulator read back after its update). The same at any float instance.
-/
import proofs.«173517_j27041114096025_1_alg».proof.Proof.KI.R0Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- A block's rectangle starts at the origin. -/
theorem hz256 : (![0, 0] : Fin 2 → Nat) = fun _ => 0 := funext fun a => by fin_cases a <;> rfl

/-! ## Where k = 0 -/

/-- Accumulator 0 where k = 0: its update payload over the reset payload. -/
theorem sout0_A_0_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay14 x0 x3 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 1 where k = 0: its update payload over the reset payload. -/
theorem sout0_A_1_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay15 x0 x5 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 2 where k = 0: its update payload over the reset payload. -/
theorem sout0_A_2_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay16 (k0_pay8 x0) (k0_pay9 x1) (k0_pay3 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 3 where k = 0: its update payload over the reset payload. -/
theorem sout0_A_3_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay17 (k0_pay9 x1) (k0_pay10 x2) (k0_pay4 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 4 where k = 0: its update payload over the reset payload. -/
theorem sout0_A_4_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay18 (k0_pay10 x2) (k0_pay11 x3) (k0_pay5 (F := F)) := by
  unfold sout0_A_4
  rw [View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 5 where k = 0: its update payload over the reset payload. -/
theorem sout0_A_5_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay19 (k0_pay10 x2) (k0_pay13 x5) (k0_pay6 (F := F)) := by
  unfold sout0_A_5
  rw [View.read_writes_eq_canon _ _ _ (scover0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 6 where k = 0: its update payload over the reset payload. -/
theorem sout0_A_6_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 x1 x2 x3 x4 x5 : Vec F S256x256 .f32) :
    sout0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 = k0_pay20 (k0_pay11 x3) (k0_pay12 x4) (k0_pay7 (F := F)) := by
  unfold sout0_A_6
  rw [View.read_writes_eq_canon _ _ _ (scover0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5)]
  unfold kernelRun0_A
  dsimp only
  sl_unfold_words
  rw [View.canon_cons_unit_zero (S := S256x256) hz256, View.readCov_unit_zero (S := S256x256) _ hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-! ## Where k = 1, 2 -/

/-- Accumulator 0 where k = 1, 2: its update payload over what it held. -/
theorem sout0_B_0_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay14 x0 x3 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 1 where k = 1, 2: its update payload over what it held. -/
theorem sout0_B_1_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay15 x0 x5 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 2 where k = 1, 2: its update payload over what it held. -/
theorem sout0_B_2_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay16 (k0_pay8 x0) (k0_pay9 x1) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 3 where k = 1, 2: its update payload over what it held. -/
theorem sout0_B_3_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay17 (k0_pay9 x1) (k0_pay10 x2) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 4 where k = 1, 2: its update payload over what it held. -/
theorem sout0_B_4_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay18 (k0_pay10 x2) (k0_pay11 x3) xs4 := by
  unfold sout0_B_4
  rw [View.read_writes_eq_canon _ _ _ (scover0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 5 where k = 1, 2: its update payload over what it held. -/
theorem sout0_B_5_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay19 (k0_pay10 x2) (k0_pay13 x5) xs5 := by
  unfold sout0_B_5
  rw [View.read_writes_eq_canon _ _ _ (scover0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 6 where k = 1, 2: its update payload over what it held. -/
theorem sout0_B_6_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 x1 x2 x3 x4 x5 : Vec F S256x256 .f32) (xs0 xs1 xs2 xs3 xs4 xs5 xs6 : Vec F S256x256 .f32) :
    sout0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay20 (k0_pay11 x3) (k0_pay12 x4) xs6 := by
  unfold sout0_B_6
  rw [View.read_writes_eq_canon _ _ _ (scover0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_B
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-! ## Where k = 3 -/

/-- Accumulator 0 where k = 3: its update payload over what it held. -/
theorem sout0_C_0_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay14 x0 x3 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 6 where k = 3: accumulator 0's new contents. -/
theorem out0_C_6_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay14 x0 x3 xs0 := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 1 where k = 3: its update payload over what it held. -/
theorem sout0_C_1_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay15 x0 x5 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 7 where k = 3: accumulator 1's new contents. -/
theorem out0_C_7_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay15 x0 x5 xs1 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 2 where k = 3: its update payload over what it held. -/
theorem sout0_C_2_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay16 (k0_pay8 x0) (k0_pay9 x1) xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 8 where k = 3: accumulator 2's new contents. -/
theorem out0_C_8_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay16 (k0_pay8 x0) (k0_pay9 x1) xs2 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 3 where k = 3: its update payload over what it held. -/
theorem sout0_C_3_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay17 (k0_pay9 x1) (k0_pay10 x2) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 9 where k = 3: accumulator 3's new contents. -/
theorem out0_C_9_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay17 (k0_pay9 x1) (k0_pay10 x2) xs3 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 4 where k = 3: its update payload over what it held. -/
theorem sout0_C_4_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay18 (k0_pay10 x2) (k0_pay11 x3) xs4 := by
  unfold sout0_C_4
  rw [View.read_writes_eq_canon _ _ _ (scover0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 10 where k = 3: accumulator 4's new contents. -/
theorem out0_C_10_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay18 (k0_pay10 x2) (k0_pay11 x3) xs4 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 5 where k = 3: its update payload over what it held. -/
theorem sout0_C_5_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay19 (k0_pay10 x2) (k0_pay13 x5) xs5 := by
  unfold sout0_C_5
  rw [View.read_writes_eq_canon _ _ _ (scover0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 11 where k = 3: accumulator 5's new contents. -/
theorem out0_C_11_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay19 (k0_pay10 x2) (k0_pay13 x5) xs5 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Accumulator 6 where k = 3: its update payload over what it held. -/
theorem sout0_C_6_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    sout0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay20 (k0_pay11 x3) (k0_pay12 x4) xs6 := by
  unfold sout0_C_6
  rw [View.read_writes_eq_canon _ _ _ (scover0_C_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-- Output window 12 where k = 3: accumulator 6's new contents. -/
theorem out0_C_12_eq (c : Dev nD) (i : grid0.Coords) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 x1 x2 x3 x4 x5 : Vec F S256x256 .f32) (xs0 xs1 xs2 xs3 xs4 xs5 xs6 : Vec F S256x256 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6 = k0_pay20 (k0_pay11 x3) (k0_pay12 x4) xs6 := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 xs0 xs1 xs2 xs3 xs4 xs5 xs6)]
  unfold kernelRun0_C
  dsimp only
  sl_unfold_words
  rw [View.canon_unit_zero hz256]
  simp only [View.readAt_eq_ld, harg3.read_unread, harg4.read_unread, harg5.read_unread, harg6.read_unread, harg7.read_unread, harg8.read_unread, harg16.read_unread, harg17.read_unread, harg18.read_unread, harg19.read_unread, harg20.read_unread, harg21.read_unread, harg22.read_unread, View.ld_unit_zero (S := S256x256) hz256, View.readCov_unit_zero (S := S256x256) _ hz256]

/-! ## The same, at a grid point's memrefs and input blocks -/

theorem outs0_A_s0 (c : Dev nD) (t : Fin cfg0.N) (h0 : t.val % 4 = 0) (h1 : ¬t.val % 4 = 3) :
    (outs0_A V c t h0 h1).s0 = k0_pay14 (iblk0 V c 0 t) (iblk0 V c 3 t) (k0_pay1 (F := F)) := by
  unfold outs0_A
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s0 (c : Dev nD) (t : Fin cfg0.N) (h0 : ¬t.val % 4 = 0) (h1 : ¬t.val % 4 = 3) (p : Outs0 F) :
    (outs0_B V c t h0 h1 p).s0 = k0_pay14 (iblk0 V c 0 t) (iblk0 V c 3 t) p.s0 := by
  unfold outs0_B
  dsimp only
  exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s0 (c : Dev nD) (t : Fin cfg0.N) (h0 : ¬t.val % 4 = 0) (h1 : t.val % 4 = 3) (p : Outs0 F) :
    (outs0_C V c t h0 h1 p).s0 = k0_pay14 (iblk0 V c 0 t) (iblk0 V c 3 t) p.s0 := by
  unfold outs0_C
  dsimp only
  exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o6 (c : Dev nD) (t : Fin cfg0.N) (h0 : ¬t.val % 4 = 0) (h1 : t.val % 4 = 3) (p : Outs0 F) :
    (outs0_C V c t h0 h1 p).o6 = k0_pay14 (iblk0 V c 0 t) (iblk0 V c 3 t) p.s0 := by
  unfold outs0_C
  dsimp only
  exact out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 6's staging buffer and accumulator 0 hold the same block. -/
theorem outs0_C_o6_eq_s0 (c : Dev nD) (t : Fin cfg0.N) (h0 : ¬t.val % 4 = 0) (h1 : t.val % 4 = 3) (p : Outs0 F) :
    (outs0_C V c t h0 h1 p).o6 = (outs0_C V c t h0 h1 p).s0 :=
  (outs0_C_o6 V c t h0 h1 p).trans (outs0_C_s0 V c t h0 h1 p).symm

theorem outs0_A_s1 (c : Dev nD) (t : Fin cfg0.N) (h0 : t.val % 4 = 0) (h1 : ¬t.val % 4 = 3) :
    (outs0_A V c t h0 h1).s1 = k0_pay15 (iblk0 V c 0 t) (iblk0 V c 5 t) (k0_pay2 (F := F)) := by
  unfold outs0_A
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s1 (c : Dev nD) (t : Fin cfg0.N) (h0 : ¬t.val % 4 = 0) (h1 : ¬t.val % 4 = 3) (p : Outs0 F) :
    (outs0_B V c t h0 h1 p).s1 = k0_pay15 (iblk0 V c 0 t) (iblk0 V c 5 t) p.s1 := by
  unfold outs0_B
  dsimp only
  exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s1 (c : Dev nD) (t : Fin cfg0.N) (h0 : ¬t.val % 4 = 0) (h1 : t.val % 4 = 3) (p : Outs0 F) :
    (outs0_C V c t h0 h1 p).s1 = k0_pay15 (iblk0 V c 0 t) (iblk0 V c 5 t) p.s1 := by
  unfold outs0_C
  dsimp only
  exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o7 (c : Dev nD) (t : Fin cfg0.N) (h0 : ¬t.val % 4 = 0) (h1 : t.val % 4 = 3) (p : Outs0 F) :
    (outs0_C V c t h0 h1 p).o7 = k0_pay15 (iblk0 V c 0 t) (iblk0 V c 5 t) p.s1 := by
  unfold outs0_C
  dsimp only
  exact out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 7's staging buffer and accumulator 1 hold the same block. -/
theorem outs0_C_o7_eq_s1 (c : Dev nD) (t : Fin cfg0.N) (h0 : ¬t.val % 4 = 0) (h1 : t.val % 4 = 3) (p : Outs0 F) :
    (outs0_C V c t h0 h1 p).o7 = (outs0_C V c t h0 h1 p).s1 :=
  (outs0_C_o7 V c t h0 h1 p).trans (outs0_C_s1 V c t h0 h1 p).symm

theorem outs0_A_s2 (c : Dev nD) (t : Fin cfg0.N) (h0 : t.val % 4 = 0) (h1 : ¬t.val % 4 = 3) :
    (outs0_A V c t h0 h1).s2 = k0_pay16 (k0_pay8 (iblk0 V c 0 t)) (k0_pay9 (iblk0 V c 1 t)) (k0_pay3 (F := F)) := by
  unfold outs0_A
  dsimp only
  exact sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s2 (c : Dev nD) (t : Fin cfg0.N) (h0 : ¬t.val % 4 = 0) (h1 : ¬t.val % 4 = 3) (p : Outs0 F) :
    (outs0_B V c t h0 h1 p).s2 = k0_pay16 (k0_pay8 (iblk0 V c 0 t)) (k0_pay9 (iblk0 V c 1 t)) p.s2 := by
  unfold outs0_B
  dsimp only
  exact sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s2 (c : Dev nD) (t : Fin cfg0.N) (h0 : ¬t.val % 4 = 0) (h1 : t.val % 4 = 3) (p : Outs0 F) :
    (outs0_C V c t h0 h1 p).s2 = k0_pay16 (k0_pay8 (iblk0 V c 0 t)) (k0_pay9 (iblk0 V c 1 t)) p.s2 := by
  unfold outs0_C
  dsimp only
  exact sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o8 (c : Dev nD) (t : Fin cfg0.N) (h0 : ¬t.val % 4 = 0) (h1 : t.val % 4 = 3) (p : Outs0 F) :
    (outs0_C V c t h0 h1 p).o8 = k0_pay16 (k0_pay8 (iblk0 V c 0 t)) (k0_pay9 (iblk0 V c 1 t)) p.s2 := by
  unfold outs0_C
  dsimp only
  exact out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 8's staging buffer and accumulator 2 hold the same block. -/
theorem outs0_C_o8_eq_s2 (c : Dev nD) (t : Fin cfg0.N) (h0 : ¬t.val % 4 = 0) (h1 : t.val % 4 = 3) (p : Outs0 F) :
    (outs0_C V c t h0 h1 p).o8 = (outs0_C V c t h0 h1 p).s2 :=
  (outs0_C_o8 V c t h0 h1 p).trans (outs0_C_s2 V c t h0 h1 p).symm

theorem outs0_A_s3 (c : Dev nD) (t : Fin cfg0.N) (h0 : t.val % 4 = 0) (h1 : ¬t.val % 4 = 3) :
    (outs0_A V c t h0 h1).s3 = k0_pay17 (k0_pay9 (iblk0 V c 1 t)) (k0_pay10 (iblk0 V c 2 t)) (k0_pay4 (F := F)) := by
  unfold outs0_A
  dsimp only
  exact sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s3 (c : Dev nD) (t : Fin cfg0.N) (h0 : ¬t.val % 4 = 0) (h1 : ¬t.val % 4 = 3) (p : Outs0 F) :
    (outs0_B V c t h0 h1 p).s3 = k0_pay17 (k0_pay9 (iblk0 V c 1 t)) (k0_pay10 (iblk0 V c 2 t)) p.s3 := by
  unfold outs0_B
  dsimp only
  exact sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s3 (c : Dev nD) (t : Fin cfg0.N) (h0 : ¬t.val % 4 = 0) (h1 : t.val % 4 = 3) (p : Outs0 F) :
    (outs0_C V c t h0 h1 p).s3 = k0_pay17 (k0_pay9 (iblk0 V c 1 t)) (k0_pay10 (iblk0 V c 2 t)) p.s3 := by
  unfold outs0_C
  dsimp only
  exact sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o9 (c : Dev nD) (t : Fin cfg0.N) (h0 : ¬t.val % 4 = 0) (h1 : t.val % 4 = 3) (p : Outs0 F) :
    (outs0_C V c t h0 h1 p).o9 = k0_pay17 (k0_pay9 (iblk0 V c 1 t)) (k0_pay10 (iblk0 V c 2 t)) p.s3 := by
  unfold outs0_C
  dsimp only
  exact out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 9's staging buffer and accumulator 3 hold the same block. -/
theorem outs0_C_o9_eq_s3 (c : Dev nD) (t : Fin cfg0.N) (h0 : ¬t.val % 4 = 0) (h1 : t.val % 4 = 3) (p : Outs0 F) :
    (outs0_C V c t h0 h1 p).o9 = (outs0_C V c t h0 h1 p).s3 :=
  (outs0_C_o9 V c t h0 h1 p).trans (outs0_C_s3 V c t h0 h1 p).symm

theorem outs0_A_s4 (c : Dev nD) (t : Fin cfg0.N) (h0 : t.val % 4 = 0) (h1 : ¬t.val % 4 = 3) :
    (outs0_A V c t h0 h1).s4 = k0_pay18 (k0_pay10 (iblk0 V c 2 t)) (k0_pay11 (iblk0 V c 3 t)) (k0_pay5 (F := F)) := by
  unfold outs0_A
  dsimp only
  exact sout0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s4 (c : Dev nD) (t : Fin cfg0.N) (h0 : ¬t.val % 4 = 0) (h1 : ¬t.val % 4 = 3) (p : Outs0 F) :
    (outs0_B V c t h0 h1 p).s4 = k0_pay18 (k0_pay10 (iblk0 V c 2 t)) (k0_pay11 (iblk0 V c 3 t)) p.s4 := by
  unfold outs0_B
  dsimp only
  exact sout0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s4 (c : Dev nD) (t : Fin cfg0.N) (h0 : ¬t.val % 4 = 0) (h1 : t.val % 4 = 3) (p : Outs0 F) :
    (outs0_C V c t h0 h1 p).s4 = k0_pay18 (k0_pay10 (iblk0 V c 2 t)) (k0_pay11 (iblk0 V c 3 t)) p.s4 := by
  unfold outs0_C
  dsimp only
  exact sout0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o10 (c : Dev nD) (t : Fin cfg0.N) (h0 : ¬t.val % 4 = 0) (h1 : t.val % 4 = 3) (p : Outs0 F) :
    (outs0_C V c t h0 h1 p).o10 = k0_pay18 (k0_pay10 (iblk0 V c 2 t)) (k0_pay11 (iblk0 V c 3 t)) p.s4 := by
  unfold outs0_C
  dsimp only
  exact out0_C_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 10's staging buffer and accumulator 4 hold the same block. -/
theorem outs0_C_o10_eq_s4 (c : Dev nD) (t : Fin cfg0.N) (h0 : ¬t.val % 4 = 0) (h1 : t.val % 4 = 3) (p : Outs0 F) :
    (outs0_C V c t h0 h1 p).o10 = (outs0_C V c t h0 h1 p).s4 :=
  (outs0_C_o10 V c t h0 h1 p).trans (outs0_C_s4 V c t h0 h1 p).symm

theorem outs0_A_s5 (c : Dev nD) (t : Fin cfg0.N) (h0 : t.val % 4 = 0) (h1 : ¬t.val % 4 = 3) :
    (outs0_A V c t h0 h1).s5 = k0_pay19 (k0_pay10 (iblk0 V c 2 t)) (k0_pay13 (iblk0 V c 5 t)) (k0_pay6 (F := F)) := by
  unfold outs0_A
  dsimp only
  exact sout0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s5 (c : Dev nD) (t : Fin cfg0.N) (h0 : ¬t.val % 4 = 0) (h1 : ¬t.val % 4 = 3) (p : Outs0 F) :
    (outs0_B V c t h0 h1 p).s5 = k0_pay19 (k0_pay10 (iblk0 V c 2 t)) (k0_pay13 (iblk0 V c 5 t)) p.s5 := by
  unfold outs0_B
  dsimp only
  exact sout0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s5 (c : Dev nD) (t : Fin cfg0.N) (h0 : ¬t.val % 4 = 0) (h1 : t.val % 4 = 3) (p : Outs0 F) :
    (outs0_C V c t h0 h1 p).s5 = k0_pay19 (k0_pay10 (iblk0 V c 2 t)) (k0_pay13 (iblk0 V c 5 t)) p.s5 := by
  unfold outs0_C
  dsimp only
  exact sout0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o11 (c : Dev nD) (t : Fin cfg0.N) (h0 : ¬t.val % 4 = 0) (h1 : t.val % 4 = 3) (p : Outs0 F) :
    (outs0_C V c t h0 h1 p).o11 = k0_pay19 (k0_pay10 (iblk0 V c 2 t)) (k0_pay13 (iblk0 V c 5 t)) p.s5 := by
  unfold outs0_C
  dsimp only
  exact out0_C_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 11's staging buffer and accumulator 5 hold the same block. -/
theorem outs0_C_o11_eq_s5 (c : Dev nD) (t : Fin cfg0.N) (h0 : ¬t.val % 4 = 0) (h1 : t.val % 4 = 3) (p : Outs0 F) :
    (outs0_C V c t h0 h1 p).o11 = (outs0_C V c t h0 h1 p).s5 :=
  (outs0_C_o11 V c t h0 h1 p).trans (outs0_C_s5 V c t h0 h1 p).symm

theorem outs0_A_s6 (c : Dev nD) (t : Fin cfg0.N) (h0 : t.val % 4 = 0) (h1 : ¬t.val % 4 = 3) :
    (outs0_A V c t h0 h1).s6 = k0_pay20 (k0_pay11 (iblk0 V c 3 t)) (k0_pay12 (iblk0 V c 4 t)) (k0_pay7 (F := F)) := by
  unfold outs0_A
  dsimp only
  exact sout0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem outs0_B_s6 (c : Dev nD) (t : Fin cfg0.N) (h0 : ¬t.val % 4 = 0) (h1 : ¬t.val % 4 = 3) (p : Outs0 F) :
    (outs0_B V c t h0 h1 p).s6 = k0_pay20 (k0_pay11 (iblk0 V c 3 t)) (k0_pay12 (iblk0 V c 4 t)) p.s6 := by
  unfold outs0_B
  dsimp only
  exact sout0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.s0 p.s1 p.s2 p.s3 p.s4 p.s5 p.s6

theorem outs0_C_s6 (c : Dev nD) (t : Fin cfg0.N) (h0 : ¬t.val % 4 = 0) (h1 : t.val % 4 = 3) (p : Outs0 F) :
    (outs0_C V c t h0 h1 p).s6 = k0_pay20 (k0_pay11 (iblk0 V c 3 t)) (k0_pay12 (iblk0 V c 4 t)) p.s6 := by
  unfold outs0_C
  dsimp only
  exact sout0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

theorem outs0_C_o12 (c : Dev nD) (t : Fin cfg0.N) (h0 : ¬t.val % 4 = 0) (h1 : t.val % 4 = 3) (p : Outs0 F) :
    (outs0_C V c t h0 h1 p).o12 = k0_pay20 (k0_pay11 (iblk0 V c 3 t)) (k0_pay12 (iblk0 V c 4 t)) p.s6 := by
  unfold outs0_C
  dsimp only
  exact out0_C_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.s0 p.s1 p.s2 p.s3 p.s4 p.s5 p.s6

/-- Where k = 3 output window 12's staging buffer and accumulator 6 hold the same block. -/
theorem outs0_C_o12_eq_s6 (c : Dev nD) (t : Fin cfg0.N) (h0 : ¬t.val % 4 = 0) (h1 : t.val % 4 = 3) (p : Outs0 F) :
    (outs0_C V c t h0 h1 p).o12 = (outs0_C V c t h0 h1 p).s6 :=
  (outs0_C_o12 V c t h0 h1 p).trans (outs0_C_s6 V c t h0 h1 p).symm

end Cert.KernelIdeal.Hand

end
-- ==== Proof.KI.R0Cover.lean ====
/-
  Region 0's grid and blocks, as arithmetic.

  The region runs over a 4 x 4 x 4 grid; point number t has coordinates (i, j, k) with t = 16 i + 4 j + k, so
  i = t / 16, j = t / 4 mod 4, k = t mod 4. Every window cuts its 1024 x 1024 array into 256 x 256 blocks. At point
  t windows 0, 2 and 4 are on block (i, k) of their arrays, windows 1, 3 and 5 on block (k, j), and each of the seven
  output windows 6 … 12 on block (i, j). The output windows are written back only at the points with k = 3.

  Entry (r, s) of an output array lies in block (r / 256, s / 256), which is written back at the point
  t = 16 (r / 256) + 4 (s / 256) + 3. So the blocks written back cover each of the seven output arrays.
-/
import proofs.«173517_j27041114096025_1_alg».proof.Proof.Gen.KernelIdeal.Points
import proofs.«173517_j27041114096025_1_alg».proof.Proof.Gen.KernelIdeal.Launch
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! ## The grid coordinates of point t -/

/-- The row-block coordinate of point t is t / 16. -/
theorem coord0_0 : ∀ t : Fin cfg0.N, (grid0.coords t (0 : Fin 3)).val = t.val / 16 :=
  (by decide +kernel : ∀ t : Fin grid0.N, _)
/-- The column-block coordinate of point t is t / 4 mod 4. -/
theorem coord0_1 : ∀ t : Fin cfg0.N, (grid0.coords t (1 : Fin 3)).val = t.val / 4 % 4 :=
  (by decide +kernel : ∀ t : Fin grid0.N, _)
/-- The contraction coordinate of point t is t mod 4. -/
theorem coord0_2 : ∀ t : Fin cfg0.N, (grid0.coords t (2 : Fin 3)).val = t.val % 4 :=
  (by decide +kernel : ∀ t : Fin grid0.N, _)

/-! ## The block index of each window at point t -/

/-- Window 0 is on block (i, k): its row index is the row-block coordinate i. -/
theorem idx0_0_0 : ∀ t : Fin cfg0.N, win0_0.index t (0 : Fin 2) = t.val / 16 :=
  (by decide +kernel : ∀ t : Fin grid0.N, _)
/-- Window 0: its column index is the contraction coordinate k. -/
theorem idx0_0_1 : ∀ t : Fin cfg0.N, win0_0.index t (1 : Fin 2) = t.val % 4 :=
  (by decide +kernel : ∀ t : Fin grid0.N, _)
/-- Window 1 is on block (k, j): its row index is the contraction coordinate k. -/
theorem idx0_1_0 : ∀ t : Fin cfg0.N, win0_1.index t (0 : Fin 2) = t.val % 4 :=
  (by decide +kernel : ∀ t : Fin grid0.N, _)
/-- Window 1: its column index is the column-block coordinate j. -/
theorem idx0_1_1 : ∀ t : Fin cfg0.N, win0_1.index t (1 : Fin 2) = t.val / 4 % 4 :=
  (by decide +kernel : ∀ t : Fin grid0.N, _)
/-- Window 2 is on block (i, k): its row index is the row-block coordinate i. -/
theorem idx0_2_0 : ∀ t : Fin cfg0.N, win0_2.index t (0 : Fin 2) = t.val / 16 :=
  (by decide +kernel : ∀ t : Fin grid0.N, _)
/-- Window 2: its column index is the contraction coordinate k. -/
theorem idx0_2_1 : ∀ t : Fin cfg0.N, win0_2.index t (1 : Fin 2) = t.val % 4 :=
  (by decide +kernel : ∀ t : Fin grid0.N, _)
/-- Window 3 is on block (k, j): its row index is the contraction coordinate k. -/
theorem idx0_3_0 : ∀ t : Fin cfg0.N, win0_3.index t (0 : Fin 2) = t.val % 4 :=
  (by decide +kernel : ∀ t : Fin grid0.N, _)
/-- Window 3: its column index is the column-block coordinate j. -/
theorem idx0_3_1 : ∀ t : Fin cfg0.N, win0_3.index t (1 : Fin 2) = t.val / 4 % 4 :=
  (by decide +kernel : ∀ t : Fin grid0.N, _)
/-- Window 4 is on block (i, k): its row index is the row-block coordinate i. -/
theorem idx0_4_0 : ∀ t : Fin cfg0.N, win0_4.index t (0 : Fin 2) = t.val / 16 :=
  (by decide +kernel : ∀ t : Fin grid0.N, _)
/-- Window 4: its column index is the contraction coordinate k. -/
theorem idx0_4_1 : ∀ t : Fin cfg0.N, win0_4.index t (1 : Fin 2) = t.val % 4 :=
  (by decide +kernel : ∀ t : Fin grid0.N, _)
/-- Window 5 is on block (k, j): its row index is the contraction coordinate k. -/
theorem idx0_5_0 : ∀ t : Fin cfg0.N, win0_5.index t (0 : Fin 2) = t.val % 4 :=
  (by decide +kernel : ∀ t : Fin grid0.N, _)
/-- Window 5: its column index is the column-block coordinate j. -/
theorem idx0_5_1 : ∀ t : Fin cfg0.N, win0_5.index t (1 : Fin 2) = t.val / 4 % 4 :=
  (by decide +kernel : ∀ t : Fin grid0.N, _)
/-- Output window 6 is on block (i, j): its row index is the row-block coordinate i. -/
theorem idx0_6_0 : ∀ t : Fin cfg0.N, win0_6.index t (0 : Fin 2) = t.val / 16 :=
  (by decide +kernel : ∀ t : Fin grid0.N, _)
/-- Window 6: its column index is the column-block coordinate j. -/
theorem idx0_6_1 : ∀ t : Fin cfg0.N, win0_6.index t (1 : Fin 2) = t.val / 4 % 4 :=
  (by decide +kernel : ∀ t : Fin grid0.N, _)
/-- Output window 7 is on block (i, j): its row index is the row-block coordinate i. -/
theorem idx0_7_0 : ∀ t : Fin cfg0.N, win0_7.index t (0 : Fin 2) = t.val / 16 :=
  (by decide +kernel : ∀ t : Fin grid0.N, _)
/-- Window 7: its column index is the column-block coordinate j. -/
theorem idx0_7_1 : ∀ t : Fin cfg0.N, win0_7.index t (1 : Fin 2) = t.val / 4 % 4 :=
  (by decide +kernel : ∀ t : Fin grid0.N, _)
/-- Output window 8 is on block (i, j): its row index is the row-block coordinate i. -/
theorem idx0_8_0 : ∀ t : Fin cfg0.N, win0_8.index t (0 : Fin 2) = t.val / 16 :=
  (by decide +kernel : ∀ t : Fin grid0.N, _)
/-- Window 8: its column index is the column-block coordinate j. -/
theorem idx0_8_1 : ∀ t : Fin cfg0.N, win0_8.index t (1 : Fin 2) = t.val / 4 % 4 :=
  (by decide +kernel : ∀ t : Fin grid0.N, _)
/-- Output window 9 is on block (i, j): its row index is the row-block coordinate i. -/
theorem idx0_9_0 : ∀ t : Fin cfg0.N, win0_9.index t (0 : Fin 2) = t.val / 16 :=
  (by decide +kernel : ∀ t : Fin grid0.N, _)
/-- Window 9: its column index is the column-block coordinate j. -/
theorem idx0_9_1 : ∀ t : Fin cfg0.N, win0_9.index t (1 : Fin 2) = t.val / 4 % 4 :=
  (by decide +kernel : ∀ t : Fin grid0.N, _)
/-- Output window 10 is on block (i, j): its row index is the row-block coordinate i. -/
theorem idx0_10_0 : ∀ t : Fin cfg0.N, win0_10.index t (0 : Fin 2) = t.val / 16 :=
  (by decide +kernel : ∀ t : Fin grid0.N, _)
/-- Window 10: its column index is the column-block coordinate j. -/
theorem idx0_10_1 : ∀ t : Fin cfg0.N, win0_10.index t (1 : Fin 2) = t.val / 4 % 4 :=
  (by decide +kernel : ∀ t : Fin grid0.N, _)
/-- Output window 11 is on block (i, j): its row index is the row-block coordinate i. -/
theorem idx0_11_0 : ∀ t : Fin cfg0.N, win0_11.index t (0 : Fin 2) = t.val / 16 :=
  (by decide +kernel : ∀ t : Fin grid0.N, _)
/-- Window 11: its column index is the column-block coordinate j. -/
theorem idx0_11_1 : ∀ t : Fin cfg0.N, win0_11.index t (1 : Fin 2) = t.val / 4 % 4 :=
  (by decide +kernel : ∀ t : Fin grid0.N, _)
/-- Output window 12 is on block (i, j): its row index is the row-block coordinate i. -/
theorem idx0_12_0 : ∀ t : Fin cfg0.N, win0_12.index t (0 : Fin 2) = t.val / 16 :=
  (by decide +kernel : ∀ t : Fin grid0.N, _)
/-- Window 12: its column index is the column-block coordinate j. -/
theorem idx0_12_1 : ∀ t : Fin cfg0.N, win0_12.index t (1 : Fin 2) = t.val / 4 % 4 :=
  (by decide +kernel : ∀ t : Fin grid0.N, _)

/-! ## The seven output windows: membership in a block, and the cover -/

/-! ### Output window 6 -/

/-- An entry of the array is in point t's block iff each coordinate is in the block's range on its axis. -/
theorem mem_blk0_6 (t : Fin cfg0.N) (i : S1024x1024.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v0_0).slice (win0_6.rect t)).set ↔ _
  rw [View.set_slice_whole, Rect.mem_set_unit]
  exact Iff.rfl

/-- Entry (r, s) lies in the block written back at the point 16 (r / 256) + 4 (s / 256) + 3. -/
theorem covered0_6 (i : S1024x1024.Idx) :
    ∃ t : Fin cfg0.N, (cfg0.win 6).flush t = true ∧ i ∈ ((cfg0.win 6).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_6 t).mpr (by omega), ?_⟩
  rw [mem_blk0_6]
  intro a
  match a with
  | ⟨0, _⟩ => show win0_6.index t (0 : Fin 2) * 256 ≤ (i 0).val ∧ (i 0).val < win0_6.index t (0 : Fin 2) * 256 + 256; rw [idx0_6_0 t]; omega
  | ⟨1, _⟩ => show win0_6.index t (1 : Fin 2) * 256 ≤ (i 1).val ∧ (i 1).val < win0_6.index t (1 : Fin 2) * 256 + 256; rw [idx0_6_1 t]; omega

/-- The blocks written back cover the whole array of output window 6. -/
theorem cover0_6 (c : Dev nD) : ∀ i : ((cfg0.win 6).arr.view.loc (c.tc : Thread nD τ)).2.ty.Idx,
    ∃ t : Fin cfg0.N, (cfg0.win 6).flush t = true ∧ i ∈ ((cfg0.win 6).blk t).view.set :=
  fun i => covered0_6 i

/-! ### Output window 7 -/

/-- An entry of the array is in point t's block iff each coordinate is in the block's range on its axis. -/
theorem mem_blk0_7 (t : Fin cfg0.N) (i : S1024x1024.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v0_1).slice (win0_7.rect t)).set ↔ _
  rw [View.set_slice_whole, Rect.mem_set_unit]
  exact Iff.rfl

/-- Entry (r, s) lies in the block written back at the point 16 (r / 256) + 4 (s / 256) + 3. -/
theorem covered0_7 (i : S1024x1024.Idx) :
    ∃ t : Fin cfg0.N, (cfg0.win 7).flush t = true ∧ i ∈ ((cfg0.win 7).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_7 t).mpr (by omega), ?_⟩
  rw [mem_blk0_7]
  intro a
  match a with
  | ⟨0, _⟩ => show win0_7.index t (0 : Fin 2) * 256 ≤ (i 0).val ∧ (i 0).val < win0_7.index t (0 : Fin 2) * 256 + 256; rw [idx0_7_0 t]; omega
  | ⟨1, _⟩ => show win0_7.index t (1 : Fin 2) * 256 ≤ (i 1).val ∧ (i 1).val < win0_7.index t (1 : Fin 2) * 256 + 256; rw [idx0_7_1 t]; omega

/-- The blocks written back cover the whole array of output window 7. -/
theorem cover0_7 (c : Dev nD) : ∀ i : ((cfg0.win 7).arr.view.loc (c.tc : Thread nD τ)).2.ty.Idx,
    ∃ t : Fin cfg0.N, (cfg0.win 7).flush t = true ∧ i ∈ ((cfg0.win 7).blk t).view.set :=
  fun i => covered0_7 i

/-! ### Output window 8 -/

/-- An entry of the array is in point t's block iff each coordinate is in the block's range on its axis. -/
theorem mem_blk0_8 (t : Fin cfg0.N) (i : S1024x1024.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v0_2).slice (win0_8.rect t)).set ↔ _
  rw [View.set_slice_whole, Rect.mem_set_unit]
  exact Iff.rfl

/-- Entry (r, s) lies in the block written back at the point 16 (r / 256) + 4 (s / 256) + 3. -/
theorem covered0_8 (i : S1024x1024.Idx) :
    ∃ t : Fin cfg0.N, (cfg0.win 8).flush t = true ∧ i ∈ ((cfg0.win 8).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_8 t).mpr (by omega), ?_⟩
  rw [mem_blk0_8]
  intro a
  match a with
  | ⟨0, _⟩ => show win0_8.index t (0 : Fin 2) * 256 ≤ (i 0).val ∧ (i 0).val < win0_8.index t (0 : Fin 2) * 256 + 256; rw [idx0_8_0 t]; omega
  | ⟨1, _⟩ => show win0_8.index t (1 : Fin 2) * 256 ≤ (i 1).val ∧ (i 1).val < win0_8.index t (1 : Fin 2) * 256 + 256; rw [idx0_8_1 t]; omega

/-- The blocks written back cover the whole array of output window 8. -/
theorem cover0_8 (c : Dev nD) : ∀ i : ((cfg0.win 8).arr.view.loc (c.tc : Thread nD τ)).2.ty.Idx,
    ∃ t : Fin cfg0.N, (cfg0.win 8).flush t = true ∧ i ∈ ((cfg0.win 8).blk t).view.set :=
  fun i => covered0_8 i

/-! ### Output window 9 -/

/-- An entry of the array is in point t's block iff each coordinate is in the block's range on its axis. -/
theorem mem_blk0_9 (t : Fin cfg0.N) (i : S1024x1024.Idx) :
    i ∈ ((cfg0.win 9).blk t).view.set ↔ ∀ a : Fin 2, win0_9.index t a * S256x256.size a ≤ (i a).val ∧ (i a).val < win0_9.index t a * S256x256.size a + S256x256.size a := by
  show i ∈ ((View.whole main_v0_3).slice (win0_9.rect t)).set ↔ _
  rw [View.set_slice_whole, Rect.mem_set_unit]
  exact Iff.rfl

/-- Entry (r, s) lies in the block written back at the point 16 (r / 256) + 4 (s / 256) + 3. -/
theorem covered0_9 (i : S1024x1024.Idx) :
    ∃ t : Fin cfg0.N, (cfg0.win 9).flush t = true ∧ i ∈ ((cfg0.win 9).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_9 t).mpr (by omega), ?_⟩
  rw [mem_blk0_9]
  intro a
  match a with
  | ⟨0, _⟩ => show win0_9.index t (0 : Fin 2) * 256 ≤ (i 0).val ∧ (i 0).val < win0_9.index t (0 : Fin 2) * 256 + 256; rw [idx0_9_0 t]; omega
  | ⟨1, _⟩ => show win0_9.index t (1 : Fin 2) * 256 ≤ (i 1).val ∧ (i 1).val < win0_9.index t (1 : Fin 2) * 256 + 256; rw [idx0_9_1 t]; omega

/-- The blocks written back cover the whole array of output window 9. -/
theorem cover0_9 (c : Dev nD) : ∀ i : ((cfg0.win 9).arr.view.loc (c.tc : Thread nD τ)).2.ty.Idx,
    ∃ t : Fin cfg0.N, (cfg0.win 9).flush t = true ∧ i ∈ ((cfg0.win 9).blk t).view.set :=
  fun i => covered0_9 i

/-! ### Output window 10 -/

/-- An entry of the array is in point t's block iff each coordinate is in the block's range on its axis. -/
theorem mem_blk0_10 (t : Fin cfg0.N) (i : S1024x1024.Idx) :
    i ∈ ((cfg0.win 10).blk t).view.set ↔ ∀ a : Fin 2, win0_10.index t a * S256x256.size a ≤ (i a).val ∧ (i a).val < win0_10.index t a * S256x256.size a + S256x256.size a := by
  show i ∈ ((View.whole main_v0_4).slice (win0_10.rect t)).set ↔ _
  rw [View.set_slice_whole, Rect.mem_set_unit]
  exact Iff.rfl

/-- Entry (r, s) lies in the block written back at the point 16 (r / 256) + 4 (s / 256) + 3. -/
theorem covered0_10 (i : S1024x1024.Idx) :
    ∃ t : Fin cfg0.N, (cfg0.win 10).flush t = true ∧ i ∈ ((cfg0.win 10).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_10 t).mpr (by omega), ?_⟩
  rw [mem_blk0_10]
  intro a
  match a with
  | ⟨0, _⟩ => show win0_10.index t (0 : Fin 2) * 256 ≤ (i 0).val ∧ (i 0).val < win0_10.index t (0 : Fin 2) * 256 + 256; rw [idx0_10_0 t]; omega
  | ⟨1, _⟩ => show win0_10.index t (1 : Fin 2) * 256 ≤ (i 1).val ∧ (i 1).val < win0_10.index t (1 : Fin 2) * 256 + 256; rw [idx0_10_1 t]; omega

/-- The blocks written back cover the whole array of output window 10. -/
theorem cover0_10 (c : Dev nD) : ∀ i : ((cfg0.win 10).arr.view.loc (c.tc : Thread nD τ)).2.ty.Idx,
    ∃ t : Fin cfg0.N, (cfg0.win 10).flush t = true ∧ i ∈ ((cfg0.win 10).blk t).view.set :=
  fun i => covered0_10 i

/-! ### Output window 11 -/

/-- An entry of the array is in point t's block iff each coordinate is in the block's range on its axis. -/
theorem mem_blk0_11 (t : Fin cfg0.N) (i : S1024x1024.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v0_5).slice (win0_11.rect t)).set ↔ _
  rw [View.set_slice_whole, Rect.mem_set_unit]
  exact Iff.rfl

/-- Entry (r, s) lies in the block written back at the point 16 (r / 256) + 4 (s / 256) + 3. -/
theorem covered0_11 (i : S1024x1024.Idx) :
    ∃ t : Fin cfg0.N, (cfg0.win 11).flush t = true ∧ i ∈ ((cfg0.win 11).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_11 t).mpr (by omega), ?_⟩
  rw [mem_blk0_11]
  intro a
  match a with
  | ⟨0, _⟩ => show win0_11.index t (0 : Fin 2) * 256 ≤ (i 0).val ∧ (i 0).val < win0_11.index t (0 : Fin 2) * 256 + 256; rw [idx0_11_0 t]; omega
  | ⟨1, _⟩ => show win0_11.index t (1 : Fin 2) * 256 ≤ (i 1).val ∧ (i 1).val < win0_11.index t (1 : Fin 2) * 256 + 256; rw [idx0_11_1 t]; omega

/-- The blocks written back cover the whole array of output window 11. -/
theorem cover0_11 (c : Dev nD) : ∀ i : ((cfg0.win 11).arr.view.loc (c.tc : Thread nD τ)).2.ty.Idx,
    ∃ t : Fin cfg0.N, (cfg0.win 11).flush t = true ∧ i ∈ ((cfg0.win 11).blk t).view.set :=
  fun i => covered0_11 i

/-! ### Output window 12 -/

/-- An entry of the array is in point t's block iff each coordinate is in the block's range on its axis. -/
theorem mem_blk0_12 (t : Fin cfg0.N) (i : S1024x1024.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v0_6).slice (win0_12.rect t)).set ↔ _
  rw [View.set_slice_whole, Rect.mem_set_unit]
  exact Iff.rfl

/-- Entry (r, s) lies in the block written back at the point 16 (r / 256) + 4 (s / 256) + 3. -/
theorem covered0_12 (i : S1024x1024.Idx) :
    ∃ t : Fin cfg0.N, (cfg0.win 12).flush t = true ∧ i ∈ ((cfg0.win 12).blk t).view.set := by
  have hi0 : (i 0).val < 1024 := (i 0).isLt
  have hi1 : (i 1).val < 1024 := (i 1).isLt
  have hN : grid0.N = 64 := N_0
  let t : Fin cfg0.N := ⟨16 * ((i 0).val / 256) + 4 * ((i 1).val / 256) + 3, by show _ < grid0.N; omega⟩
  have ht : t.val = 16 * ((i 0).val / 256) + 4 * ((i 1).val / 256) + 3 := rfl
  refine ⟨t, (flush0_12 t).mpr (by omega), ?_⟩
  rw [mem_blk0_12]
  intro a
  match a with
  | ⟨0, _⟩ => show win0_12.index t (0 : Fin 2) * 256 ≤ (i 0).val ∧ (i 0).val < win0_12.index t (0 : Fin 2) * 256 + 256; rw [idx0_12_0 t]; omega
  | ⟨1, _⟩ => show win0_12.index t (1 : Fin 2) * 256 ≤ (i 1).val ∧ (i 1).val < win0_12.index t (1 : Fin 2) * 256 + 256; rw [idx0_12_1 t]; omega

/-- The blocks written back cover the whole array of output window 12. -/
theorem cover0_12 (c : Dev nD) : ∀ i : ((cfg0.win 12).arr.view.loc (c.tc : Thread nD τ)).2.ty.Idx,
    ∃ t : Fin cfg0.N, (cfg0.win 12).flush t = true ∧ i ∈ ((cfg0.win 12).blk t).view.set :=
  fun i => covered0_12 i

end Cert.KernelIdeal.Hand

end
-- ==== Proof.Spec.lean ====
/-
  The mathematics both programs compute, stated once over the extended reals with no program in sight.

  From three 1024 x 1024 matrices x1, x2, x3 form the seven products
      A = x1 x2,  B = x1 x3,  C = x1 x1,  D = x2 x1,  E = x2 x2,  F = x2 x3,  G = x3 x2,
  each entry a plain sum over the contracted index, and then, entry by entry, one fixed polynomial expression of the
  seven entries. The expression is a directed acyclic graph of sums, differences and products; its shared nodes are
  named below in the order they are computed (the numbering follows the reference program's operations), each a
  function of the seven entries, so that no proof ever has to unfold the expression into its tree form.
-/
import Idealize.ShloMosaic.PureOps.Ideal
import Idealize.ShloMosaic.Lib.ValueIdx

noncomputable section

open scoped BigOperators

namespace Cert.Spec

open Idealize.ShloMosaic Idealize.ShloMosaic.ValueIdx

/-- A 1024 x 1024 matrix of extended reals, indexed as the programs' arrays are. -/
abbrev Mat : Type := (⟨2, ![1024, 1024]⟩ : Shape).Idx → EReal

/-- The matrix product, entry (p, q): the sum over k of x (p, k) * y (k, q). -/
def mm (x y : Mat) (p q : Fin 1024) : EReal := ∑ k : Fin 1024, x (ix2 p k) * y (ix2 k q)

section Chain

variable (a b c d e f g : EReal)

/-- A + C. -/
def n10 : EReal := a + c
/-- ((A + 2 B) + (A + C)) * (-B). -/
def n13 : EReal := ((a + 2 * b) + n10 a c) * (-b)
/-- n13 + (D + G). -/
def n15 : EReal := n13 a b c + (d + g)
/-- n13 + ((A + E) + 2 F). -/
def n22 : EReal := n13 a b c + ((a + e) + 2 * f)
/-- (B - (D + G)) + n22. -/
def n23 : EReal := (b - (d + g)) + n22 a b c e f
/-- E + F. -/
def n24 : EReal := e + f
/-- (A + C) * (F + E). -/
def n26 : EReal := n10 a c * (f + e)
/-- n26 + (n24 + (n23 + (A + n13))). -/
def n30 : EReal := n26 a c e f + (n24 e f + (n23 a b c d e f g + (a + n13 a b c)))
/-- n30 * n15. -/
def n31 : EReal := n30 a b c d e f g * n15 a b c d g
/-- n31 - G. -/
def n32 : EReal := n31 a b c d e f g - g
/-- n31 + G. -/
def n33 : EReal := n31 a b c d e f g + g
/-- n30 * n23. -/
def n34 : EReal := n30 a b c d e f g * n23 a b c d e f g
/-- B - (E + F). -/
def n36 : EReal := b - (e + f)
/-- n31 * n22. -/
def n37 : EReal := n31 a b c d e f g * n22 a b c e f
/-- n37 + (n34 + n36). -/
def n39 : EReal := n37 a b c d e f g + (n34 a b c d e f g + n36 b e f)
/-- n39 * n15. -/
def n40 : EReal := n39 a b c d e f g * n15 a b c d g
/-- n40 * E. -/
def n42 : EReal := n40 a b c d e f g * e
/-- n26 * A. -/
def n43 : EReal := n26 a c e f * a
/-- n33 + ((n40 - n40 * F) + ((n42 - E) + n43)). -/
def n48 : EReal := n33 a b c d e f g + ((n40 a b c d e f g - n40 a b c d e f g * f) + ((n42 a b c d e f g - e) + n43 a c e f))
/-- n48 * n24. -/
def n50 : EReal := n48 a b c d e f g * n24 e f
/-- n50 * E. -/
def n52 : EReal := n50 a b c d e f g * e
/-- ((n33 * n32) * E - n52) * (n36 * E) + (n50 + n52) * (n37 * F). -/
def n59 : EReal :=
  ((n33 a b c d e f g * n32 a b c d e f g) * e - n52 a b c d e f g) * (n36 b e f * e)
    + (n50 a b c d e f g + n52 a b c d e f g) * (n37 a b c d e f g * f)
/-- (n59 * n34 - n39 * n34) * n32 + (n59 * n42 - n43 * n39) * n32. -/
def n68 : EReal :=
  (n59 a b c d e f g * n34 a b c d e f g - n39 a b c d e f g * n34 a b c d e f g) * n32 a b c d e f g
    + (n59 a b c d e f g * n42 a b c d e f g - n43 a c e f * n39 a b c d e f g) * n32 a b c d e f g
/-- n59 * n48. -/
def n69 : EReal := n59 a b c d e f g * n48 a b c d e f g
/-- (((n59 n34) n32 - (n59 n42) n32) + ((n69 n34) n32 + (n68 n42) n32)) - (n59 - (n59 + (n68 + n69))). -/
def n84 : EReal :=
  (((n59 a b c d e f g * n34 a b c d e f g) * n32 a b c d e f g - (n59 a b c d e f g * n42 a b c d e f g) * n32 a b c d e f g)
      + ((n69 a b c d e f g * n34 a b c d e f g) * n32 a b c d e f g + (n68 a b c d e f g * n42 a b c d e f g) * n32 a b c d e f g))
    - (n59 a b c d e f g - (n59 a b c d e f g + (n68 a b c d e f g + n69 a b c d e f g)))
/-- The expression's value: n84 * n32 - n84 * n43. -/
def out : EReal := n84 a b c d e f g * n32 a b c d e f g - n84 a b c d e f g * n43 a c e f

end Chain

/-- What both programs leave at entry (p, q) of their result: the expression at the seven products' entries. -/
def result (x1 x2 x3 : Mat) (p q : Fin 1024) : EReal :=
  out (mm x1 x2 p q) (mm x1 x3 p q) (mm x1 x1 p q) (mm x2 x1 p q) (mm x2 x2 p q) (mm x2 x3 p q) (mm x3 x2 p q)

end Cert.Spec

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KI.R0ValuePure.lean ====
/-
  Region 0, the mathematics that needs no run: what one grid point adds to an accumulator block, entry by entry;
  how four partial sums over 256 consecutive contraction indices make up the whole sum over 1024; and where a
  window's block sits in its array at a grid point.

  The grid is 4 x 4 x 4; point t is (i, j, k) with t = 16 i + 4 j + k. Entry (p, q) of the accumulator block of a
  product L R at (i, j) is, after the point with last coordinate k, the sum over the first k + 1 blocks b of
  sum_r L (256 i + p, 256 b + r) * R (256 b + r, 256 j + q). A left window's block at (i, j, k) is block (i, k) of its
  array, a right window's block is block (k, j), an output window's block is block (i, j).
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin
import proofs.«173517_j27041114096025_1_alg».proof.Proof.Gen.KernelIdeal.Skeleton
import proofs.«173517_j27041114096025_1_alg».proof.Proof.Spec
import proofs.«173517_j27041114096025_1_alg».proof.Proof.LibDotFormats
import proofs.«173517_j27041114096025_1_alg».proof.Proof.LibBlockSum

noncomputable section

namespace Cert.KernelIdeal.Hand.R0Pure

open Cert.KernelIdeal Cert.KernelIdeal.Gen
open Idealize.ShloMosaic Idealize.ShloMosaic.ValueIdx
open scoped BigOperators

/-! ## One point's arithmetic at an entry -/

/-- The accumulator plus the product of two half-precision blocks into a zero block: entry (p, q) gains the sum
    over k of x (p, k) * y (k, q). -/
theorem step_bf_apply (x y : FVec Ideal S256x256 .bf16) (acc : Vec Ideal S256x256 .f32) (p q : Fin 256) :
    (addf (F := Ideal) acc (matmul dot_S256x256_S256x256_S256x256_1_0_0_1_n_n none x y (constant S256x256 .f32 0x00000000#32)) : FVec Ideal S256x256 .f32) (ix2 p q)
      = (acc (ix2 p q) + ∑ k : Fin 256, x (ix2 p k) * y (ix2 k q) : EReal) := by
  rw [addf_apply]
  congr 1
  exact Cert.LibDotFormats.matmul_cols_zero_apply (A := 256) (K := 256) (B := 256)
    dot_S256x256_S256x256_S256x256_1_0_0_1_n_n rfl rfl rfl rfl rfl rfl none x y p q

/-- The same with the two blocks given in single precision and rounded first: rounding is the identity on the
    extended reals. -/
theorem step_apply (x y acc : Vec Ideal S256x256 .f32) (p q : Fin 256) :
    (addf (F := Ideal) acc (matmul dot_S256x256_S256x256_S256x256_1_0_0_1_n_n none (truncf .bf16 x bitsLt_bf16_f32)
        (truncf .bf16 y bitsLt_bf16_f32) (constant S256x256 .f32 0x00000000#32)) : FVec Ideal S256x256 .f32) (ix2 p q)
      = (acc (ix2 p q) + ∑ k : Fin 256, x (ix2 p k) * y (ix2 k q) : EReal) :=
  step_bf_apply (truncf .bf16 x bitsLt_bf16_f32) (truncf .bf16 y bitsLt_bf16_f32) acc p q

/-! ## The seven update payloads at an entry -/

/-- Update payload 14 at entry (p, q): the accumulator's entry plus the sum over k of l (p, k) * r (k, q). -/
theorem pay14_apply (l r acc : Vec Ideal S256x256 .f32) (p q : Fin 256) :
    (k0_pay14 (F := Ideal) l r acc : FVec Ideal S256x256 .f32) (ix2 p q)
      = (acc (ix2 p q) + ∑ k : Fin 256, l (ix2 p k) * r (ix2 k q) : EReal) :=
  (congrFun (shapeCast_self _ _) (ix2 p q)).trans (step_apply l r acc p q)

/-- Update payload 15 at entry (p, q): the accumulator's entry plus the sum over k of l (p, k) * r (k, q). -/
theorem pay15_apply (l r acc : Vec Ideal S256x256 .f32) (p q : Fin 256) :
    (k0_pay15 (F := Ideal) l r acc : FVec Ideal S256x256 .f32) (ix2 p q)
      = (acc (ix2 p q) + ∑ k : Fin 256, l (ix2 p k) * r (ix2 k q) : EReal) :=
  (congrFun (shapeCast_self _ _) (ix2 p q)).trans (step_apply l r acc p q)

/-- Update payload 16 at entry (p, q): the accumulator's entry plus the sum over k of l (p, k) * r (k, q). -/
theorem pay16_apply (l r : FVec Ideal S256x256 .bf16) (acc : Vec Ideal S256x256 .f32) (p q : Fin 256) :
    (k0_pay16 (F := Ideal) l r acc : FVec Ideal S256x256 .f32) (ix2 p q)
      = (acc (ix2 p q) + ∑ k : Fin 256, l (ix2 p k) * r (ix2 k q) : EReal) :=
  (congrFun (shapeCast_self _ _) (ix2 p q)).trans (step_bf_apply l r acc p q)

/-- Update payload 17 at entry (p, q): the accumulator's entry plus the sum over k of l (p, k) * r (k, q). -/
theorem pay17_apply (l r : FVec Ideal S256x256 .bf16) (acc : Vec Ideal S256x256 .f32) (p q : Fin 256) :
    (k0_pay17 (F := Ideal) r l acc : FVec Ideal S256x256 .f32) (ix2 p q)
      = (acc (ix2 p q) + ∑ k : Fin 256, l (ix2 p k) * r (ix2 k q) : EReal) :=
  (congrFun (shapeCast_self _ _) (ix2 p q)).trans (step_bf_apply l r acc p q)

/-- Update payload 18 at entry (p, q): the accumulator's entry plus the sum over k of l (p, k) * r (k, q). -/
theorem pay18_apply (l r : FVec Ideal S256x256 .bf16) (acc : Vec Ideal S256x256 .f32) (p q : Fin 256) :
    (k0_pay18 (F := Ideal) l r acc : FVec Ideal S256x256 .f32) (ix2 p q)
      = (acc (ix2 p q) + ∑ k : Fin 256, l (ix2 p k) * r (ix2 k q) : EReal) :=
  (congrFun (shapeCast_self _ _) (ix2 p q)).trans (step_bf_apply l r acc p q)

/-- Update payload 19 at entry (p, q): the accumulator's entry plus the sum over k of l (p, k) * r (k, q). -/
theorem pay19_apply (l r : FVec Ideal S256x256 .bf16) (acc : Vec Ideal S256x256 .f32) (p q : Fin 256) :
    (k0_pay19 (F := Ideal) l r acc : FVec Ideal S256x256 .f32) (ix2 p q)
      = (acc (ix2 p q) + ∑ k : Fin 256, l (ix2 p k) * r (ix2 k q) : EReal) :=
  (congrFun (shapeCast_self _ _) (ix2 p q)).trans (step_bf_apply l r acc p q)

/-- Update payload 20 at entry (p, q): the accumulator's entry plus the sum over k of l (p, k) * r (k, q). -/
theorem pay20_apply (l r : FVec Ideal S256x256 .bf16) (acc : Vec Ideal S256x256 .f32) (p q : Fin 256) :
    (k0_pay20 (F := Ideal) r l acc : FVec Ideal S256x256 .f32) (ix2 p q)
      = (acc (ix2 p q) + ∑ k : Fin 256, l (ix2 p k) * r (ix2 k q) : EReal) :=
  (congrFun (shapeCast_self _ _) (ix2 p q)).trans (step_bf_apply l r acc p q)

/-! ## The reset payloads -/

/-- Reset payload 1 is zero at every entry. -/
theorem pay1_apply (j : S256x256.Idx) : (k0_pay1 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 2 is zero at every entry. -/
theorem pay2_apply (j : S256x256.Idx) : (k0_pay2 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 3 is zero at every entry. -/
theorem pay3_apply (j : S256x256.Idx) : (k0_pay3 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 4 is zero at every entry. -/
theorem pay4_apply (j : S256x256.Idx) : (k0_pay4 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 5 is zero at every entry. -/
theorem pay5_apply (j : S256x256.Idx) : (k0_pay5 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 6 is zero at every entry. -/
theorem pay6_apply (j : S256x256.Idx) : (k0_pay6 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-- Reset payload 7 is zero at every entry. -/
theorem pay7_apply (j : S256x256.Idx) : (k0_pay7 (F := Ideal) : FVec Ideal S256x256 .f32) j = (0 : EReal) := by
  show (shapeCast S256x256 (broadcast S256x256 (Scalar.ofBits (F := Ideal) .f32 0x00000000#32)) shapeCasts_S256x256_S256x256
    : FVec Ideal S256x256 .f32) j = 0
  rw [shapeCast_self]
  exact Ideal.ofBits_zero_f32

/-! ## Four partial sums over 256 consecutive indices make the sum over 1024 -/

/-- The index below 1024 that a natural number names. Every number met here is below 1024; larger ones wrap. -/
def at1024 (n : ℕ) : Fin 1024 := ⟨n % 1024, Nat.mod_lt _ (by decide)⟩

theorem at1024_of_lt (n : ℕ) (h : n < 1024) : at1024 n = ⟨n, h⟩ := Fin.ext (Nat.mod_eq_of_lt h)

theorem at1024_val (n : ℕ) (h : n < 1024) : (at1024 n).val = n := Nat.mod_eq_of_lt h

/-- Block b's share of entry (256 I + p, 256 J + q) of the product L R: the sum over the 256 contraction indices
    256 b + r. -/
def blockTerm (L R : Cert.Spec.Mat) (I J b : ℕ) (p q : Fin 256) : EReal :=
  ∑ r : Fin 256, L (ix2 (at1024 (256 * I + p.val)) (at1024 (256 * b + r.val)))
    * R (ix2 (at1024 (256 * b + r.val)) (at1024 (256 * J + q.val)))

/-- The shares of the first n blocks, added up. -/
def partialSum (L R : Cert.Spec.Mat) (I J n : ℕ) (p q : Fin 256) : EReal :=
  ∑ b ∈ Finset.range n, blockTerm L R I J b p q

/-- After the first point of a run of four: zero plus block 0's share. -/
theorem partialSum_one (L R : Cert.Spec.Mat) (I J : ℕ) (p q : Fin 256) :
    partialSum L R I J 1 p q = 0 + blockTerm L R I J 0 p q := by
  unfold partialSum
  rw [Finset.sum_range_one, zero_add]

/-- Each later point adds its block's share. -/
theorem partialSum_succ (L R : Cert.Spec.Mat) (I J n : ℕ) (p q : Fin 256) :
    partialSum L R I J (n + 1) p q = partialSum L R I J n p q + blockTerm L R I J n p q :=
  Finset.sum_range_succ _ n

/-- All four blocks' shares are the whole sum over the 1024 contraction indices: the product's entry. -/
theorem partialSum_four (L R : Cert.Spec.Mat) (I J : ℕ) (p q : Fin 256) :
    partialSum L R I J 4 p q = Cert.Spec.mm L R (at1024 (256 * I + p.val)) (at1024 (256 * J + q.val)) := by
  unfold partialSum Cert.Spec.mm
  rw [Finset.sum_range]
  refine Eq.trans ?_ (Cert.BlockSum.sum_blocks 4 256
    (fun n : Fin (4 * 256) => L (ix2 (at1024 (256 * I + p.val)) n) * R (ix2 n (at1024 (256 * J + q.val)))))
  refine Finset.sum_congr rfl fun b _ => ?_
  unfold blockTerm
  refine Finset.sum_congr rfl fun r _ => ?_
  rw [at1024_of_lt _ (Cert.BlockSum.block_lt b r)]

end Cert.KernelIdeal.Hand.R0Pure

end
-- ==== Proof.KI.R0ValueInd.lean ====
/-
  The accumulation across the grid, as pure arithmetic. A family of 256 x 256 blocks S n, one per grid point n < 64,
  that starts afresh at the points n = 0 mod 4 with zero plus the product of that point's left and right blocks, and
  at every other point adds the product of that point's blocks to what the point before left, holds at entry (p, q),
  when the left block at n is block (n / 16, n mod 4) of L and the right block is block (n mod 4, n / 4 mod 4) of R,
  the sum of the first n mod 4 + 1 block shares of entry (256 (n / 16) + p, 256 (n / 4 mod 4) + q) of the product L R.
-/
import proofs.«173517_j27041114096025_1_alg».proof.Proof.KI.R0ValuePure

noncomputable section

namespace Cert.KernelIdeal.Hand.R0Pure

open Cert.KernelIdeal Cert.KernelIdeal.Gen
open Idealize.ShloMosaic Idealize.ShloMosaic.ValueIdx
open scoped BigOperators

/-- One point's product of blocks, at entry (p, q), is the share of the block the point's last coordinate names. -/
theorem block_share (L R : Cert.Spec.Mat) (xl xr : Vec Ideal S256x256 .f32) (I J b : ℕ)
    (hl : ∀ p r : Fin 256, xl (ix2 p r) = L (ix2 (at1024 (256 * I + p.val)) (at1024 (256 * b + r.val))))
    (hr : ∀ r q : Fin 256, xr (ix2 r q) = R (ix2 (at1024 (256 * b + r.val)) (at1024 (256 * J + q.val))))
    (p q : Fin 256) :
    (∑ k : Fin 256, xl (ix2 p k) * xr (ix2 k q) : EReal) = blockTerm L R I J b p q := by
  unfold blockTerm
  refine Finset.sum_congr rfl fun k _ => ?_
  rw [hl, hr]

/-- The accumulator after point n holds the first n mod 4 + 1 block shares. -/
theorem acc_invariant (L R : Cert.Spec.Mat) (S xl xr : (n : ℕ) → n < 64 → Vec Ideal S256x256 .f32)
    (hA : ∀ (n : ℕ) (h : n < 64), n % 4 = 0 → ∀ p q : Fin 256,
      S n h (ix2 p q) = ((0 : EReal) + ∑ k : Fin 256, xl n h (ix2 p k) * xr n h (ix2 k q) : EReal))
    (hB : ∀ (n : ℕ) (h : n < 64) (h' : n - 1 < 64), ¬n % 4 = 0 → ∀ p q : Fin 256,
      S n h (ix2 p q) = (S (n - 1) h' (ix2 p q) + ∑ k : Fin 256, xl n h (ix2 p k) * xr n h (ix2 k q) : EReal))
    (hl : ∀ (n : ℕ) (h : n < 64) (p r : Fin 256),
      xl n h (ix2 p r) = L (ix2 (at1024 (256 * (n / 16) + p.val)) (at1024 (256 * (n % 4) + r.val))))
    (hr : ∀ (n : ℕ) (h : n < 64) (r q : Fin 256),
      xr n h (ix2 r q) = R (ix2 (at1024 (256 * (n % 4) + r.val)) (at1024 (256 * (n / 4 % 4) + q.val)))) :
    ∀ (n : ℕ) (h : n < 64) (p q : Fin 256),
      S n h (ix2 p q) = partialSum L R (n / 16) (n / 4 % 4) (n % 4 + 1) p q := by
  intro n
  induction n with
  | zero =>
    intro h p q
    rw [hA 0 h rfl, block_share L R (xl 0 h) (xr 0 h) (0 / 16) (0 / 4 % 4) (0 % 4) (hl 0 h) (hr 0 h)]
    exact (partialSum_one L R _ _ p q).symm
  | succ m ih =>
    intro h p q
    by_cases h0 : (m + 1) % 4 = 0
    · rw [hA (m + 1) h h0, block_share L R (xl (m + 1) h) (xr (m + 1) h) _ _ _ (hl (m + 1) h) (hr (m + 1) h), h0]
      exact (partialSum_one L R _ _ p q).symm
    · have hm : m < 64 := Nat.lt_of_succ_lt h
      rw [hB (m + 1) h hm h0, block_share L R (xl (m + 1) h) (xr (m + 1) h) _ _ _ (hl (m + 1) h) (hr (m + 1) h)]
      show S m hm (ix2 p q) + _ = _
      rw [ih hm p q, show m / 16 = (m + 1) / 16 by omega, show m / 4 % 4 = (m + 1) / 4 % 4 by omega,
        show m % 4 + 1 = (m + 1) % 4 by omega]
      exact (partialSum_succ L R _ _ _ p q).symm

end Cert.KernelIdeal.Hand.R0Pure

end
-- ==== Proof.KI.R0Value.lean ====
/-
  Region 0 at the extended reals: after the run each of the seven output arrays holds the matrix product of two of the
  argument arrays.

  An input window's block at grid point t = 16 i + 4 j + k is block (i, k) (left operands) or block (k, j) (right
  operands) of its array. By induction along the points, accumulator s after point t holds at entry (p, q) the first
  k + 1 block shares of entry (256 i + p, 256 j + q) of its product; at k = 3 that is the whole sum over the 1024
  contraction indices, the output's staging buffer holds the same block, and it is written back as block (i, j) of the
  output array. The blocks written back at the sixteen points with k = 3 tile the array.
-/
import proofs.«173517_j27041114096025_1_alg».proof.Proof.KI.R0Pieces
import proofs.«173517_j27041114096025_1_alg».proof.Proof.KI.R0Cover
import proofs.«173517_j27041114096025_1_alg».proof.Proof.KI.R0ValueInd
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand.R0Pure
open scoped BigOperators

-- the TensorCore's buffer contents when the region is entered, at the extended reals
variable (V : (c : Dev nD) → (b : Ref sig .tc) → Buf (Elt Ideal) ((c : Thread nD τ).loc b))

/-! ## The arrays and the input blocks, at their literal types -/

/-- The three argument arrays as the region finds them. -/
abbrev arr0 (c : Dev nD) : Cert.Spec.Mat := V c main_arg0
abbrev arr1 (c : Dev nD) : Cert.Spec.Mat := V c main_arg1
abbrev arr2 (c : Dev nD) : Cert.Spec.Mat := V c main_arg2

/-- The six input windows' blocks at a grid point. -/
abbrev xb0 (c : Dev nD) (t : Fin cfg0.N) : Vec Ideal S256x256 .f32 := iblk0 V c 0 t
abbrev xb1 (c : Dev nD) (t : Fin cfg0.N) : Vec Ideal S256x256 .f32 := iblk0 V c 1 t
abbrev xb2 (c : Dev nD) (t : Fin cfg0.N) : Vec Ideal S256x256 .f32 := iblk0 V c 2 t
abbrev xb3 (c : Dev nD) (t : Fin cfg0.N) : Vec Ideal S256x256 .f32 := iblk0 V c 3 t
abbrev xb4 (c : Dev nD) (t : Fin cfg0.N) : Vec Ideal S256x256 .f32 := iblk0 V c 4 t
abbrev xb5 (c : Dev nD) (t : Fin cfg0.N) : Vec Ideal S256x256 .f32 := iblk0 V c 5 t

/-- The grid has 64 points. -/
theorem lt64 {n : ℕ} (h : n < 64) : n < cfg0.N := lt_of_lt_of_eq h (show 64 = cfg0.N from N_0.symm)
theorem lt_64 (t : Fin cfg0.N) : t.val < 64 := lt_of_lt_of_eq t.isLt (show cfg0.N = 64 from N_0)

/-! ## Where an input block sits in its array -/

/-- Window 0's block at point t is block (i, k) of argument array 0. -/
theorem xb0_apply (c : Dev nD) (t : Fin cfg0.N) (p r : Fin 256) :
    xb0 V c t (ix2 p r) = arr0 V c (ix2 (at1024 (256 * (t.val / 16) + p.val)) (at1024 (256 * (t.val % 4) + r.val))) := by
  have ht := lt_64 t
  show iblk0 V c 0 t (ix2 p r) = V c main_arg0 _
  unfold iblk0
  rw [View.read_apply]
  show V c main_arg0 _ = V c main_arg0 _
  congr 1
  funext a
  apply Fin.ext
  match a with
  | ⟨0, _⟩ => show win0_0.index t (0 : Fin 2) * 256 + 1 * p.val = (256 * (t.val / 16) + p.val) % 1024; rw [idx0_0_0 t]; omega
  | ⟨1, _⟩ => show win0_0.index t (1 : Fin 2) * 256 + 1 * r.val = (256 * (t.val % 4) + r.val) % 1024; rw [idx0_0_1 t]; omega

/-- Window 1's block at point t is block (k, j) of argument array 0. -/
theorem xb1_apply (c : Dev nD) (t : Fin cfg0.N) (p r : Fin 256) :
    xb1 V c t (ix2 p r) = arr0 V c (ix2 (at1024 (256 * (t.val % 4) + p.val)) (at1024 (256 * (t.val / 4 % 4) + r.val))) := by
  have ht := lt_64 t
  show iblk0 V c 1 t (ix2 p r) = V c main_arg0 _
  unfold iblk0
  rw [View.read_apply]
  show V c main_arg0 _ = V c main_arg0 _
  congr 1
  funext a
  apply Fin.ext
  match a with
  | ⟨0, _⟩ => show win0_1.index t (0 : Fin 2) * 256 + 1 * p.val = (256 * (t.val % 4) + p.val) % 1024; rw [idx0_1_0 t]; omega
  | ⟨1, _⟩ => show win0_1.index t (1 : Fin 2) * 256 + 1 * r.val = (256 * (t.val / 4 % 4) + r.val) % 1024; rw [idx0_1_1 t]; omega

/-- Window 2's block at point t is block (i, k) of argument array 1. -/
theorem xb2_apply (c : Dev nD) (t : Fin cfg0.N) (p r : Fin 256) :
    xb2 V c t (ix2 p r) = arr1 V c (ix2 (at1024 (256 * (t.val / 16) + p.val)) (at1024 (256 * (t.val % 4) + r.val))) := by
  have ht := lt_64 t
  show iblk0 V c 2 t (ix2 p r) = V c main_arg1 _
  unfold iblk0
  rw [View.read_apply]
  show V c main_arg1 _ = V c main_arg1 _
  congr 1
  funext a
  apply Fin.ext
  match a with
  | ⟨0, _⟩ => show win0_2.index t (0 : Fin 2) * 256 + 1 * p.val = (256 * (t.val / 16) + p.val) % 1024; rw [idx0_2_0 t]; omega
  | ⟨1, _⟩ => show win0_2.index t (1 : Fin 2) * 256 + 1 * r.val = (256 * (t.val % 4) + r.val) % 1024; rw [idx0_2_1 t]; omega

/-- Window 3's block at point t is block (k, j) of argument array 1. -/
theorem xb3_apply (c : Dev nD) (t : Fin cfg0.N) (p r : Fin 256) :
    xb3 V c t (ix2 p r) = arr1 V c (ix2 (at1024 (256 * (t.val % 4) + p.val)) (at1024 (256 * (t.val / 4 % 4) + r.val))) := by
  have ht := lt_64 t
  show iblk0 V c 3 t (ix2 p r) = V c main_arg1 _
  unfold iblk0
  rw [View.read_apply]
  show V c main_arg1 _ = V c main_arg1 _
  congr 1
  funext a
  apply Fin.ext
  match a with
  | ⟨0, _⟩ => show win0_3.index t (0 : Fin 2) * 256 + 1 * p.val = (256 * (t.val % 4) + p.val) % 1024; rw [idx0_3_0 t]; omega
  | ⟨1, _⟩ => show win0_3.index t (1 : Fin 2) * 256 + 1 * r.val = (256 * (t.val / 4 % 4) + r.val) % 1024; rw [idx0_3_1 t]; omega

/-- Window 4's block at point t is block (i, k) of argument array 2. -/
theorem xb4_apply (c : Dev nD) (t : Fin cfg0.N) (p r : Fin 256) :
    xb4 V c t (ix2 p r) = arr2 V c (ix2 (at1024 (256 * (t.val / 16) + p.val)) (at1024 (256 * (t.val % 4) + r.val))) := by
  have ht := lt_64 t
  show iblk0 V c 4 t (ix2 p r) = V c main_arg2 _
  unfold iblk0
  rw [View.read_apply]
  show V c main_arg2 _ = V c main_arg2 _
  congr 1
  funext a
  apply Fin.ext
  match a with
  | ⟨0, _⟩ => show win0_4.index t (0 : Fin 2) * 256 + 1 * p.val = (256 * (t.val / 16) + p.val) % 1024; rw [idx0_4_0 t]; omega
  | ⟨1, _⟩ => show win0_4.index t (1 : Fin 2) * 256 + 1 * r.val = (256 * (t.val % 4) + r.val) % 1024; rw [idx0_4_1 t]; omega

/-- Window 5's block at point t is block (k, j) of argument array 2. -/
theorem xb5_apply (c : Dev nD) (t : Fin cfg0.N) (p r : Fin 256) :
    xb5 V c t (ix2 p r) = arr2 V c (ix2 (at1024 (256 * (t.val % 4) + p.val)) (at1024 (256 * (t.val / 4 % 4) + r.val))) := by
  have ht := lt_64 t
  show iblk0 V c 5 t (ix2 p r) = V c main_arg2 _
  unfold iblk0
  rw [View.read_apply]
  show V c main_arg2 _ = V c main_arg2 _
  congr 1
  funext a
  apply Fin.ext
  match a with
  | ⟨0, _⟩ => show win0_5.index t (0 : Fin 2) * 256 + 1 * p.val = (256 * (t.val % 4) + p.val) % 1024; rw [idx0_5_0 t]; omega
  | ⟨1, _⟩ => show win0_5.index t (1 : Fin 2) * 256 + 1 * r.val = (256 * (t.val / 4 % 4) + r.val) % 1024; rw [idx0_5_1 t]; omega

/-! ## One point's step, accumulator by accumulator, at an entry -/

/-- Accumulator 0 (product A) where k = 0: zero plus the product of the point's blocks. -/
theorem sA_0 (c : Dev nD) (t : Fin cfg0.N) (h0 : t.val % 4 = 0) (h1 : ¬t.val % 4 = 3) (p q : Fin 256) :
    (outs0_A V c t h0 h1).s0 (ix2 p q) = ((0 : EReal) + ∑ k : Fin 256, xb0 V c t (ix2 p k) * xb3 V c t (ix2 k q) : EReal) := by
  rw [outs0_A_s0]
  refine (pay14_apply (xb0 V c t) (xb3 V c t) (k0_pay1 (F := Ideal)) p q).trans ?_
  rw [pay1_apply]

/-- Accumulator 0 where k = 1, 2: what it held plus the product of the point's blocks. -/
theorem sB_0 (c : Dev nD) (t : Fin cfg0.N) (h0 : ¬t.val % 4 = 0) (h1 : ¬t.val % 4 = 3) (P : Outs0 Idealize.ShloMosaic.Ideal) (p q : Fin 256) :
    (outs0_B V c t h0 h1 P).s0 (ix2 p q) = (P.s0 (ix2 p q) + ∑ k : Fin 256, xb0 V c t (ix2 p k) * xb3 V c t (ix2 k q) : EReal) := by
  rw [outs0_B_s0]
  exact pay14_apply (xb0 V c t) (xb3 V c t) P.s0 p q

/-- Accumulator 0 where k = 3: the same step. -/
theorem sC_0 (c : Dev nD) (t : Fin cfg0.N) (h0 : ¬t.val % 4 = 0) (h1 : t.val % 4 = 3) (P : Outs0 Idealize.ShloMosaic.Ideal) (p q : Fin 256) :
    (outs0_C V c t h0 h1 P).s0 (ix2 p q) = (P.s0 (ix2 p q) + ∑ k : Fin 256, xb0 V c t (ix2 p k) * xb3 V c t (ix2 k q) : EReal) := by
  rw [outs0_C_s0]
  exact pay14_apply (xb0 V c t) (xb3 V c t) P.s0 p q

/-- Accumulator 1 (product B) where k = 0: zero plus the product of the point's blocks. -/
theorem sA_1 (c : Dev nD) (t : Fin cfg0.N) (h0 : t.val % 4 = 0) (h1 : ¬t.val % 4 = 3) (p q : Fin 256) :
    (outs0_A V c t h0 h1).s1 (ix2 p q) = ((0 : EReal) + ∑ k : Fin 256, xb0 V c t (ix2 p k) * xb5 V c t (ix2 k q) : EReal) := by
  rw [outs0_A_s1]
  refine (pay15_apply (xb0 V c t) (xb5 V c t) (k0_pay2 (F := Ideal)) p q).trans ?_
  rw [pay2_apply]

/-- Accumulator 1 where k = 1, 2: what it held plus the product of the point's blocks. -/
theorem sB_1 (c : Dev nD) (t : Fin cfg0.N) (h0 : ¬t.val % 4 = 0) (h1 : ¬t.val % 4 = 3) (P : Outs0 Idealize.ShloMosaic.Ideal) (p q : Fin 256) :
    (outs0_B V c t h0 h1 P).s1 (ix2 p q) = (P.s1 (ix2 p q) + ∑ k : Fin 256, xb0 V c t (ix2 p k) * xb5 V c t (ix2 k q) : EReal) := by
  rw [outs0_B_s1]
  exact pay15_apply (xb0 V c t) (xb5 V c t) P.s1 p q

/-- Accumulator 1 where k = 3: the same step. -/
theorem sC_1 (c : Dev nD) (t : Fin cfg0.N) (h0 : ¬t.val % 4 = 0) (h1 : t.val % 4 = 3) (P : Outs0 Idealize.ShloMosaic.Ideal) (p q : Fin 256) :
    (outs0_C V c t h0 h1 P).s1 (ix2 p q) = (P.s1 (ix2 p q) + ∑ k : Fin 256, xb0 V c t (ix2 p k) * xb5 V c t (ix2 k q) : EReal) := by
  rw [outs0_C_s1]
  exact pay15_apply (xb0 V c t) (xb5 V c t) P.s1 p q

/-- Accumulator 2 (product C) where k = 0: zero plus the product of the point's blocks. -/
theorem sA_2 (c : Dev nD) (t : Fin cfg0.N) (h0 : t.val % 4 = 0) (h1 : ¬t.val % 4 = 3) (p q : Fin 256) :
    (outs0_A V c t h0 h1).s2 (ix2 p q) = ((0 : EReal) + ∑ k : Fin 256, xb0 V c t (ix2 p k) * xb1 V c t (ix2 k q) : EReal) := by
  rw [outs0_A_s2]
  refine (pay16_apply (k0_pay8 (F := Ideal) (xb0 V c t)) (k0_pay9 (F := Ideal) (xb1 V c t)) (k0_pay3 (F := Ideal)) p q).trans ?_
  rw [pay3_apply]
  rfl

/-- Accumulator 2 where k = 1, 2: what it held plus the product of the point's blocks. -/
theorem sB_2 (c : Dev nD) (t : Fin cfg0.N) (h0 : ¬t.val % 4 = 0) (h1 : ¬t.val % 4 = 3) (P : Outs0 Idealize.ShloMosaic.Ideal) (p q : Fin 256) :
    (outs0_B V c t h0 h1 P).s2 (ix2 p q) = (P.s2 (ix2 p q) + ∑ k : Fin 256, xb0 V c t (ix2 p k) * xb1 V c t (ix2 k q) : EReal) := by
  rw [outs0_B_s2]
  exact pay16_apply (k0_pay8 (F := Ideal) (xb0 V c t)) (k0_pay9 (F := Ideal) (xb1 V c t)) P.s2 p q

/-- Accumulator 2 where k = 3: the same step. -/
theorem sC_2 (c : Dev nD) (t : Fin cfg0.N) (h0 : ¬t.val % 4 = 0) (h1 : t.val % 4 = 3) (P : Outs0 Idealize.ShloMosaic.Ideal) (p q : Fin 256) :
    (outs0_C V c t h0 h1 P).s2 (ix2 p q) = (P.s2 (ix2 p q) + ∑ k : Fin 256, xb0 V c t (ix2 p k) * xb1 V c t (ix2 k q) : EReal) := by
  rw [outs0_C_s2]
  exact pay16_apply (k0_pay8 (F := Ideal) (xb0 V c t)) (k0_pay9 (F := Ideal) (xb1 V c t)) P.s2 p q

/-- Accumulator 3 (product D) where k = 0: zero plus the product of the point's blocks. -/
theorem sA_3 (c : Dev nD) (t : Fin cfg0.N) (h0 : t.val % 4 = 0) (h1 : ¬t.val % 4 = 3) (p q : Fin 256) :
    (outs0_A V c t h0 h1).s3 (ix2 p q) = ((0 : EReal) + ∑ k : Fin 256, xb2 V c t (ix2 p k) * xb1 V c t (ix2 k q) : EReal) := by
  rw [outs0_A_s3]
  refine (pay17_apply (k0_pay10 (F := Ideal) (xb2 V c t)) (k0_pay9 (F := Ideal) (xb1 V c t)) (k0_pay4 (F := Ideal)) p q).trans ?_
  rw [pay4_apply]
  rfl

/-- Accumulator 3 where k = 1, 2: what it held plus the product of the point's blocks. -/
theorem sB_3 (c : Dev nD) (t : Fin cfg0.N) (h0 : ¬t.val % 4 = 0) (h1 : ¬t.val % 4 = 3) (P : Outs0 Idealize.ShloMosaic.Ideal) (p q : Fin 256) :
    (outs0_B V c t h0 h1 P).s3 (ix2 p q) = (P.s3 (ix2 p q) + ∑ k : Fin 256, xb2 V c t (ix2 p k) * xb1 V c t (ix2 k q) : EReal) := by
  rw [outs0_B_s3]
  exact pay17_apply (k0_pay10 (F := Ideal) (xb2 V c t)) (k0_pay9 (F := Ideal) (xb1 V c t)) P.s3 p q

/-- Accumulator 3 where k = 3: the same step. -/
theorem sC_3 (c : Dev nD) (t : Fin cfg0.N) (h0 : ¬t.val % 4 = 0) (h1 : t.val % 4 = 3) (P : Outs0 Idealize.ShloMosaic.Ideal) (p q : Fin 256) :
    (outs0_C V c t h0 h1 P).s3 (ix2 p q) = (P.s3 (ix2 p q) + ∑ k : Fin 256, xb2 V c t (ix2 p k) * xb1 V c t (ix2 k q) : EReal) := by
  rw [outs0_C_s3]
  exact pay17_apply (k0_pay10 (F := Ideal) (xb2 V c t)) (k0_pay9 (F := Ideal) (xb1 V c t)) P.s3 p q

/-- Accumulator 4 (product E) where k = 0: zero plus the product of the point's blocks. -/
theorem sA_4 (c : Dev nD) (t : Fin cfg0.N) (h0 : t.val % 4 = 0) (h1 : ¬t.val % 4 = 3) (p q : Fin 256) :
    (outs0_A V c t h0 h1).s4 (ix2 p q) = ((0 : EReal) + ∑ k : Fin 256, xb2 V c t (ix2 p k) * xb3 V c t (ix2 k q) : EReal) := by
  rw [outs0_A_s4]
  refine (pay18_apply (k0_pay10 (F := Ideal) (xb2 V c t)) (k0_pay11 (F := Ideal) (xb3 V c t)) (k0_pay5 (F := Ideal)) p q).trans ?_
  rw [pay5_apply]
  rfl

/-- Accumulator 4 where k = 1, 2: what it held plus the product of the point's blocks. -/
theorem sB_4 (c : Dev nD) (t : Fin cfg0.N) (h0 : ¬t.val % 4 = 0) (h1 : ¬t.val % 4 = 3) (P : Outs0 Idealize.ShloMosaic.Ideal) (p q : Fin 256) :
    (outs0_B V c t h0 h1 P).s4 (ix2 p q) = (P.s4 (ix2 p q) + ∑ k : Fin 256, xb2 V c t (ix2 p k) * xb3 V c t (ix2 k q) : EReal) := by
  rw [outs0_B_s4]
  exact pay18_apply (k0_pay10 (F := Ideal) (xb2 V c t)) (k0_pay11 (F := Ideal) (xb3 V c t)) P.s4 p q

/-- Accumulator 4 where k = 3: the same step. -/
theorem sC_4 (c : Dev nD) (t : Fin cfg0.N) (h0 : ¬t.val % 4 = 0) (h1 : t.val % 4 = 3) (P : Outs0 Idealize.ShloMosaic.Ideal) (p q : Fin 256) :
    (outs0_C V c t h0 h1 P).s4 (ix2 p q) = (P.s4 (ix2 p q) + ∑ k : Fin 256, xb2 V c t (ix2 p k) * xb3 V c t (ix2 k q) : EReal) := by
  rw [outs0_C_s4]
  exact pay18_apply (k0_pay10 (F := Ideal) (xb2 V c t)) (k0_pay11 (F := Ideal) (xb3 V c t)) P.s4 p q

/-- Accumulator 5 (product F) where k = 0: zero plus the product of the point's blocks. -/
theorem sA_5 (c : Dev nD) (t : Fin cfg0.N) (h0 : t.val % 4 = 0) (h1 : ¬t.val % 4 = 3) (p q : Fin 256) :
    (outs0_A V c t h0 h1).s5 (ix2 p q) = ((0 : EReal) + ∑ k : Fin 256, xb2 V c t (ix2 p k) * xb5 V c t (ix2 k q) : EReal) := by
  rw [outs0_A_s5]
  refine (pay19_apply (k0_pay10 (F := Ideal) (xb2 V c t)) (k0_pay13 (F := Ideal) (xb5 V c t)) (k0_pay6 (F := Ideal)) p q).trans ?_
  rw [pay6_apply]
  rfl

/-- Accumulator 5 where k = 1, 2: what it held plus the product of the point's blocks. -/
theorem sB_5 (c : Dev nD) (t : Fin cfg0.N) (h0 : ¬t.val % 4 = 0) (h1 : ¬t.val % 4 = 3) (P : Outs0 Idealize.ShloMosaic.Ideal) (p q : Fin 256) :
    (outs0_B V c t h0 h1 P).s5 (ix2 p q) = (P.s5 (ix2 p q) + ∑ k : Fin 256, xb2 V c t (ix2 p k) * xb5 V c t (ix2 k q) : EReal) := by
  rw [outs0_B_s5]
  exact pay19_apply (k0_pay10 (F := Ideal) (xb2 V c t)) (k0_pay13 (F := Ideal) (xb5 V c t)) P.s5 p q

/-- Accumulator 5 where k = 3: the same step. -/
theorem sC_5 (c : Dev nD) (t : Fin cfg0.N) (h0 : ¬t.val % 4 = 0) (h1 : t.val % 4 = 3) (P : Outs0 Idealize.ShloMosaic.Ideal) (p q : Fin 256) :
    (outs0_C V c t h0 h1 P).s5 (ix2 p q) = (P.s5 (ix2 p q) + ∑ k : Fin 256, xb2 V c t (ix2 p k) * xb5 V c t (ix2 k q) : EReal) := by
  rw [outs0_C_s5]
  exact pay19_apply (k0_pay10 (F := Ideal) (xb2 V c t)) (k0_pay13 (F := Ideal) (xb5 V c t)) P.s5 p q

/-- Accumulator 6 (product G) where k = 0: zero plus the product of the point's blocks. -/
theorem sA_6 (c : Dev nD) (t : Fin cfg0.N) (h0 : t.val % 4 = 0) (h1 : ¬t.val % 4 = 3) (p q : Fin 256) :
    (outs0_A V c t h0 h1).s6 (ix2 p q) = ((0 : EReal) + ∑ k : Fin 256, xb4 V c t (ix2 p k) * xb3 V c t (ix2 k q) : EReal) := by
  rw [outs0_A_s6]
  refine (pay20_apply (k0_pay12 (F := Ideal) (xb4 V c t)) (k0_pay11 (F := Ideal) (xb3 V c t)) (k0_pay7 (F := Ideal)) p q).trans ?_
  rw [pay7_apply]
  rfl

/-- Accumulator 6 where k = 1, 2: what it held plus the product of the point's blocks. -/
theorem sB_6 (c : Dev nD) (t : Fin cfg0.N) (h0 : ¬t.val % 4 = 0) (h1 : ¬t.val % 4 = 3) (P : Outs0 Idealize.ShloMosaic.Ideal) (p q : Fin 256) :
    (outs0_B V c t h0 h1 P).s6 (ix2 p q) = (P.s6 (ix2 p q) + ∑ k : Fin 256, xb4 V c t (ix2 p k) * xb3 V c t (ix2 k q) : EReal) := by
  rw [outs0_B_s6]
  exact pay20_apply (k0_pay12 (F := Ideal) (xb4 V c t)) (k0_pay11 (F := Ideal) (xb3 V c t)) P.s6 p q

/-- Accumulator 6 where k = 3: the same step. -/
theorem sC_6 (c : Dev nD) (t : Fin cfg0.N) (h0 : ¬t.val % 4 = 0) (h1 : t.val % 4 = 3) (P : Outs0 Idealize.ShloMosaic.Ideal) (p q : Fin 256) :
    (outs0_C V c t h0 h1 P).s6 (ix2 p q) = (P.s6 (ix2 p q) + ∑ k : Fin 256, xb4 V c t (ix2 p k) * xb3 V c t (ix2 k q) : EReal) := by
  rw [outs0_C_s6]
  exact pay20_apply (k0_pay12 (F := Ideal) (xb4 V c t)) (k0_pay11 (F := Ideal) (xb3 V c t)) P.s6 p q

/-! ## The accumulators after each point -/

/-- Accumulator 0 after point n holds the first n mod 4 + 1 block shares of product A's entry. -/
theorem inv_0 (c : Dev nD) (n : ℕ) (h : n < 64) (p q : Fin 256) :
    (outsAt0 V c n (lt64 h)).s0 (ix2 p q) = partialSum (arr0 V c) (arr1 V c) (n / 16) (n / 4 % 4) (n % 4 + 1) p q :=
  acc_invariant (arr0 V c) (arr1 V c) (fun n h => (outsAt0 V c n (lt64 h)).s0)
    (fun n h => xb0 V c ⟨n, lt64 h⟩) (fun n h => xb3 V c ⟨n, lt64 h⟩)
    (fun n h h0 p q => by
      show (outsAt0 V c n (lt64 h)).s0 (ix2 p q) = _
      rw [show outsAt0 V c n (lt64 h) = _ from outsAt0_A V c ⟨n, lt64 h⟩ h0 (by show ¬n % 4 = 3; omega)]
      exact sA_0 V c ⟨n, lt64 h⟩ h0 _ p q)
    (fun n h h' hn0 p q => by
      show (outsAt0 V c n (lt64 h)).s0 (ix2 p q) = (outsAt0 V c (n - 1) (lt64 h')).s0 (ix2 p q) + _
      by_cases h3 : n % 4 = 3
      · rw [show outsAt0 V c n (lt64 h) = _ from outsAt0_C V c ⟨n, lt64 h⟩ hn0 h3]
        exact sC_0 V c ⟨n, lt64 h⟩ hn0 h3 _ p q
      · rw [show outsAt0 V c n (lt64 h) = _ from outsAt0_B V c ⟨n, lt64 h⟩ hn0 h3]
        exact sB_0 V c ⟨n, lt64 h⟩ hn0 h3 _ p q)
    (fun n h p r => xb0_apply V c ⟨n, lt64 h⟩ p r)
    (fun n h r q => xb3_apply V c ⟨n, lt64 h⟩ r q)
    n h p q

/-- Accumulator 1 after point n holds the first n mod 4 + 1 block shares of product B's entry. -/
theorem inv_1 (c : Dev nD) (n : ℕ) (h : n < 64) (p q : Fin 256) :
    (outsAt0 V c n (lt64 h)).s1 (ix2 p q) = partialSum (arr0 V c) (arr2 V c) (n / 16) (n / 4 % 4) (n % 4 + 1) p q :=
  acc_invariant (arr0 V c) (arr2 V c) (fun n h => (outsAt0 V c n (lt64 h)).s1)
    (fun n h => xb0 V c ⟨n, lt64 h⟩) (fun n h => xb5 V c ⟨n, lt64 h⟩)
    (fun n h h0 p q => by
      show (outsAt0 V c n (lt64 h)).s1 (ix2 p q) = _
      rw [show outsAt0 V c n (lt64 h) = _ from outsAt0_A V c ⟨n, lt64 h⟩ h0 (by show ¬n % 4 = 3; omega)]
      exact sA_1 V c ⟨n, lt64 h⟩ h0 _ p q)
    (fun n h h' hn0 p q => by
      show (outsAt0 V c n (lt64 h)).s1 (ix2 p q) = (outsAt0 V c (n - 1) (lt64 h')).s1 (ix2 p q) + _
      by_cases h3 : n % 4 = 3
      · rw [show outsAt0 V c n (lt64 h) = _ from outsAt0_C V c ⟨n, lt64 h⟩ hn0 h3]
        exact sC_1 V c ⟨n, lt64 h⟩ hn0 h3 _ p q
      · rw [show outsAt0 V c n (lt64 h) = _ from outsAt0_B V c ⟨n, lt64 h⟩ hn0 h3]
        exact sB_1 V c ⟨n, lt64 h⟩ hn0 h3 _ p q)
    (fun n h p r => xb0_apply V c ⟨n, lt64 h⟩ p r)
    (fun n h r q => xb5_apply V c ⟨n, lt64 h⟩ r q)
    n h p q

/-- Accumulator 2 after point n holds the first n mod 4 + 1 block shares of product C's entry. -/
theorem inv_2 (c : Dev nD) (n : ℕ) (h : n < 64) (p q : Fin 256) :
    (outsAt0 V c n (lt64 h)).s2 (ix2 p q) = partialSum (arr0 V c) (arr0 V c) (n / 16) (n / 4 % 4) (n % 4 + 1) p q :=
  acc_invariant (arr0 V c) (arr0 V c) (fun n h => (outsAt0 V c n (lt64 h)).s2)
    (fun n h => xb0 V c ⟨n, lt64 h⟩) (fun n h => xb1 V c ⟨n, lt64 h⟩)
    (fun n h h0 p q => by
      show (outsAt0 V c n (lt64 h)).s2 (ix2 p q) = _
      rw [show outsAt0 V c n (lt64 h) = _ from outsAt0_A V c ⟨n, lt64 h⟩ h0 (by show ¬n % 4 = 3; omega)]
      exact sA_2 V c ⟨n, lt64 h⟩ h0 _ p q)
    (fun n h h' hn0 p q => by
      show (outsAt0 V c n (lt64 h)).s2 (ix2 p q) = (outsAt0 V c (n - 1) (lt64 h')).s2 (ix2 p q) + _
      by_cases h3 : n % 4 = 3
      · rw [show outsAt0 V c n (lt64 h) = _ from outsAt0_C V c ⟨n, lt64 h⟩ hn0 h3]
        exact sC_2 V c ⟨n, lt64 h⟩ hn0 h3 _ p q
      · rw [show outsAt0 V c n (lt64 h) = _ from outsAt0_B V c ⟨n, lt64 h⟩ hn0 h3]
        exact sB_2 V c ⟨n, lt64 h⟩ hn0 h3 _ p q)
    (fun n h p r => xb0_apply V c ⟨n, lt64 h⟩ p r)
    (fun n h r q => xb1_apply V c ⟨n, lt64 h⟩ r q)
    n h p q

/-- Accumulator 3 after point n holds the first n mod 4 + 1 block shares of product D's entry. -/
theorem inv_3 (c : Dev nD) (n : ℕ) (h : n < 64) (p q : Fin 256) :
    (outsAt0 V c n (lt64 h)).s3 (ix2 p q) = partialSum (arr1 V c) (arr0 V c) (n / 16) (n / 4 % 4) (n % 4 + 1) p q :=
  acc_invariant (arr1 V c) (arr0 V c) (fun n h => (outsAt0 V c n (lt64 h)).s3)
    (fun n h => xb2 V c ⟨n, lt64 h⟩) (fun n h => xb1 V c ⟨n, lt64 h⟩)
    (fun n h h0 p q => by
      show (outsAt0 V c n (lt64 h)).s3 (ix2 p q) = _
      rw [show outsAt0 V c n (lt64 h) = _ from outsAt0_A V c ⟨n, lt64 h⟩ h0 (by show ¬n % 4 = 3; omega)]
      exact sA_3 V c ⟨n, lt64 h⟩ h0 _ p q)
    (fun n h h' hn0 p q => by
      show (outsAt0 V c n (lt64 h)).s3 (ix2 p q) = (outsAt0 V c (n - 1) (lt64 h')).s3 (ix2 p q) + _
      by_cases h3 : n % 4 = 3
      · rw [show outsAt0 V c n (lt64 h) = _ from outsAt0_C V c ⟨n, lt64 h⟩ hn0 h3]
        exact sC_3 V c ⟨n, lt64 h⟩ hn0 h3 _ p q
      · rw [show outsAt0 V c n (lt64 h) = _ from outsAt0_B V c ⟨n, lt64 h⟩ hn0 h3]
        exact sB_3 V c ⟨n, lt64 h⟩ hn0 h3 _ p q)
    (fun n h p r => xb2_apply V c ⟨n, lt64 h⟩ p r)
    (fun n h r q => xb1_apply V c ⟨n, lt64 h⟩ r q)
    n h p q

/-- Accumulator 4 after point n holds the first n mod 4 + 1 block shares of product E's entry. -/
theorem inv_4 (c : Dev nD) (n : ℕ) (h : n < 64) (p q : Fin 256) :
    (outsAt0 V c n (lt64 h)).s4 (ix2 p q) = partialSum (arr1 V c) (arr1 V c) (n / 16) (n / 4 % 4) (n % 4 + 1) p q :=
  acc_invariant (arr1 V c) (arr1 V c) (fun n h => (outsAt0 V c n (lt64 h)).s4)
    (fun n h => xb2 V c ⟨n, lt64 h⟩) (fun n h => xb3 V c ⟨n, lt64 h⟩)
    (fun n h h0 p q => by
      show (outsAt0 V c n (lt64 h)).s4 (ix2 p q) = _
      rw [show outsAt0 V c n (lt64 h) = _ from outsAt0_A V c ⟨n, lt64 h⟩ h0 (by show ¬n % 4 = 3; omega)]
      exact sA_4 V c ⟨n, lt64 h⟩ h0 _ p q)
    (fun n h h' hn0 p q => by
      show (outsAt0 V c n (lt64 h)).s4 (ix2 p q) = (outsAt0 V c (n - 1) (lt64 h')).s4 (ix2 p q) + _
      by_cases h3 : n % 4 = 3
      · rw [show outsAt0 V c n (lt64 h) = _ from outsAt0_C V c ⟨n, lt64 h⟩ hn0 h3]
        exact sC_4 V c ⟨n, lt64 h⟩ hn0 h3 _ p q
      · rw [show outsAt0 V c n (lt64 h) = _ from outsAt0_B V c ⟨n, lt64 h⟩ hn0 h3]
        exact sB_4 V c ⟨n, lt64 h⟩ hn0 h3 _ p q)
    (fun n h p r => xb2_apply V c ⟨n, lt64 h⟩ p r)
    (fun n h r q => xb3_apply V c ⟨n, lt64 h⟩ r q)
    n h p q

/-- Accumulator 5 after point n holds the first n mod 4 + 1 block shares of product F's entry. -/
theorem inv_5 (c : Dev nD) (n : ℕ) (h : n < 64) (p q : Fin 256) :
    (outsAt0 V c n (lt64 h)).s5 (ix2 p q) = partialSum (arr1 V c) (arr2 V c) (n / 16) (n / 4 % 4) (n % 4 + 1) p q :=
  acc_invariant (arr1 V c) (arr2 V c) (fun n h => (outsAt0 V c n (lt64 h)).s5)
    (fun n h => xb2 V c ⟨n, lt64 h⟩) (fun n h => xb5 V c ⟨n, lt64 h⟩)
    (fun n h h0 p q => by
      show (outsAt0 V c n (lt64 h)).s5 (ix2 p q) = _
      rw [show outsAt0 V c n (lt64 h) = _ from outsAt0_A V c ⟨n, lt64 h⟩ h0 (by show ¬n % 4 = 3; omega)]
      exact sA_5 V c ⟨n, lt64 h⟩ h0 _ p q)
    (fun n h h' hn0 p q => by
      show (outsAt0 V c n (lt64 h)).s5 (ix2 p q) = (outsAt0 V c (n - 1) (lt64 h')).s5 (ix2 p q) + _
      by_cases h3 : n % 4 = 3
      · rw [show outsAt0 V c n (lt64 h) = _ from outsAt0_C V c ⟨n, lt64 h⟩ hn0 h3]
        exact sC_5 V c ⟨n, lt64 h⟩ hn0 h3 _ p q
      · rw [show outsAt0 V c n (lt64 h) = _ from outsAt0_B V c ⟨n, lt64 h⟩ hn0 h3]
        exact sB_5 V c ⟨n, lt64 h⟩ hn0 h3 _ p q)
    (fun n h p r => xb2_apply V c ⟨n, lt64 h⟩ p r)
    (fun n h r q => xb5_apply V c ⟨n, lt64 h⟩ r q)
    n h p q

/-- Accumulator 6 after point n holds the first n mod 4 + 1 block shares of product G's entry. -/
theorem inv_6 (c : Dev nD) (n : ℕ) (h : n < 64) (p q : Fin 256) :
    (outsAt0 V c n (lt64 h)).s6 (ix2 p q) = partialSum (arr2 V c) (arr1 V c) (n / 16) (n / 4 % 4) (n % 4 + 1) p q :=
  acc_invariant (arr2 V c) (arr1 V c) (fun n h => (outsAt0 V c n (lt64 h)).s6)
    (fun n h => xb4 V c ⟨n, lt64 h⟩) (fun n h => xb3 V c ⟨n, lt64 h⟩)
    (fun n h h0 p q => by
      show (outsAt0 V c n (lt64 h)).s6 (ix2 p q) = _
      rw [show outsAt0 V c n (lt64 h) = _ from outsAt0_A V c ⟨n, lt64 h⟩ h0 (by show ¬n % 4 = 3; omega)]
      exact sA_6 V c ⟨n, lt64 h⟩ h0 _ p q)
    (fun n h h' hn0 p q => by
      show (outsAt0 V c n (lt64 h)).s6 (ix2 p q) = (outsAt0 V c (n - 1) (lt64 h')).s6 (ix2 p q) + _
      by_cases h3 : n % 4 = 3
      · rw [show outsAt0 V c n (lt64 h) = _ from outsAt0_C V c ⟨n, lt64 h⟩ hn0 h3]
        exact sC_6 V c ⟨n, lt64 h⟩ hn0 h3 _ p q
      · rw [show outsAt0 V c n (lt64 h) = _ from outsAt0_B V c ⟨n, lt64 h⟩ hn0 h3]
        exact sB_6 V c ⟨n, lt64 h⟩ hn0 h3 _ p q)
    (fun n h p r => xb4_apply V c ⟨n, lt64 h⟩ p r)
    (fun n h r q => xb3_apply V c ⟨n, lt64 h⟩ r q)
    n h p q

/-! ## What a point with k = 3 writes back, and the arrays after the run -/

/-- A block whose entry (p, q) is entry (256 I + p, 256 J + q) of G, where (I, J) is window 6's block index at t, is G
    read through window 6's block at t. -/
theorem cut_eq_read_6 (t : Fin cfg0.N) (X : Vec Ideal S256x256 .f32) (G : Vec Ideal S1024x1024 .f32) (I J : ℕ)
    (hI : win0_6.index t (0 : Fin 2) = I) (hJ : win0_6.index t (1 : Fin 2) = J) (hI4 : I < 4) (hJ4 : J < 4)
    (h : ∀ p q : Fin 256, X (ix2 p q) = G (ix2 (at1024 (256 * I + p.val)) (at1024 (256 * J + q.val)))) :
    (cfg0.win 6).cut (grid0.coords t) X = ((cfg0.win 6).blk t).view.read (Elt Ideal) G := by
  funext y
  show X y = G (((cfg0.win 6).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_6.index t (0 : Fin 2) * 256 + 1 * (y 0).val; rw [hI]; omega
  | ⟨1, _⟩ => show (256 * J + (y 1).val) % 1024 = win0_6.index t (1 : Fin 2) * 256 + 1 * (y 1).val; rw [hJ]; omega

/-- Product A of the argument arrays, entry by entry. -/
abbrev prod_0 (c : Dev nD) : Vec Ideal S1024x1024 .f32 := fun i => Cert.Spec.mm (arr0 V c) (arr1 V c) (i 0) (i 1)

/-- What a point with k = 3 writes back to output window 6's array is its block of product A. -/
theorem flushed0_6_eq (c : Dev nD) (t : Fin cfg0.N) (hf : (cfg0.win 6).flush t = true) :
    (dat0 V c).flushed 6 t = ((cfg0.win 6).blk t).view.read (Elt Ideal) (prod_0 V c) := by
  have h3 : t.val % 4 = 3 := (flush0_6 t).mp hf
  have ht : t.val < 64 := lt_64 t
  show (cfg0.win 6).cut (grid0.coords t) ((dat0 V c).after 6 t) = _
  rw [after0_6]
  refine cut_eq_read_6 t _ (prod_0 V c) (t.val / 16) (t.val / 4 % 4) (idx0_6_0 t) (idx0_6_1 t) (by omega) (by omega)
    (fun p q => ?_)
  have e : (outsAt0 V c t.val t.isLt).o6 = (outsAt0 V c t.val t.isLt).s0 := by
    rw [outsAt0_C V c t (by omega) h3]
    exact outs0_C_o6_eq_s0 V c t _ h3 _
  rw [e]
  refine (inv_0 V c t.val ht p q).trans ?_
  rw [h3]
  exact partialSum_four (arr0 V c) (arr1 V c) _ _ p q

/-- After the run output window 6's array is product A. -/
theorem final0_A (c : Dev nD) :
    (dat0 V c).arrAt 6 cfg0.N = fun i => Cert.Spec.mm (V c main_arg0) (V c main_arg1) (i 0) (i 1) :=
  (dat0 V c).arrAt_eq_of_cover 6 (prod_0 V c) (flushed0_6_eq V c) (cover0_6 c)

/-- A block whose entry (p, q) is entry (256 I + p, 256 J + q) of G, where (I, J) is window 7's block index at t, is G
    read through window 7's block at t. -/
theorem cut_eq_read_7 (t : Fin cfg0.N) (X : Vec Ideal S256x256 .f32) (G : Vec Ideal S1024x1024 .f32) (I J : ℕ)
    (hI : win0_7.index t (0 : Fin 2) = I) (hJ : win0_7.index t (1 : Fin 2) = J) (hI4 : I < 4) (hJ4 : J < 4)
    (h : ∀ p q : Fin 256, X (ix2 p q) = G (ix2 (at1024 (256 * I + p.val)) (at1024 (256 * J + q.val)))) :
    (cfg0.win 7).cut (grid0.coords t) X = ((cfg0.win 7).blk t).view.read (Elt Ideal) G := by
  funext y
  show X y = G (((cfg0.win 7).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_7.index t (0 : Fin 2) * 256 + 1 * (y 0).val; rw [hI]; omega
  | ⟨1, _⟩ => show (256 * J + (y 1).val) % 1024 = win0_7.index t (1 : Fin 2) * 256 + 1 * (y 1).val; rw [hJ]; omega

/-- Product B of the argument arrays, entry by entry. -/
abbrev prod_1 (c : Dev nD) : Vec Ideal S1024x1024 .f32 := fun i => Cert.Spec.mm (arr0 V c) (arr2 V c) (i 0) (i 1)

/-- What a point with k = 3 writes back to output window 7's array is its block of product B. -/
theorem flushed0_7_eq (c : Dev nD) (t : Fin cfg0.N) (hf : (cfg0.win 7).flush t = true) :
    (dat0 V c).flushed 7 t = ((cfg0.win 7).blk t).view.read (Elt Ideal) (prod_1 V c) := by
  have h3 : t.val % 4 = 3 := (flush0_7 t).mp hf
  have ht : t.val < 64 := lt_64 t
  show (cfg0.win 7).cut (grid0.coords t) ((dat0 V c).after 7 t) = _
  rw [after0_7]
  refine cut_eq_read_7 t _ (prod_1 V c) (t.val / 16) (t.val / 4 % 4) (idx0_7_0 t) (idx0_7_1 t) (by omega) (by omega)
    (fun p q => ?_)
  have e : (outsAt0 V c t.val t.isLt).o7 = (outsAt0 V c t.val t.isLt).s1 := by
    rw [outsAt0_C V c t (by omega) h3]
    exact outs0_C_o7_eq_s1 V c t _ h3 _
  rw [e]
  refine (inv_1 V c t.val ht p q).trans ?_
  rw [h3]
  exact partialSum_four (arr0 V c) (arr2 V c) _ _ p q

/-- After the run output window 7's array is product B. -/
theorem final0_B (c : Dev nD) :
    (dat0 V c).arrAt 7 cfg0.N = fun i => Cert.Spec.mm (V c main_arg0) (V c main_arg2) (i 0) (i 1) :=
  (dat0 V c).arrAt_eq_of_cover 7 (prod_1 V c) (flushed0_7_eq V c) (cover0_7 c)

/-- A block whose entry (p, q) is entry (256 I + p, 256 J + q) of G, where (I, J) is window 8's block index at t, is G
    read through window 8's block at t. -/
theorem cut_eq_read_8 (t : Fin cfg0.N) (X : Vec Ideal S256x256 .f32) (G : Vec Ideal S1024x1024 .f32) (I J : ℕ)
    (hI : win0_8.index t (0 : Fin 2) = I) (hJ : win0_8.index t (1 : Fin 2) = J) (hI4 : I < 4) (hJ4 : J < 4)
    (h : ∀ p q : Fin 256, X (ix2 p q) = G (ix2 (at1024 (256 * I + p.val)) (at1024 (256 * J + q.val)))) :
    (cfg0.win 8).cut (grid0.coords t) X = ((cfg0.win 8).blk t).view.read (Elt Ideal) G := by
  funext y
  show X y = G (((cfg0.win 8).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_8.index t (0 : Fin 2) * 256 + 1 * (y 0).val; rw [hI]; omega
  | ⟨1, _⟩ => show (256 * J + (y 1).val) % 1024 = win0_8.index t (1 : Fin 2) * 256 + 1 * (y 1).val; rw [hJ]; omega

/-- Product C of the argument arrays, entry by entry. -/
abbrev prod_2 (c : Dev nD) : Vec Ideal S1024x1024 .f32 := fun i => Cert.Spec.mm (arr0 V c) (arr0 V c) (i 0) (i 1)

/-- What a point with k = 3 writes back to output window 8's array is its block of product C. -/
theorem flushed0_8_eq (c : Dev nD) (t : Fin cfg0.N) (hf : (cfg0.win 8).flush t = true) :
    (dat0 V c).flushed 8 t = ((cfg0.win 8).blk t).view.read (Elt Ideal) (prod_2 V c) := by
  have h3 : t.val % 4 = 3 := (flush0_8 t).mp hf
  have ht : t.val < 64 := lt_64 t
  show (cfg0.win 8).cut (grid0.coords t) ((dat0 V c).after 8 t) = _
  rw [after0_8]
  refine cut_eq_read_8 t _ (prod_2 V c) (t.val / 16) (t.val / 4 % 4) (idx0_8_0 t) (idx0_8_1 t) (by omega) (by omega)
    (fun p q => ?_)
  have e : (outsAt0 V c t.val t.isLt).o8 = (outsAt0 V c t.val t.isLt).s2 := by
    rw [outsAt0_C V c t (by omega) h3]
    exact outs0_C_o8_eq_s2 V c t _ h3 _
  rw [e]
  refine (inv_2 V c t.val ht p q).trans ?_
  rw [h3]
  exact partialSum_four (arr0 V c) (arr0 V c) _ _ p q

/-- After the run output window 8's array is product C. -/
theorem final0_C (c : Dev nD) :
    (dat0 V c).arrAt 8 cfg0.N = fun i => Cert.Spec.mm (V c main_arg0) (V c main_arg0) (i 0) (i 1) :=
  (dat0 V c).arrAt_eq_of_cover 8 (prod_2 V c) (flushed0_8_eq V c) (cover0_8 c)

/-- A block whose entry (p, q) is entry (256 I + p, 256 J + q) of G, where (I, J) is window 9's block index at t, is G
    read through window 9's block at t. -/
theorem cut_eq_read_9 (t : Fin cfg0.N) (X : Vec Ideal S256x256 .f32) (G : Vec Ideal S1024x1024 .f32) (I J : ℕ)
    (hI : win0_9.index t (0 : Fin 2) = I) (hJ : win0_9.index t (1 : Fin 2) = J) (hI4 : I < 4) (hJ4 : J < 4)
    (h : ∀ p q : Fin 256, X (ix2 p q) = G (ix2 (at1024 (256 * I + p.val)) (at1024 (256 * J + q.val)))) :
    (cfg0.win 9).cut (grid0.coords t) X = ((cfg0.win 9).blk t).view.read (Elt Ideal) G := by
  funext y
  show X y = G (((cfg0.win 9).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_9.index t (0 : Fin 2) * 256 + 1 * (y 0).val; rw [hI]; omega
  | ⟨1, _⟩ => show (256 * J + (y 1).val) % 1024 = win0_9.index t (1 : Fin 2) * 256 + 1 * (y 1).val; rw [hJ]; omega

/-- Product D of the argument arrays, entry by entry. -/
abbrev prod_3 (c : Dev nD) : Vec Ideal S1024x1024 .f32 := fun i => Cert.Spec.mm (arr1 V c) (arr0 V c) (i 0) (i 1)

/-- What a point with k = 3 writes back to output window 9's array is its block of product D. -/
theorem flushed0_9_eq (c : Dev nD) (t : Fin cfg0.N) (hf : (cfg0.win 9).flush t = true) :
    (dat0 V c).flushed 9 t = ((cfg0.win 9).blk t).view.read (Elt Ideal) (prod_3 V c) := by
  have h3 : t.val % 4 = 3 := (flush0_9 t).mp hf
  have ht : t.val < 64 := lt_64 t
  show (cfg0.win 9).cut (grid0.coords t) ((dat0 V c).after 9 t) = _
  rw [after0_9]
  refine cut_eq_read_9 t _ (prod_3 V c) (t.val / 16) (t.val / 4 % 4) (idx0_9_0 t) (idx0_9_1 t) (by omega) (by omega)
    (fun p q => ?_)
  have e : (outsAt0 V c t.val t.isLt).o9 = (outsAt0 V c t.val t.isLt).s3 := by
    rw [outsAt0_C V c t (by omega) h3]
    exact outs0_C_o9_eq_s3 V c t _ h3 _
  rw [e]
  refine (inv_3 V c t.val ht p q).trans ?_
  rw [h3]
  exact partialSum_four (arr1 V c) (arr0 V c) _ _ p q

/-- After the run output window 9's array is product D. -/
theorem final0_D (c : Dev nD) :
    (dat0 V c).arrAt 9 cfg0.N = fun i => Cert.Spec.mm (V c main_arg1) (V c main_arg0) (i 0) (i 1) :=
  (dat0 V c).arrAt_eq_of_cover 9 (prod_3 V c) (flushed0_9_eq V c) (cover0_9 c)

/-- A block whose entry (p, q) is entry (256 I + p, 256 J + q) of G, where (I, J) is window 10's block index at t, is G
    read through window 10's block at t. -/
theorem cut_eq_read_10 (t : Fin cfg0.N) (X : Vec Ideal S256x256 .f32) (G : Vec Ideal S1024x1024 .f32) (I J : ℕ)
    (hI : win0_10.index t (0 : Fin 2) = I) (hJ : win0_10.index t (1 : Fin 2) = J) (hI4 : I < 4) (hJ4 : J < 4)
    (h : ∀ p q : Fin 256, X (ix2 p q) = G (ix2 (at1024 (256 * I + p.val)) (at1024 (256 * J + q.val)))) :
    (cfg0.win 10).cut (grid0.coords t) X = ((cfg0.win 10).blk t).view.read (Elt Ideal) G := by
  funext y
  show X y = G (((cfg0.win 10).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_10.index t (0 : Fin 2) * 256 + 1 * (y 0).val; rw [hI]; omega
  | ⟨1, _⟩ => show (256 * J + (y 1).val) % 1024 = win0_10.index t (1 : Fin 2) * 256 + 1 * (y 1).val; rw [hJ]; omega

/-- Product E of the argument arrays, entry by entry. -/
abbrev prod_4 (c : Dev nD) : Vec Ideal S1024x1024 .f32 := fun i => Cert.Spec.mm (arr1 V c) (arr1 V c) (i 0) (i 1)

/-- What a point with k = 3 writes back to output window 10's array is its block of product E. -/
theorem flushed0_10_eq (c : Dev nD) (t : Fin cfg0.N) (hf : (cfg0.win 10).flush t = true) :
    (dat0 V c).flushed 10 t = ((cfg0.win 10).blk t).view.read (Elt Ideal) (prod_4 V c) := by
  have h3 : t.val % 4 = 3 := (flush0_10 t).mp hf
  have ht : t.val < 64 := lt_64 t
  show (cfg0.win 10).cut (grid0.coords t) ((dat0 V c).after 10 t) = _
  rw [after0_10]
  refine cut_eq_read_10 t _ (prod_4 V c) (t.val / 16) (t.val / 4 % 4) (idx0_10_0 t) (idx0_10_1 t) (by omega) (by omega)
    (fun p q => ?_)
  have e : (outsAt0 V c t.val t.isLt).o10 = (outsAt0 V c t.val t.isLt).s4 := by
    rw [outsAt0_C V c t (by omega) h3]
    exact outs0_C_o10_eq_s4 V c t _ h3 _
  rw [e]
  refine (inv_4 V c t.val ht p q).trans ?_
  rw [h3]
  exact partialSum_four (arr1 V c) (arr1 V c) _ _ p q

/-- After the run output window 10's array is product E. -/
theorem final0_E (c : Dev nD) :
    (dat0 V c).arrAt 10 cfg0.N = fun i => Cert.Spec.mm (V c main_arg1) (V c main_arg1) (i 0) (i 1) :=
  (dat0 V c).arrAt_eq_of_cover 10 (prod_4 V c) (flushed0_10_eq V c) (cover0_10 c)

/-- A block whose entry (p, q) is entry (256 I + p, 256 J + q) of G, where (I, J) is window 11's block index at t, is G
    read through window 11's block at t. -/
theorem cut_eq_read_11 (t : Fin cfg0.N) (X : Vec Ideal S256x256 .f32) (G : Vec Ideal S1024x1024 .f32) (I J : ℕ)
    (hI : win0_11.index t (0 : Fin 2) = I) (hJ : win0_11.index t (1 : Fin 2) = J) (hI4 : I < 4) (hJ4 : J < 4)
    (h : ∀ p q : Fin 256, X (ix2 p q) = G (ix2 (at1024 (256 * I + p.val)) (at1024 (256 * J + q.val)))) :
    (cfg0.win 11).cut (grid0.coords t) X = ((cfg0.win 11).blk t).view.read (Elt Ideal) G := by
  funext y
  show X y = G (((cfg0.win 11).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_11.index t (0 : Fin 2) * 256 + 1 * (y 0).val; rw [hI]; omega
  | ⟨1, _⟩ => show (256 * J + (y 1).val) % 1024 = win0_11.index t (1 : Fin 2) * 256 + 1 * (y 1).val; rw [hJ]; omega

/-- Product F of the argument arrays, entry by entry. -/
abbrev prod_5 (c : Dev nD) : Vec Ideal S1024x1024 .f32 := fun i => Cert.Spec.mm (arr1 V c) (arr2 V c) (i 0) (i 1)

/-- What a point with k = 3 writes back to output window 11's array is its block of product F. -/
theorem flushed0_11_eq (c : Dev nD) (t : Fin cfg0.N) (hf : (cfg0.win 11).flush t = true) :
    (dat0 V c).flushed 11 t = ((cfg0.win 11).blk t).view.read (Elt Ideal) (prod_5 V c) := by
  have h3 : t.val % 4 = 3 := (flush0_11 t).mp hf
  have ht : t.val < 64 := lt_64 t
  show (cfg0.win 11).cut (grid0.coords t) ((dat0 V c).after 11 t) = _
  rw [after0_11]
  refine cut_eq_read_11 t _ (prod_5 V c) (t.val / 16) (t.val / 4 % 4) (idx0_11_0 t) (idx0_11_1 t) (by omega) (by omega)
    (fun p q => ?_)
  have e : (outsAt0 V c t.val t.isLt).o11 = (outsAt0 V c t.val t.isLt).s5 := by
    rw [outsAt0_C V c t (by omega) h3]
    exact outs0_C_o11_eq_s5 V c t _ h3 _
  rw [e]
  refine (inv_5 V c t.val ht p q).trans ?_
  rw [h3]
  exact partialSum_four (arr1 V c) (arr2 V c) _ _ p q

/-- After the run output window 11's array is product F. -/
theorem final0_F (c : Dev nD) :
    (dat0 V c).arrAt 11 cfg0.N = fun i => Cert.Spec.mm (V c main_arg1) (V c main_arg2) (i 0) (i 1) :=
  (dat0 V c).arrAt_eq_of_cover 11 (prod_5 V c) (flushed0_11_eq V c) (cover0_11 c)

/-- A block whose entry (p, q) is entry (256 I + p, 256 J + q) of G, where (I, J) is window 12's block index at t, is G
    read through window 12's block at t. -/
theorem cut_eq_read_12 (t : Fin cfg0.N) (X : Vec Ideal S256x256 .f32) (G : Vec Ideal S1024x1024 .f32) (I J : ℕ)
    (hI : win0_12.index t (0 : Fin 2) = I) (hJ : win0_12.index t (1 : Fin 2) = J) (hI4 : I < 4) (hJ4 : J < 4)
    (h : ∀ p q : Fin 256, X (ix2 p q) = G (ix2 (at1024 (256 * I + p.val)) (at1024 (256 * J + q.val)))) :
    (cfg0.win 12).cut (grid0.coords t) X = ((cfg0.win 12).blk t).view.read (Elt Ideal) G := by
  funext y
  show X y = G (((cfg0.win 12).blk t).view.emb y)
  have hy0 : (y 0).val < 256 := (y 0).isLt
  have hy1 : (y 1).val < 256 := (y 1).isLt
  have e := h ⟨(y 0).val, hy0⟩ ⟨(y 1).val, hy1⟩
  have ey : y = ix2 (⟨(y 0).val, hy0⟩ : Fin 256) (⟨(y 1).val, hy1⟩ : Fin 256) := by
    funext a
    match a with
    | ⟨0, _⟩ => rfl
    | ⟨1, _⟩ => rfl
  refine (congrArg X ey).trans (e.trans (congrArg G ?_))
  funext a
  apply Fin.ext
  match a with
  | ⟨0, _⟩ => show (256 * I + (y 0).val) % 1024 = win0_12.index t (0 : Fin 2) * 256 + 1 * (y 0).val; rw [hI]; omega
  | ⟨1, _⟩ => show (256 * J + (y 1).val) % 1024 = win0_12.index t (1 : Fin 2) * 256 + 1 * (y 1).val; rw [hJ]; omega

/-- Product G of the argument arrays, entry by entry. -/
abbrev prod_6 (c : Dev nD) : Vec Ideal S1024x1024 .f32 := fun i => Cert.Spec.mm (arr2 V c) (arr1 V c) (i 0) (i 1)

/-- What a point with k = 3 writes back to output window 12's array is its block of product G. -/
theorem flushed0_12_eq (c : Dev nD) (t : Fin cfg0.N) (hf : (cfg0.win 12).flush t = true) :
    (dat0 V c).flushed 12 t = ((cfg0.win 12).blk t).view.read (Elt Ideal) (prod_6 V c) := by
  have h3 : t.val % 4 = 3 := (flush0_12 t).mp hf
  have ht : t.val < 64 := lt_64 t
  show (cfg0.win 12).cut (grid0.coords t) ((dat0 V c).after 12 t) = _
  rw [after0_12]
  refine cut_eq_read_12 t _ (prod_6 V c) (t.val / 16) (t.val / 4 % 4) (idx0_12_0 t) (idx0_12_1 t) (by omega) (by omega)
    (fun p q => ?_)
  have e : (outsAt0 V c t.val t.isLt).o12 = (outsAt0 V c t.val t.isLt).s6 := by
    rw [outsAt0_C V c t (by omega) h3]
    exact outs0_C_o12_eq_s6 V c t _ h3 _
  rw [e]
  refine (inv_6 V c t.val ht p q).trans ?_
  rw [h3]
  exact partialSum_four (arr2 V c) (arr1 V c) _ _ p q

/-- After the run output window 12's array is product G. -/
theorem final0_G (c : Dev nD) :
    (dat0 V c).arrAt 12 cfg0.N = fun i => Cert.Spec.mm (V c main_arg2) (V c main_arg1) (i 0) (i 1) :=
  (dat0 V c).arrAt_eq_of_cover 12 (prod_6 V c) (flushed0_12_eq V c) (cover0_12 c)

end Cert.KernelIdeal.Hand

end
-- ==== Proof.KI.R1Chain.lean ====
/-
  The chain at one entry. Each value the body computes is an entry-by-entry sum, difference or product of earlier
  values, so at an index y every value is the corresponding node of the specification's expression at the seven
  blocks' entries at y. The nodes are matched one at a time, in the order they are computed, so that the expression
  is never spread out into its tree form.
-/
import proofs.«173517_j27041114096025_1_alg».proof.Proof.KI.R1Run
import proofs.«173517_j27041114096025_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Cert.Spec

/-! ## The two literals -/

/-- The word 0x40000000 is the number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

theorem scalar_two : (Scalar.ofBits (F := Ideal) .f32 0x40000000#32) = (2 : EReal) := ofBits_two_f32
theorem scalar_zero : (Scalar.ofBits (F := Ideal) .f32 0x00000000#32) = (0 : EReal) := Ideal.ofBits_zero_f32

theorem hz1 : (![0, 0] : Fin 2 → Nat) = fun _ => 0 := funext fun a => by fin_cases a <;> rfl

/-! ## The first half's values at an index -/

section
variable (v0 v2 v4 v6 v8 v10 v12 : Vec Ideal S128x1024 .f32) (y : S128x1024.Idx)

/-- The loaded blocks pass through a cast between equal shapes unchanged. -/
theorem pay2_apply : k1_pay2 v0 y = v0 y := by unfold k1_pay2; simp only [shapeCast_self]
theorem pay3_apply : k1_pay3 v2 y = v2 y := by unfold k1_pay3; simp only [shapeCast_self]
theorem pay4_apply : k1_pay4 v6 y = v6 y := by unfold k1_pay4; simp only [shapeCast_self]
theorem pay5_apply : k1_pay5 v8 y = v8 y := by unfold k1_pay5; simp only [shapeCast_self]
theorem pay6_apply : k1_pay6 v10 y = v10 y := by unfold k1_pay6; simp only [shapeCast_self]
theorem pay7_apply : k1_pay7 v12 y = v12 y := by unfold k1_pay7; simp only [shapeCast_self]

/-- A + C. -/
theorem pay8_apply : k1_pay8 v0 v4 y = n10 (v0 y) (v4 y) := by
  unfold k1_pay8; simp only [addf_apply, pay2_apply, shapeCast_self]; rfl

/-- ((A + 2 B) + (A + C)) * (0 - B), and 0 - B is -B. -/
theorem pay9_apply : k1_pay9 v0 v2 v4 y = n13 (v0 y) (v2 y) (v4 y) := by
  unfold k1_pay9
  simp only [mulf_apply, addf_apply, subf_apply, broadcast_apply, pay2_apply, pay3_apply, pay8_apply, scalar_two, scalar_zero, zero_sub]
  rfl

theorem pay10_apply : k1_pay10 v0 v2 v4 v6 v12 y = n15 (v0 y) (v2 y) (v4 y) (v6 y) (v12 y) := by
  unfold k1_pay10; simp only [addf_apply, pay4_apply, pay7_apply, pay9_apply]; rfl

theorem pay11_apply : k1_pay11 v0 v2 v4 v8 v10 y = n22 (v0 y) (v2 y) (v4 y) (v8 y) (v10 y) := by
  unfold k1_pay11; simp only [mulf_apply, addf_apply, broadcast_apply, pay2_apply, pay5_apply, pay6_apply, pay9_apply, scalar_two]; rfl

theorem pay12_apply : k1_pay12 v0 v2 v4 v6 v8 v10 v12 y = n23 (v0 y) (v2 y) (v4 y) (v6 y) (v8 y) (v10 y) (v12 y) := by
  unfold k1_pay12; simp only [addf_apply, subf_apply, pay3_apply, pay4_apply, pay7_apply, pay11_apply]; rfl

theorem pay13_apply : k1_pay13 v8 v10 y = n24 (v8 y) (v10 y) := by
  unfold k1_pay13; simp only [addf_apply, pay5_apply, pay6_apply]; rfl

theorem pay14_apply : k1_pay14 v0 v4 v8 v10 y = n26 (v0 y) (v4 y) (v8 y) (v10 y) := by
  unfold k1_pay14; simp only [mulf_apply, addf_apply, pay5_apply, pay6_apply, pay8_apply]; rfl

theorem pay15_apply : k1_pay15 v0 v2 v4 v6 v8 v10 v12 y = n30 (v0 y) (v2 y) (v4 y) (v6 y) (v8 y) (v10 y) (v12 y) := by
  unfold k1_pay15; simp only [addf_apply, pay2_apply, pay9_apply, pay12_apply, pay13_apply, pay14_apply]; rfl

theorem pay16_apply : k1_pay16 v0 v2 v4 v6 v8 v10 v12 y = n31 (v0 y) (v2 y) (v4 y) (v6 y) (v8 y) (v10 y) (v12 y) := by
  unfold k1_pay16; simp only [mulf_apply, pay15_apply, pay10_apply]; rfl

theorem pay17_apply : k1_pay17 v0 v2 v4 v6 v8 v10 v12 y = n32 (v0 y) (v2 y) (v4 y) (v6 y) (v8 y) (v10 y) (v12 y) := by
  unfold k1_pay17; simp only [subf_apply, pay16_apply, pay7_apply]; rfl

theorem pay18_apply : k1_pay18 v0 v2 v4 v6 v8 v10 v12 y = n33 (v0 y) (v2 y) (v4 y) (v6 y) (v8 y) (v10 y) (v12 y) := by
  unfold k1_pay18; simp only [addf_apply, pay16_apply, pay7_apply]; rfl

end

/-! ## The second half's value at an index -/

/-- The stored value at an index, from what the first half's values are there: node by node down to the result. -/
theorem pay1_apply (v1 v3 v9 v11 v23 v30 v31 v32 v34 v38 v39 v40 v41 : FVec Ideal S128x1024 .f32) (y : S128x1024.Idx) (a b c d e f g : EReal)
    (h1 : v1 y = a) (h3 : v3 y = b) (h9 : v9 y = e) (h11 : v11 y = f) (h23 : v23 y = n15 a b c d g) (h30 : v30 y = n22 a b c e f) (h31 : v31 y = n23 a b c d e f g) (h32 : v32 y = n24 e f) (h34 : v34 y = n26 a c e f) (h38 : v38 y = n30 a b c d e f g) (h39 : v39 y = n31 a b c d e f g) (h40 : v40 y = n32 a b c d e f g) (h41 : v41 y = n33 a b c d e f g) :
    k1_pay1 v1 v3 v9 v11 v23 v30 v31 v32 v34 v38 v39 v40 v41 y = out a b c d e f g := by
  generalize hP : k1_pay1 v1 v3 v9 v11 v23 v30 v31 v32 v34 v38 v39 v40 v41 = P
  unfold k1_pay1 at hP
  extract_lets -merge v42 v43 v44 v45 v46 v47 v48 v49 v50 v51 v52 v53 v54 v55 v56 v57 v58 v59 v60 v61 v62 v63 v64 v65 v66 v67 v68 v69 v70 v71 v72 v73 v74 v75 v76 v77 v78 v79 v80 v81 v82 v83 v84 v85 v86 v87 v88 v89 v90 v91 v92 v93 v94 v95 at hP
  subst hP
  have e42 : v42 y = n34 a b c d e f g := by
    show v38 y * v31 y = _; rw [h38, h31]; rfl
  have e43 : v43 y = e + f := by
    show v9 y + v11 y = _; rw [h9, h11]
  have e44 : v44 y = n36 b e f := by
    show v3 y - v43 y = _; rw [h3, e43]; rfl
  have e45 : v45 y = n37 a b c d e f g := by
    show v39 y * v30 y = _; rw [h39, h30]; rfl
  have e46 : v46 y = (n34 a b c d e f g) + (n36 b e f) := by
    show v42 y + v44 y = _; rw [e42, e44]
  have e47 : v47 y = n39 a b c d e f g := by
    show v45 y + v46 y = _; rw [e45, e46]; rfl
  have e48 : v48 y = n40 a b c d e f g := by
    show v47 y * v23 y = _; rw [e47, h23]; rfl
  have e49 : v49 y = (n40 a b c d e f g) * f := by
    show v48 y * v11 y = _; rw [e48, h11]
  have e50 : v50 y = n42 a b c d e f g := by
    show v48 y * v9 y = _; rw [e48, h9]; rfl
  have e51 : v51 y = n43 a c e f := by
    show v34 y * v1 y = _; rw [h34, h1]; rfl
  have e52 : v52 y = (n40 a b c d e f g) - ((n40 a b c d e f g) * f) := by
    show v48 y - v49 y = _; rw [e48, e49]
  have e53 : v53 y = (n42 a b c d e f g) - e := by
    show v50 y - v9 y = _; rw [e50, h9]
  have e54 : v54 y = ((n42 a b c d e f g) - e) + (n43 a c e f) := by
    show v53 y + v51 y = _; rw [e53, e51]
  have e55 : v55 y = ((n40 a b c d e f g) - ((n40 a b c d e f g) * f)) + (((n42 a b c d e f g) - e) + (n43 a c e f)) := by
    show v52 y + v54 y = _; rw [e52, e54]
  have e56 : v56 y = n48 a b c d e f g := by
    show v41 y + v55 y = _; rw [h41, e55]; rfl
  have e57 : v57 y = (n33 a b c d e f g) * (n32 a b c d e f g) := by
    show v41 y * v40 y = _; rw [h41, h40]
  have e58 : v58 y = n50 a b c d e f g := by
    show v56 y * v32 y = _; rw [e56, h32]; rfl
  have e59 : v59 y = ((n33 a b c d e f g) * (n32 a b c d e f g)) * e := by
    show v57 y * v9 y = _; rw [e57, h9]
  have e60 : v60 y = n52 a b c d e f g := by
    show v58 y * v9 y = _; rw [e58, h9]; rfl
  have e61 : v61 y = (((n33 a b c d e f g) * (n32 a b c d e f g)) * e) - (n52 a b c d e f g) := by
    show v59 y - v60 y = _; rw [e59, e60]
  have e62 : v62 y = (n36 b e f) * e := by
    show v44 y * v9 y = _; rw [e44, h9]
  have e63 : v63 y = ((((n33 a b c d e f g) * (n32 a b c d e f g)) * e) - (n52 a b c d e f g)) * ((n36 b e f) * e) := by
    show v61 y * v62 y = _; rw [e61, e62]
  have e64 : v64 y = (n50 a b c d e f g) + (n52 a b c d e f g) := by
    show v58 y + v60 y = _; rw [e58, e60]
  have e65 : v65 y = (n37 a b c d e f g) * f := by
    show v45 y * v11 y = _; rw [e45, h11]
  have e66 : v66 y = ((n50 a b c d e f g) + (n52 a b c d e f g)) * ((n37 a b c d e f g) * f) := by
    show v64 y * v65 y = _; rw [e64, e65]
  have e67 : v67 y = n59 a b c d e f g := by
    show v63 y + v66 y = _; rw [e63, e66]; rfl
  have e68 : v68 y = (n59 a b c d e f g) * (n34 a b c d e f g) := by
    show v67 y * v42 y = _; rw [e67, e42]
  have e69 : v69 y = (n39 a b c d e f g) * (n34 a b c d e f g) := by
    show v47 y * v42 y = _; rw [e47, e42]
  have e70 : v70 y = (n59 a b c d e f g) * (n42 a b c d e f g) := by
    show v67 y * v50 y = _; rw [e67, e50]
  have e71 : v71 y = (n43 a c e f) * (n39 a b c d e f g) := by
    show v51 y * v47 y = _; rw [e51, e47]
  have e72 : v72 y = ((n59 a b c d e f g) * (n34 a b c d e f g)) - ((n39 a b c d e f g) * (n34 a b c d e f g)) := by
    show v68 y - v69 y = _; rw [e68, e69]
  have e73 : v73 y = (((n59 a b c d e f g) * (n34 a b c d e f g)) - ((n39 a b c d e f g) * (n34 a b c d e f g))) * (n32 a b c d e f g) := by
    show v72 y * v40 y = _; rw [e72, h40]
  have e74 : v74 y = ((n59 a b c d e f g) * (n42 a b c d e f g)) - ((n43 a c e f) * (n39 a b c d e f g)) := by
    show v70 y - v71 y = _; rw [e70, e71]
  have e75 : v75 y = (((n59 a b c d e f g) * (n42 a b c d e f g)) - ((n43 a c e f) * (n39 a b c d e f g))) * (n32 a b c d e f g) := by
    show v74 y * v40 y = _; rw [e74, h40]
  have e76 : v76 y = n68 a b c d e f g := by
    show v73 y + v75 y = _; rw [e73, e75]; rfl
  have e77 : v77 y = n69 a b c d e f g := by
    show v67 y * v56 y = _; rw [e67, e56]; rfl
  have e78 : v78 y = (n68 a b c d e f g) + (n69 a b c d e f g) := by
    show v76 y + v77 y = _; rw [e76, e77]
  have e79 : v79 y = (n59 a b c d e f g) + ((n68 a b c d e f g) + (n69 a b c d e f g)) := by
    show v67 y + v78 y = _; rw [e67, e78]
  have e80 : v80 y = (n69 a b c d e f g) * (n34 a b c d e f g) := by
    show v77 y * v42 y = _; rw [e77, e42]
  have e81 : v81 y = ((n69 a b c d e f g) * (n34 a b c d e f g)) * (n32 a b c d e f g) := by
    show v80 y * v40 y = _; rw [e80, h40]
  have e82 : v82 y = (n68 a b c d e f g) * (n42 a b c d e f g) := by
    show v76 y * v50 y = _; rw [e76, e50]
  have e83 : v83 y = ((n68 a b c d e f g) * (n42 a b c d e f g)) * (n32 a b c d e f g) := by
    show v82 y * v40 y = _; rw [e82, h40]
  have e84 : v84 y = (n59 a b c d e f g) * (n34 a b c d e f g) := by
    show v67 y * v42 y = _; rw [e67, e42]
  have e85 : v85 y = ((n59 a b c d e f g) * (n34 a b c d e f g)) * (n32 a b c d e f g) := by
    show v84 y * v40 y = _; rw [e84, h40]
  have e86 : v86 y = (n59 a b c d e f g) * (n42 a b c d e f g) := by
    show v67 y * v50 y = _; rw [e67, e50]
  have e87 : v87 y = ((n59 a b c d e f g) * (n42 a b c d e f g)) * (n32 a b c d e f g) := by
    show v86 y * v40 y = _; rw [e86, h40]
  have e88 : v88 y = (((n59 a b c d e f g) * (n34 a b c d e f g)) * (n32 a b c d e f g)) - (((n59 a b c d e f g) * (n42 a b c d e f g)) * (n32 a b c d e f g)) := by
    show v85 y - v87 y = _; rw [e85, e87]
  have e89 : v89 y = (((n69 a b c d e f g) * (n34 a b c d e f g)) * (n32 a b c d e f g)) + (((n68 a b c d e f g) * (n42 a b c d e f g)) * (n32 a b c d e f g)) := by
    show v81 y + v83 y = _; rw [e81, e83]
  have e90 : v90 y = ((((n59 a b c d e f g) * (n34 a b c d e f g)) * (n32 a b c d e f g)) - (((n59 a b c d e f g) * (n42 a b c d e f g)) * (n32 a b c d e f g))) + ((((n69 a b c d e f g) * (n34 a b c d e f g)) * (n32 a b c d e f g)) + (((n68 a b c d e f g) * (n42 a b c d e f g)) * (n32 a b c d e f g))) := by
    show v88 y + v89 y = _; rw [e88, e89]
  have e91 : v91 y = (n59 a b c d e f g) - ((n59 a b c d e f g) + ((n68 a b c d e f g) + (n69 a b c d e f g))) := by
    show v67 y - v79 y = _; rw [e67, e79]
  have e92 : v92 y = n84 a b c d e f g := by
    show v90 y - v91 y = _; rw [e90, e91]; rfl
  have e93 : v93 y = (n84 a b c d e f g) * (n32 a b c d e f g) := by
    show v92 y * v40 y = _; rw [e92, h40]
  have e94 : v94 y = (n84 a b c d e f g) * (n43 a c e f) := by
    show v92 y * v51 y = _; rw [e92, e51]
  have e95 : v95 y = out a b c d e f g := by
    show v93 y - v94 y = _; rw [e93, e94]; rfl
  exact e95

/-! ## The chain at an index -/

/-- The body's stored value at an index is the specification's expression of the seven blocks' entries there. -/
theorem chain1_apply (xa xb xc xd xe xf xg : Vec Ideal S128x1024 .f32) (y : S128x1024.Idx) :
    chain1 xa xb xc xd xe xf xg y = out (xa y) (xb y) (xc y) (xd y) (xe y) (xf y) (xg y) := by
  unfold chain1
  simp only [View.ld_unit_zero (S := S128x1024) hz1]
  exact pay1_apply _ _ _ _ _ _ _ _ _ _ _ _ _ y (xa y) (xb y) (xc y) (xd y) (xe y) (xf y) (xg y)
    (pay2_apply xa y) (pay3_apply xb y) (pay5_apply xe y) (pay6_apply xf y)
    (pay10_apply xa xb xc xd xg y) (pay11_apply xa xb xc xe xf y) (pay12_apply xa xb xc xd xe xf xg y)
    (pay13_apply xe xf y) (pay14_apply xa xc xe xf y) (pay15_apply xa xb xc xd xe xf xg y)
    (pay16_apply xa xb xc xd xe xf xg y) (pay17_apply xa xb xc xd xe xf xg y) (pay18_apply xa xb xc xd xe xf xg y)

end Cert.KernelIdeal.Hand

end
-- ==== Proof.KI.R1Value.lean ====
/-
  Region 1's result array. Point t of the grid writes back rows 128 t .. 128 t + 127 of the result; what it writes is
  the chain's value of the same rows of the seven product arrays, and the chain is computed entry by entry, so the
  block is the restriction to those rows of one function of the whole arrays: the specification's expression of the
  seven arrays' entries at the same index. Row r lies in the block of point r / 128, so the eight blocks cover the
  array, and the array ends holding that function.
-/
import proofs.«173517_j27041114096025_1_alg».proof.Proof.KI.R1Data
import proofs.«173517_j27041114096025_1_alg».proof.Proof.KI.R1Chain
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

-- the TensorCore's buffer contents when the region is entered, as extended reals
variable (V : (c : Dev nD) → (b : Ref sig .tc) → Buf (Elt Ideal) ((c : Thread nD τ).loc b))

/-! ## The index maps over the grid -/

/-- Every window's block at point t is the t-th block of 128 rows and the only block of columns. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## What a point writes back -/

/-- What point t writes back is block t of the specification's expression of the seven arrays, entry by entry. -/
theorem flushed1_7_eq (c : Dev nD) (t : Fin cfg1.N) :
    (dat1 V c).flushed 7 t = ((cfg1.win 7).blk t).view.read (Elt Ideal) (fun i => out (V c main_v0_0 i) (V c main_v0_1 i) (V c main_v0_2 i) (V c main_v0_3 i) (V c main_v0_4 i) (V c main_v0_5 i) (V c main_v0_6 i)) := by
  show (cfg1.win 7).cut (grid1.coords t) ((dat1 V c).after 7 t) = _
  rw [after1_7]
  unfold out1_7
  rw [View.canon_unit_zero hz1]
  obtain ⟨a0, b0, a1, b1, a2, b2, a3, b3, a4, b4, a5, b5, a6, b6, a7, b7⟩ := idx_facts1 t
  funext j
  refine (chain1_apply (iblk1 V c 0 t) (iblk1 V c 1 t) (iblk1 V c 2 t) (iblk1 V c 3 t) (iblk1 V c 4 t) (iblk1 V c 5 t) (iblk1 V c 6 t) j).trans ?_
  show out (V c main_v0_0 (((cfg1.win 0).blk t).view.emb j)) (V c main_v0_1 (((cfg1.win 1).blk t).view.emb j)) (V c main_v0_2 (((cfg1.win 2).blk t).view.emb j)) (V c main_v0_3 (((cfg1.win 3).blk t).view.emb j)) (V c main_v0_4 (((cfg1.win 4).blk t).view.emb j)) (V c main_v0_5 (((cfg1.win 5).blk t).view.emb j)) (V c main_v0_6 (((cfg1.win 6).blk t).view.emb j))
    = out (V c main_v0_0 (((cfg1.win 7).blk t).view.emb j)) (V c main_v0_1 (((cfg1.win 7).blk t).view.emb j)) (V c main_v0_2 (((cfg1.win 7).blk t).view.emb j)) (V c main_v0_3 (((cfg1.win 7).blk t).view.emb j)) (V c main_v0_4 (((cfg1.win 7).blk t).view.emb j)) (V c main_v0_5 (((cfg1.win 7).blk t).view.emb j)) (V c main_v0_6 (((cfg1.win 7).blk t).view.emb j))
  have h0 : ((cfg1.win 0).blk t).view.emb j = ((cfg1.win 7).blk t).view.emb j := by
    funext a; apply Fin.ext
    match a with
    | ⟨0, _⟩ => show win1_0.index t (0 : Fin 2) * 128 + 1 * (j 0).val = win1_7.index t (0 : Fin 2) * 128 + 1 * (j 0).val; omega
    | ⟨1, _⟩ => show win1_0.index t (1 : Fin 2) * 1024 + 1 * (j 1).val = win1_7.index t (1 : Fin 2) * 1024 + 1 * (j 1).val; omega
  have h1 : ((cfg1.win 1).blk t).view.emb j = ((cfg1.win 7).blk t).view.emb j := by
    funext a; apply Fin.ext
    match a with
    | ⟨0, _⟩ => show win1_1.index t (0 : Fin 2) * 128 + 1 * (j 0).val = win1_7.index t (0 : Fin 2) * 128 + 1 * (j 0).val; omega
    | ⟨1, _⟩ => show win1_1.index t (1 : Fin 2) * 1024 + 1 * (j 1).val = win1_7.index t (1 : Fin 2) * 1024 + 1 * (j 1).val; omega
  have h2 : ((cfg1.win 2).blk t).view.emb j = ((cfg1.win 7).blk t).view.emb j := by
    funext a; apply Fin.ext
    match a with
    | ⟨0, _⟩ => show win1_2.index t (0 : Fin 2) * 128 + 1 * (j 0).val = win1_7.index t (0 : Fin 2) * 128 + 1 * (j 0).val; omega
    | ⟨1, _⟩ => show win1_2.index t (1 : Fin 2) * 1024 + 1 * (j 1).val = win1_7.index t (1 : Fin 2) * 1024 + 1 * (j 1).val; omega
  have h3 : ((cfg1.win 3).blk t).view.emb j = ((cfg1.win 7).blk t).view.emb j := by
    funext a; apply Fin.ext
    match a with
    | ⟨0, _⟩ => show win1_3.index t (0 : Fin 2) * 128 + 1 * (j 0).val = win1_7.index t (0 : Fin 2) * 128 + 1 * (j 0).val; omega
    | ⟨1, _⟩ => show win1_3.index t (1 : Fin 2) * 1024 + 1 * (j 1).val = win1_7.index t (1 : Fin 2) * 1024 + 1 * (j 1).val; omega
  have h4 : ((cfg1.win 4).blk t).view.emb j = ((cfg1.win 7).blk t).view.emb j := by
    funext a; apply Fin.ext
    match a with
    | ⟨0, _⟩ => show win1_4.index t (0 : Fin 2) * 128 + 1 * (j 0).val = win1_7.index t (0 : Fin 2) * 128 + 1 * (j 0).val; omega
    | ⟨1, _⟩ => show win1_4.index t (1 : Fin 2) * 1024 + 1 * (j 1).val = win1_7.index t (1 : Fin 2) * 1024 + 1 * (j 1).val; omega
  have h5 : ((cfg1.win 5).blk t).view.emb j = ((cfg1.win 7).blk t).view.emb j := by
    funext a; apply Fin.ext
    match a with
    | ⟨0, _⟩ => show win1_5.index t (0 : Fin 2) * 128 + 1 * (j 0).val = win1_7.index t (0 : Fin 2) * 128 + 1 * (j 0).val; omega
    | ⟨1, _⟩ => show win1_5.index t (1 : Fin 2) * 1024 + 1 * (j 1).val = win1_7.index t (1 : Fin 2) * 1024 + 1 * (j 1).val; omega
  have h6 : ((cfg1.win 6).blk t).view.emb j = ((cfg1.win 7).blk t).view.emb j := by
    funext a; apply Fin.ext
    match a with
    | ⟨0, _⟩ => show win1_6.index t (0 : Fin 2) * 128 + 1 * (j 0).val = win1_7.index t (0 : Fin 2) * 128 + 1 * (j 0).val; omega
    | ⟨1, _⟩ => show win1_6.index t (1 : Fin 2) * 1024 + 1 * (j 1).val = win1_7.index t (1 : Fin 2) * 1024 + 1 * (j 1).val; omega
  rw [h0, h1, h2, h3, h4, h5, h6]

/-! ## The blocks cover the array -/

/-- An index of the array is in point t's block iff each coordinate is in the block's range on its axis. -/
theorem mem_blk1_7 (t : Fin cfg1.N) (i : S1024x1024.Idx) :
    i ∈ ((cfg1.win 7).blk t).view.set ↔ ∀ a : Fin 2, win1_7.index t a * S128x1024.size a ≤ (i a).val ∧ (i a).val < win1_7.index t a * S128x1024.size a + S128x1024.size a := by
  show i ∈ ((View.whole main_v1).slice (win1_7.rect t)).set ↔ _
  rw [View.set_slice_whole, Rect.mem_set_unit]
  exact Iff.rfl

/-- Row r is in the block of point r / 128. -/
theorem rows_cover1_7 (i : S1024x1024.Idx) :
    ∃ t : Fin cfg1.N, (cfg1.win 7).flush t = true ∧ i ∈ ((cfg1.win 7).blk t).view.set := by
  have hi0 : (i 0).val < 1024 := (i 0).isLt
  have hi1 : (i 1).val < 1024 := (i 1).isLt
  have hN : cfg1.N = 8 := N_1
  let t : Fin cfg1.N := ⟨(i 0).val / 128, by rw [hN]; omega⟩
  have ht : t.val = (i 0).val / 128 := rfl
  obtain ⟨-, -, -, -, -, -, -, -, -, -, -, -, -, -, a7, b7⟩ := idx_facts1 t
  refine ⟨t, flush1_7 t, ?_⟩
  rw [mem_blk1_7]
  intro a
  match a with
  | ⟨0, _⟩ => show win1_7.index t (0 : Fin 2) * 128 ≤ (i 0).val ∧ (i 0).val < win1_7.index t (0 : Fin 2) * 128 + 128; omega
  | ⟨1, _⟩ => show win1_7.index t (1 : Fin 2) * 1024 ≤ (i 1).val ∧ (i 1).val < win1_7.index t (1 : Fin 2) * 1024 + 1024; omega

/-! ## The array after the run -/

/-- The result array after the region's run: the specification's expression of the seven product arrays, entry by entry. -/
theorem final1 (c : Dev nD) : (dat1 V c).arrAt 7 cfg1.N
    = fun i => Cert.Spec.out (V c main_v0_0 i) (V c main_v0_1 i) (V c main_v0_2 i) (V c main_v0_3 i) (V c main_v0_4 i) (V c main_v0_5 i) (V c main_v0_6 i) :=
  (dat1 V c).arrAt_eq_of_cover 7 _ (fun t _ => flushed1_7_eq V c t) rows_cover1_7

end Cert.KernelIdeal.Hand

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.RefValue.lean ====
/-
  The reference program's result, entry by entry.

  The reference forms the seven matrix products A = x1 x2, B = x1 x3, C = x1 x1, D = x2 x1, E = x2 x2, F = x2 x3,
  G = x3 x2 of its three arguments and then combines them entry by entry. A product contracted over one axis, read
  at entry (p, q), is the plain sum over k of the left factor at (p, k) times the right factor at (k, q). Every later
  operation is pointwise (a sum, a difference, a product, a negation, the constant 2), so each shared node of the
  expression, read at (p, q), is the specification's node of the same number at the seven products' entries. The
  nodes are taken one at a time, in the order they are computed, each from the ones before it: the expression is a
  graph and is never opened into its tree.
-/
import proofs.«173517_j27041114096025_1_alg».proof.Proof.Gen.ReferenceIdeal.Run
import proofs.«173517_j27041114096025_1_alg».proof.Proof.Spec
import proofs.«173517_j27041114096025_1_alg».proof.Proof.LibPlainDot
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-! ## The pieces: the constant 2, a negation, a product at an entry -/

/-- The word 0x40000000 is the real number 2. -/
theorem two_f32 : Ideal.ofBits .f32 0x40000000#32 = 2 := by
  rw [show (2 : EReal) = ((2 : ℝ) : EReal) by norm_cast]
  simp [Ideal.ofBits, Ideal.ieee, -EReal.coe_mul]; norm_num

/-- The scalar constant 2 spread over the matrix reads 2 at every entry. -/
theorem two_entry (i : S1024x1024.Idx) :
    broadcastInDim S1024x1024 ![] bcast_S_S1024x1024 (constant (F := Ideal) S_ .f32 0x40000000#32) i = 2 := by
  rw [broadcastInDim_scalar_apply, constant_apply, two_f32]

/-- The negation of a matrix, at an entry, is the negation of the entry. -/
theorem hostNegf_apply (a : FVec Ideal S1024x1024 .f32) (i : S1024x1024.Idx) : Host.negf a i = -(a i) := rfl

/-- A product of two 1024 x 1024 matrices at entry (p, q): the sum over k of x (p, k) * y (k, q). -/
theorem dot_entry (x y : FVec Ideal S1024x1024 .f32) (p q : Fin 1024) :
    Host.dotGeneral dot_S1024x1024_S1024x1024_S1024x1024_1_0_0_1_n_n none x y (ix2 p q) = Cert.Spec.mm x y p q :=
  Cert.LibPlainDot.dotGeneral_apply dot_S1024x1024_S1024x1024_S1024x1024_1_0_0_1_n_n rfl rfl rfl rfl rfl rfl none .single x y p q

variable (V0 : Valuation τ sig (Elt Ideal)) (p q : Fin 1024)

/-! ## The seven products' entries at (p, q) -/

/-- Entry (p, q) of A = x1 x2. -/
def eA : EReal := Cert.Spec.mm (V0 (Proc.devRef .tc main_arg0)) (V0 (Proc.devRef .tc main_arg1)) p q
/-- Entry (p, q) of B = x1 x3. -/
def eB : EReal := Cert.Spec.mm (V0 (Proc.devRef .tc main_arg0)) (V0 (Proc.devRef .tc main_arg2)) p q
/-- Entry (p, q) of C = x1 x1. -/
def eC : EReal := Cert.Spec.mm (V0 (Proc.devRef .tc main_arg0)) (V0 (Proc.devRef .tc main_arg0)) p q
/-- Entry (p, q) of D = x2 x1. -/
def eD : EReal := Cert.Spec.mm (V0 (Proc.devRef .tc main_arg1)) (V0 (Proc.devRef .tc main_arg0)) p q
/-- Entry (p, q) of E = x2 x2. -/
def eE : EReal := Cert.Spec.mm (V0 (Proc.devRef .tc main_arg1)) (V0 (Proc.devRef .tc main_arg1)) p q
/-- Entry (p, q) of F = x2 x3. -/
def eF : EReal := Cert.Spec.mm (V0 (Proc.devRef .tc main_arg1)) (V0 (Proc.devRef .tc main_arg2)) p q
/-- Entry (p, q) of G = x3 x2. -/
def eG : EReal := Cert.Spec.mm (V0 (Proc.devRef .tc main_arg2)) (V0 (Proc.devRef .tc main_arg1)) p q

/-- Operation 0 is the product A = x1 x2. -/
theorem v0_entry : res_main_v0 V0 (ix2 p q) = eA V0 p q := by
  unfold res_main_v0
  exact dot_entry _ _ p q
/-- Operation 1 is the product B = x1 x3. -/
theorem v1_entry : res_main_v1 V0 (ix2 p q) = eB V0 p q := by
  unfold res_main_v1
  exact dot_entry _ _ p q
/-- Operation 3 is the product D = x2 x1. -/
theorem v3_entry : res_main_v3 V0 (ix2 p q) = eD V0 p q := by
  unfold res_main_v3
  exact dot_entry _ _ p q
/-- Operation 4 is the product E = x2 x2. -/
theorem v4_entry : res_main_v4 V0 (ix2 p q) = eE V0 p q := by
  unfold res_main_v4
  exact dot_entry _ _ p q
/-- Operation 5 is the product F = x2 x3. -/
theorem v5_entry : res_main_v5 V0 (ix2 p q) = eF V0 p q := by
  unfold res_main_v5
  exact dot_entry _ _ p q
/-- Operation 6 is the product G = x3 x2. -/
theorem v6_entry : res_main_v6 V0 (ix2 p q) = eG V0 p q := by
  unfold res_main_v6
  exact dot_entry _ _ p q
/-- Operation 2, the product C = x1 x1, where it is used. -/
theorem v2_entry :
    Host.dotGeneral (F := Ideal) (φ₁ := .f32) (φ₂ := .f32) dot_S1024x1024_S1024x1024_S1024x1024_1_0_0_1_n_n none
        (V0 (Proc.devRef .tc main_arg0)) (V0 (Proc.devRef .tc main_arg0)) (ix2 p q) = eC V0 p q :=
  dot_entry _ _ p q

/-! ## The shared nodes, in the order they are computed -/

/-- Operation 10 at an entry is the specification's node 10: A + C. -/
theorem v10_entry : res_main_v10 V0 (ix2 p q) = Cert.Spec.n10 (eA V0 p q) (eC V0 p q) := by
  unfold res_main_v10
  simp only [addf_apply, v0_entry, v2_entry]
  rfl

/-- Operation 13 at an entry is the specification's node 13: ((A + 2 B) + (A + C)) * (-B). -/
theorem v13_entry : res_main_v13 V0 (ix2 p q) = Cert.Spec.n13 (eA V0 p q) (eB V0 p q) (eC V0 p q) := by
  unfold res_main_v13
  simp only [mulf_apply, addf_apply, hostNegf_apply, v0_entry, v1_entry, v10_entry]
  rw [two_entry]
  rfl

/-- Operation 15 at an entry is the specification's node 15: n13 + (D + G). -/
theorem v15_entry : res_main_v15 V0 (ix2 p q) = Cert.Spec.n15 (eA V0 p q) (eB V0 p q) (eC V0 p q) (eD V0 p q) (eG V0 p q) := by
  unfold res_main_v15
  simp only [addf_apply, v13_entry, v3_entry, v6_entry]
  rfl

/-- Operation 22 at an entry is the specification's node 22: n13 + ((A + E) + 2 F). -/
theorem v22_entry : res_main_v22 V0 (ix2 p q) = Cert.Spec.n22 (eA V0 p q) (eB V0 p q) (eC V0 p q) (eE V0 p q) (eF V0 p q) := by
  unfold res_main_v22
  simp only [mulf_apply, addf_apply, v13_entry, v0_entry, v4_entry, v5_entry]
  rw [two_entry]
  rfl

/-- Operation 23 at an entry is the specification's node 23: (B - (D + G)) + n22. -/
theorem v23_entry : res_main_v23 V0 (ix2 p q) = Cert.Spec.n23 (eA V0 p q) (eB V0 p q) (eC V0 p q) (eD V0 p q) (eE V0 p q) (eF V0 p q) (eG V0 p q) := by
  unfold res_main_v23
  simp only [addf_apply, subf_apply, v1_entry, v3_entry, v6_entry, v22_entry]
  rfl

/-- Operation 24 at an entry is the specification's node 24: E + F. -/
theorem v24_entry : res_main_v24 V0 (ix2 p q) = Cert.Spec.n24 (eE V0 p q) (eF V0 p q) := by
  unfold res_main_v24
  simp only [addf_apply, v4_entry, v5_entry]
  rfl

/-- Operation 26 at an entry is the specification's node 26: (A + C) * (F + E). -/
theorem v26_entry : res_main_v26 V0 (ix2 p q) = Cert.Spec.n26 (eA V0 p q) (eC V0 p q) (eE V0 p q) (eF V0 p q) := by
  unfold res_main_v26
  simp only [mulf_apply, addf_apply, v10_entry, v5_entry, v4_entry]
  rfl

/-- Operation 30 at an entry is the specification's node 30: n26 + (n24 + (n23 + (A + n13))). -/
theorem v30_entry : res_main_v30 V0 (ix2 p q) = Cert.Spec.n30 (eA V0 p q) (eB V0 p q) (eC V0 p q) (eD V0 p q) (eE V0 p q) (eF V0 p q) (eG V0 p q) := by
  unfold res_main_v30
  simp only [addf_apply, v26_entry, v24_entry, v23_entry, v0_entry, v13_entry]
  rfl

/-- Operation 31 at an entry is the specification's node 31: n30 * n15. -/
theorem v31_entry : res_main_v31 V0 (ix2 p q) = Cert.Spec.n31 (eA V0 p q) (eB V0 p q) (eC V0 p q) (eD V0 p q) (eE V0 p q) (eF V0 p q) (eG V0 p q) := by
  unfold res_main_v31
  simp only [mulf_apply, v30_entry, v15_entry]
  rfl

/-- Operation 32 at an entry is the specification's node 32: n31 - G. -/
theorem v32_entry : res_main_v32 V0 (ix2 p q) = Cert.Spec.n32 (eA V0 p q) (eB V0 p q) (eC V0 p q) (eD V0 p q) (eE V0 p q) (eF V0 p q) (eG V0 p q) := by
  unfold res_main_v32
  simp only [subf_apply, v31_entry, v6_entry]
  rfl

/-- Operation 33 at an entry is the specification's node 33: n31 + G. -/
theorem v33_entry : res_main_v33 V0 (ix2 p q) = Cert.Spec.n33 (eA V0 p q) (eB V0 p q) (eC V0 p q) (eD V0 p q) (eE V0 p q) (eF V0 p q) (eG V0 p q) := by
  unfold res_main_v33
  simp only [addf_apply, v31_entry, v6_entry]
  rfl

/-- Operation 34 at an entry is the specification's node 34: n30 * n23. -/
theorem v34_entry : res_main_v34 V0 (ix2 p q) = Cert.Spec.n34 (eA V0 p q) (eB V0 p q) (eC V0 p q) (eD V0 p q) (eE V0 p q) (eF V0 p q) (eG V0 p q) := by
  unfold res_main_v34
  simp only [mulf_apply, v30_entry, v23_entry]
  rfl

/-- Operation 36 at an entry is the specification's node 36: B - (E + F). -/
theorem v36_entry : res_main_v36 V0 (ix2 p q) = Cert.Spec.n36 (eB V0 p q) (eE V0 p q) (eF V0 p q) := by
  unfold res_main_v36
  simp only [addf_apply, subf_apply, v1_entry, v4_entry, v5_entry]
  rfl

/-- Operation 37 at an entry is the specification's node 37: n31 * n22. -/
theorem v37_entry : res_main_v37 V0 (ix2 p q) = Cert.Spec.n37 (eA V0 p q) (eB V0 p q) (eC V0 p q) (eD V0 p q) (eE V0 p q) (eF V0 p q) (eG V0 p q) := by
  unfold res_main_v37
  simp only [mulf_apply, v31_entry, v22_entry]
  rfl

/-- Operation 39 at an entry is the specification's node 39: n37 + (n34 + n36). -/
theorem v39_entry : res_main_v39 V0 (ix2 p q) = Cert.Spec.n39 (eA V0 p q) (eB V0 p q) (eC V0 p q) (eD V0 p q) (eE V0 p q) (eF V0 p q) (eG V0 p q) := by
  unfold res_main_v39
  simp only [addf_apply, v37_entry, v34_entry, v36_entry]
  rfl

/-- Operation 40 at an entry is the specification's node 40: n39 * n15. -/
theorem v40_entry : res_main_v40 V0 (ix2 p q) = Cert.Spec.n40 (eA V0 p q) (eB V0 p q) (eC V0 p q) (eD V0 p q) (eE V0 p q) (eF V0 p q) (eG V0 p q) := by
  unfold res_main_v40
  simp only [mulf_apply, v39_entry, v15_entry]
  rfl

/-- Operation 42 at an entry is the specification's node 42: n40 * E. -/
theorem v42_entry : res_main_v42 V0 (ix2 p q) = Cert.Spec.n42 (eA V0 p q) (eB V0 p q) (eC V0 p q) (eD V0 p q) (eE V0 p q) (eF V0 p q) (eG V0 p q) := by
  unfold res_main_v42
  simp only [mulf_apply, v40_entry, v4_entry]
  rfl

/-- Operation 43 at an entry is the specification's node 43: n26 * A. -/
theorem v43_entry : res_main_v43 V0 (ix2 p q) = Cert.Spec.n43 (eA V0 p q) (eC V0 p q) (eE V0 p q) (eF V0 p q) := by
  unfold res_main_v43
  simp only [mulf_apply, v26_entry, v0_entry]
  rfl

/-- Operation 48 at an entry is the specification's node 48: n33 + ((n40 - n40 * F) + ((n42 - E) + n43)). -/
theorem v48_entry : res_main_v48 V0 (ix2 p q) = Cert.Spec.n48 (eA V0 p q) (eB V0 p q) (eC V0 p q) (eD V0 p q) (eE V0 p q) (eF V0 p q) (eG V0 p q) := by
  unfold res_main_v48
  simp only [mulf_apply, addf_apply, subf_apply, v33_entry, v40_entry, v5_entry, v42_entry, v4_entry, v43_entry]
  rfl

/-- Operation 50 at an entry is the specification's node 50: n48 * n24. -/
theorem v50_entry : res_main_v50 V0 (ix2 p q) = Cert.Spec.n50 (eA V0 p q) (eB V0 p q) (eC V0 p q) (eD V0 p q) (eE V0 p q) (eF V0 p q) (eG V0 p q) := by
  unfold res_main_v50
  simp only [mulf_apply, v48_entry, v24_entry]
  rfl

/-- Operation 52 at an entry is the specification's node 52: n50 * E. -/
theorem v52_entry : res_main_v52 V0 (ix2 p q) = Cert.Spec.n52 (eA V0 p q) (eB V0 p q) (eC V0 p q) (eD V0 p q) (eE V0 p q) (eF V0 p q) (eG V0 p q) := by
  unfold res_main_v52
  simp only [mulf_apply, v50_entry, v4_entry]
  rfl

/-- Operation 59 at an entry is the specification's node 59: ((n33 * n32) * E - n52) * (n36 * E) + (n50 + n52) * (n37 * F). -/
theorem v59_entry : res_main_v59 V0 (ix2 p q) = Cert.Spec.n59 (eA V0 p q) (eB V0 p q) (eC V0 p q) (eD V0 p q) (eE V0 p q) (eF V0 p q) (eG V0 p q) := by
  unfold res_main_v59
  simp only [mulf_apply, addf_apply, subf_apply, v33_entry, v32_entry, v4_entry, v52_entry, v36_entry, v50_entry, v37_entry, v5_entry]
  rfl

/-- Operation 68 at an entry is the specification's node 68: (n59 * n34 - n39 * n34) * n32 + (n59 * n42 - n43 * n39) * n32. -/
theorem v68_entry : res_main_v68 V0 (ix2 p q) = Cert.Spec.n68 (eA V0 p q) (eB V0 p q) (eC V0 p q) (eD V0 p q) (eE V0 p q) (eF V0 p q) (eG V0 p q) := by
  unfold res_main_v68
  simp only [mulf_apply, addf_apply, subf_apply, v59_entry, v34_entry, v39_entry, v32_entry, v42_entry, v43_entry]
  rfl

/-- Operation 69 at an entry is the specification's node 69: n59 * n48. -/
theorem v69_entry : res_main_v69 V0 (ix2 p q) = Cert.Spec.n69 (eA V0 p q) (eB V0 p q) (eC V0 p q) (eD V0 p q) (eE V0 p q) (eF V0 p q) (eG V0 p q) := by
  unfold res_main_v69
  simp only [mulf_apply, v59_entry, v48_entry]
  rfl

/-- Operation 84 at an entry is the specification's node 84: (((n59 n34) n32 - (n59 n42) n32) + ((n69 n34) n32 + (n68 n42) n32)) - (n59 - (n59 + (n68 + n69))). -/
theorem v84_entry : res_main_v84 V0 (ix2 p q) = Cert.Spec.n84 (eA V0 p q) (eB V0 p q) (eC V0 p q) (eD V0 p q) (eE V0 p q) (eF V0 p q) (eG V0 p q) := by
  unfold res_main_v84
  simp only [mulf_apply, addf_apply, subf_apply, v59_entry, v34_entry, v32_entry, v42_entry, v69_entry, v68_entry]
  rfl

/-! ## The result -/

/-- The reference's result at entry (p, q): the expression at the seven products' entries. -/
theorem ref_entry (V0 : Valuation τ sig (Elt Ideal)) (p q : Fin 1024) :
    (subf (mulf (res_main_v84 V0) (res_main_v32 V0)) (mulf (res_main_v84 V0) (res_main_v43 V0))) (ix2 p q)
      = Cert.Spec.result (V0 (Proc.devRef .tc main_arg0)) (V0 (Proc.devRef .tc main_arg1)) (V0 (Proc.devRef .tc main_arg2)) p q := by
  simp only [subf_apply, mulf_apply, v84_entry, v32_entry, v43_entry]
  rfl

/-- Every weakly fair execution of the reference ends with its result array the specification's result of the three
    argument arrays, entry by entry, and the arguments unchanged. -/
theorem ref_run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v87)
          = (fun i => Cert.Spec.result (m ((c.tc : Thread nD τ).loc main_arg0)) (m ((c.tc : Thread nD τ).loc main_arg1))
              (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono
    (fun _ h c => ⟨(h c).1.trans (funext fun i => by
        rw [eq_ix2 i]
        exact ref_entry (launchContents m c) (i 0) (i 1)), (h c).2⟩)
    (Cert.ReferenceIdeal.Value.run (F := Ideal) m ρ)

end Cert.ReferenceIdeal.RefValue

end
-- ==== Proof.lean ====
/-
  The certificate of a two-stage kernel against its reference.

  THE MATHEMATICS. From three 1024 x 1024 matrices x1, x2, x3 both programs form the seven products
      A = x1 x2,  B = x1 x3,  C = x1 x1,  D = x2 x1,  E = x2 x2,  F = x2 x3,  G = x3 x2
  and then, entry by entry, one fixed expression of the seven entries built from sums, differences and products
  (Proof/Spec.lean names its shared nodes). The reference computes each product as one contraction over all 1024
  indices; the kernel's first stage computes it on a 4 x 4 x 4 grid, accumulating over four blocks of 256 contracted
  indices in a scratch buffer that is zeroed at the first block and copied out at the last, its operands narrowed to
  a shorter float format on the way to the matrix unit. Over the extended reals a change of float format is the
  identity, and a sum over four blocks of 256 consecutive indices is the sum over all 1024 (addition of extended
  reals is commutative and associative, infinite values included), so no finiteness is needed: the products agree
  entry by entry. The second stage evaluates the expression on row blocks of 128 rows, node for node as the reference
  does, except that it writes the negation of B as 0 - B, which is -B on every extended real.

  THE PARTS. Proof/KI/* is the idealized kernel: each stage's body run at a grid point, what its buffers hold after
  every point, the launch of the two stages one after the other (Main), and what the output arrays hold at the end
  (R0Value: the seven products; R1Value: the expression of the seven arrays). Proof/K/* is the same frame for the
  word-level kernel, which is the same program text. Proof/RefValue.lean reads the reference's run at an entry.
  Here the five claims are assembled.
-/
import proofs.«173517_j27041114096025_1_alg».proof.Defs
import proofs.«173517_j27041114096025_1_alg».proof.Proof.Gen.Kernel
import proofs.«173517_j27041114096025_1_alg».proof.Proof.Gen.KernelIdeal
import proofs.«173517_j27041114096025_1_alg».proof.Proof.Gen.ReferenceIdeal
import proofs.«173517_j27041114096025_1_alg».proof.Proof.Gen.Pre_finite_inputs
import proofs.«173517_j27041114096025_1_alg».proof.Proof.K.Main
import proofs.«173517_j27041114096025_1_alg».proof.Proof.KI.Main
import proofs.«173517_j27041114096025_1_alg».proof.Proof.KI.R0Value
import proofs.«173517_j27041114096025_1_alg».proof.Proof.KI.R1Value
import proofs.«173517_j27041114096025_1_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

section Kernel

open Cert.KernelIdeal Cert.KernelIdeal.Hand

variable (m : (ℓ : Loc Cert.KernelIdeal.nD Cert.KernelIdeal.τ Cert.KernelIdeal.sig) → Buf (Elt Ideal) ℓ)

/-- The idealized kernel's result array: the second stage's expression of the seven arrays the first stage left,
    each of which is a product of two argument arrays. -/
theorem kernel_result (c : Dev Cert.KernelIdeal.nD) :
    (dat1 (U1 m) c).arrAt 7 cfg1.N
      = fun i => Cert.Spec.result (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg2)) (i 0) (i 1) := by
  have eA : U1 m c main_v0_0 = _ := (W1_main_v0_0 m c).trans (final0_A (U0 m) c)
  have eB : U1 m c main_v0_1 = _ := (W1_main_v0_1 m c).trans (final0_B (U0 m) c)
  have eC : U1 m c main_v0_2 = _ := (W1_main_v0_2 m c).trans (final0_C (U0 m) c)
  have eD : U1 m c main_v0_3 = _ := (W1_main_v0_3 m c).trans (final0_D (U0 m) c)
  have eE : U1 m c main_v0_4 = _ := (W1_main_v0_4 m c).trans (final0_E (U0 m) c)
  have eF : U1 m c main_v0_5 = _ := (W1_main_v0_5 m c).trans (final0_F (U0 m) c)
  have eG : U1 m c main_v0_6 = _ := (W1_main_v0_6 m c).trans (final0_G (U0 m) c)
  rw [final1 (U1 m) c, eA, eB, eC, eD, eE, eF, eG]
  rfl

end Kernel

/-- At the ideal instance, from memories agreeing on the arguments, both programs end with the same result: entry
    (p, q) is the expression at the seven products' entries (p, q). -/
theorem algebraic : Cert.algebraic_KernelIdeal_ReferenceIdeal := by
  intro m ρ m' ρ' _ hagree
  refine ⟨fun c => fun i => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1), ?_, ?_⟩
  · exact (θ_run Cert.KernelIdeal.defs _ _).mono (fun r h c => ⟨(h c).1.trans (kernel_result m c), (h c).2⟩)
      (Cert.KernelIdeal.Hand.run_result m ρ)
  · refine (θ_run Cert.ReferenceIdeal.defs _ _).mono (fun r h c => ⟨(h c).1.trans ?_, (h c).2⟩)
      (Cert.ReferenceIdeal.RefValue.ref_run m' ρ')
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
